-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x10 : Shape := ⟨2, ![1024, 10]⟩
abbrev S100000x64 : Shape := ⟨2, ![100000, 64]⟩
abbrev S100000x10 : Shape := ⟨2, ![100000, 10]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x10 : S_.BroadcastsInDim S1024x10 (![] : Fin 0 → Fin S1024x10.rank)
  reducesTo_S1024x10_S_d0_1 : S1024x10.ReducesTo [0, 1] S_
  bcast_S_S100000x64 : S_.BroadcastsInDim S100000x64 (![] : Fin 0 → Fin S100000x64.rank)
  reducesTo_S100000x64_S_d0_1 : S100000x64.ReducesTo [0, 1] S_
  bcast_S_S100000x10 : S_.BroadcastsInDim S100000x10 (![] : Fin 0 → Fin S100000x10.rank)
  reducesTo_S100000x10_S_d0_1 : S100000x10.ReducesTo [0, 1] S_

variable [Facts]

def fn_part1 {F : FTy → Type} [FloatOps F] (main_v13 : IVec S_ 1) (main_v16 : IVec S100000x10 1) : IVec S_ 1 :=
  let main_c_5 : IVec S_ 1 := constantI S_ 1 1#1
  let main_v17 : IVec S_ 1 := (fun x v => Host.reduce IntOp.andi x v reducesTo_S100000x10_S_d0_1 h_S_) main_v16 main_c_5
  let main_v18 : IVec S_ 1 := andi main_v13 main_v17
  main_v18

def fn {F : FTy → Type} [FloatOps F] (main_arg0 : FVec F S1024x64 .f32) (main_arg1 : FVec F S1024x10 .f32) (main_arg2 : FVec F S100000x64 .f32) (main_arg3 : FVec F S100000x10 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x10 .f32 := Host.absf main_arg1
  let main_cst_0 : FVec F S_ .f32 := constant S_ .f32 0x7F800000#32
  let main_v5 : FVec F S1024x10 .f32 := broadcastInDim S1024x10 ![] bcast_S_S1024x10 main_cst_0
  let main_v6 : IVec S1024x10 1 := cmpf .olt main_v4 main_v5
  let main_c_1 : IVec S_ 1 := constantI S_ 1 1#1
  let main_v7 : IVec S_ 1 := (fun x v => Host.reduce IntOp.andi x v reducesTo_S1024x10_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x10 .f32 := Host.absf main_arg3
  let main_cst_4 : FVec F S_ .f32 := constant S_ .f32 0x7F800000#32
  let main_v15 : FVec F S100000x10 .f32 := broadcastInDim S100000x10 ![] bcast_S_S100000x10 main_cst_4
  let main_v16 : IVec S100000x10 1 := cmpf .olt main_v14 main_v15
  fn_part1 (F := F) main_v13 main_v16
-- ==== Kernel.lean ====
abbrev S1024x64 : Shape := ⟨2, ![1024, 64]⟩
abbrev S1024x10 : Shape := ⟨2, ![1024, 10]⟩
abbrev S100000x64 : Shape := ⟨2, ![100000, 64]⟩
abbrev S100000x10 : Shape := ⟨2, ![100000, 10]⟩
abbrev S64x1024 : Shape := ⟨2, ![64, 1024]⟩
abbrev S1x1024 : Shape := ⟨2, ![1, 1024]⟩
abbrev S100000x74 : Shape := ⟨2, ![100000, 74]⟩
abbrev S2000x64 : Shape := ⟨2, ![2000, 64]⟩
abbrev S1024 : Shape := ⟨1, ![1024]⟩
abbrev S2000 : Shape := ⟨1, ![2000]⟩
abbrev S2000x1 : Shape := ⟨2, ![2000, 1]⟩
abbrev S2000x1024 : Shape := ⟨2, ![2000, 1024]⟩
abbrev S2000x10 : Shape := ⟨2, ![2000, 10]⟩
abbrev S2000x74 : Shape := ⟨2, ![2000, 74]⟩

abbrev nBuf : Space → Nat
  | .hbm => 8
  | .vmem => 16
  | .smem => 0
  | _ => 0

abbrev bufTy : (tb : Table) → Fin (tcTables nBuf tb) → BufTy
  | .hbm, ⟨0, _⟩ => ⟨S1024x64, .f32⟩
  | .hbm, ⟨1, _⟩ => ⟨S1024x10, .f32⟩
  | .hbm, ⟨2, _⟩ => ⟨S100000x64, .f32⟩
  | .hbm, ⟨3, _⟩ => ⟨S100000x10, .f32⟩
  | .hbm, ⟨4, _⟩ => ⟨S64x1024, .f32⟩
  | .hbm, ⟨5, _⟩ => ⟨S1x1024, .f32⟩
  | .hbm, ⟨6, _⟩ => ⟨S1x1024, .f32⟩
  | .hbm, ⟨7, _⟩ => ⟨S100000x74, .f32⟩
  | .local _ .vmem, ⟨0, _⟩ => ⟨S64x1024, .f32⟩
  | .local _ .vmem, ⟨1, _⟩ => ⟨S2000x64, .f32⟩
  | .local _ .vmem, ⟨2, _⟩ => ⟨S2000x64, .f32⟩
  | .local _ .vmem, ⟨3, _⟩ => ⟨S1x1024, .f32⟩
  | .local _ .vmem, ⟨4, _⟩ => ⟨S1x1024, .f32⟩
  | .local _ .vmem, ⟨5, _⟩ => ⟨S64x1024, .f32⟩
  | .local _ .vmem, ⟨6, _⟩ => ⟨S1024x64, .f32⟩
  | .local _ .vmem, ⟨7, _⟩ => ⟨S1024x10, .f32⟩
  | .local _ .vmem, ⟨8, _⟩ => ⟨S1x1024, .f32⟩
  | .local _ .vmem, ⟨9, _⟩ => ⟨S1x1024, .f32⟩
  | .local _ .vmem, ⟨10, _⟩ => ⟨S2000x64, .f32⟩
  | .local _ .vmem, ⟨11, _⟩ => ⟨S2000x64, .f32⟩
  | .local _ .vmem, ⟨12, _⟩ => ⟨S2000x10, .f32⟩
  | .local _ .vmem, ⟨13, _⟩ => ⟨S2000x10, .f32⟩
  | .local _ .vmem, ⟨14, _⟩ => ⟨S2000x74, .f32⟩
  | .local _ .vmem, ⟨15, _⟩ => ⟨S2000x74, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_11 : BitVec 32 := 0#32
  let v29 : BitVec 1 := Scalar.cmpi .ne v28 c0_i32_11
  v29

def k0_cond2 (i : grid0.Coords) : BitVec 1 :=
  let arg0 : BitVec 32 := BitVec.ofNat 32 (i 0).val
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x74 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S1024x64_S64x1024_1_0 : S1024x64.Transposes [1, 0] S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x1024_S1024 : S64x1024.Reduces [0] S1024
  shapeCasts_S1024_S1x1024 : S1024.ShapeCasts S1x1024
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  broadcasts_S2000x1_S2000x1024 : S2000x1.Broadcasts S2000x1024
  broadcasts_S1x1024_S2000x1024 : S1x1024.Broadcasts S2000x1024
  reduces_S2000x1024_S1024 : S2000x1024.Reduces [0] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2000x1024_S2000 : S2000x1024.Reduces [1] S2000
  broadcasts_S2000x1_S2000x64 : S2000x1.Broadcasts S2000x64
  inb_S1024x64_S1024x64_0_0 : ∀ a, (![0, 0] : Fin 2 → Nat) a + S1024x64.size a ≤ S1024x64.size a
  h_S1024x64 : 0 < S1024x64.numel
  inb_S2000x74_S2000x64_0_0 : ∀ a, (![0, 0] : Fin 2 → Nat) a + S2000x64.size a ≤ S2000x74.size a
  inb_S2000x10_S2000x10_0_0 : ∀ a, (![0, 0] : Fin 2 → Nat) a + S2000x10.size a ≤ S2000x10.size a
  h_S2000x10 : 0 < S2000x10.numel
  broadcasts_S2000x1_S2000x10 : S2000x1.Broadcasts S2000x10
  inb_S1024x10_S1024x10_0_0 : ∀ a, (![0, 0] : Fin 2 → Nat) a + S1024x10.size a ≤ S1024x10.size a
  h_S1024x10 : 0 < S1024x10.numel
  inb_S2000x74_S2000x10_0_64 : ∀ a, (![0, 64] : Fin 2 → Nat) a + S2000x10.size a ≤ S2000x74.size a
  dot_S2000x64_S64x1024_S2000x1024_1_0_0_1_n_n_wf : DotDims.WF S2000x64 S64x1024 S2000x1024 [1] [0] [0] [1] [] []
  dot_S2000x1024_S1024x64_S2000x64_1_0_0_1_n_n_wf : DotDims.WF S2000x1024 S1024x64 S2000x64 [1] [0] [0] [1] [] []
  dot_S2000x1024_S1024x10_S2000x10_1_0_0_1_n_n_wf : DotDims.WF S2000x1024 S1024x10 S2000x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x10.size a ≤ S1024x10.size a
  hwx1_2 : ∀ i : grid1.Coords, EltTy.bits .f32 = 32 ∨ (Rect.block (s := S1024x10) S1024x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x10.size a ≤ S100000x10.size a
  hwx1_6 : ∀ i : grid1.Coords, EltTy.bits .f32 = 32 ∨ (Rect.block (s := S100000x10) S2000x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x74.size a ≤ S100000x74.size a
  hwx1_7 : ∀ i : grid1.Coords, EltTy.bits .f32 = 32 ∨ (Rect.block (s := S100000x74) S2000x74.size (cc1_transform_7 i) (hinb1_7 i)).WholeWords (EltTy.packing .f32)

variable [Facts₀]

def dot_S2000x64_S64x1024_S2000x1024_1_0_0_1_n_n : DotDims S2000x64 S64x1024 S2000x1024 where
  lhsContracting := [1]
  rhsContracting := [0]
  lhsNonContracting := [0]
  rhsNonContracting := [1]
  lhsBatch := []
  rhsBatch := []
  wf := dot_S2000x64_S64x1024_S2000x1024_1_0_0_1_n_n_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S2000x1024_S1024x10_S2000x10_1_0_0_1_n_n : DotDims S2000x1024 S1024x10 S2000x10 where
  lhsContracting := [1]
  rhsContracting := [0]
  lhsNonContracting := [0]
  rhsNonContracting := [1]
  lhsBatch := []
  rhsBatch := []
  wf := dot_S2000x1024_S1024x10_S2000x10_1_0_0_1_n_n_wf

abbrev win0_0 : Pipeline.Window sig grid0 :=
  Pipeline.Window.ofSpec (Memref.whole main_call0_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S1x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_call0_v0) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1_0) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_1) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S2000x10.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0) S2000x74.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1024x64 : Shape := ⟨2, ![1024, 64]⟩
abbrev S1024x10 : Shape := ⟨2, ![1024, 10]⟩
abbrev S100000x64 : Shape := ⟨2, ![100000, 64]⟩
abbrev S100000x10 : Shape := ⟨2, ![100000, 10]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S64x100000 : Shape := ⟨2, ![64, 100000]⟩
abbrev S100000x1024 : Shape := ⟨2, ![100000, 1024]⟩
abbrev S100000x1 : Shape := ⟨2, ![100000, 1]⟩
abbrev S100000x74 : Shape := ⟨2, ![100000, 74]⟩

abbrev nBuf : Space → Nat
  | .hbm => 66
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x10, .f32⟩
  | .hbm, ⟨2, _⟩ => ⟨S100000x64, .f32⟩
  | .hbm, ⟨3, _⟩ => ⟨S100000x10, .f32⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S100000x64, .f32⟩
  | .hbm, ⟨9, _⟩ => ⟨S_, .f32⟩
  | .hbm, ⟨10, _⟩ => ⟨S100000, .f32⟩
  | .hbm, ⟨11, _⟩ => ⟨S1x100000, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S64x100000, .f32⟩
  | .hbm, ⟨16, _⟩ => ⟨S1024x100000, .f32⟩
  | .hbm, ⟨17, _⟩ => ⟨S_, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S_, .f32⟩
  | .hbm, ⟨25, _⟩ => ⟨S1024x100000, .f32⟩
  | .hbm, ⟨26, _⟩ => ⟨S1024x100000, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x100000, .f32⟩
  | .hbm, ⟨45, _⟩ => ⟨S1024x100000, .f32⟩
  | .hbm, ⟨46, _⟩ => ⟨S_, .f32⟩
  | .hbm, ⟨47, _⟩ => ⟨S1024x100000, .f32⟩
  | .hbm, ⟨48, _⟩ => ⟨S1024x100000, .f32⟩
  | .hbm, ⟨49, _⟩ => ⟨S_, .f32⟩
  | .hbm, ⟨50, _⟩ => ⟨S100000, .f32⟩
  | .hbm, ⟨51, _⟩ => ⟨S100000x1024, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x1024, .f32⟩
  | .hbm, ⟨59, _⟩ => ⟨S100000x10, .f32⟩
  | .hbm, ⟨60, _⟩ => ⟨S100000x10, .f32⟩
  | .hbm, ⟨61, _⟩ => ⟨S100000x1, .f32⟩
  | .hbm, ⟨62, _⟩ => ⟨S100000x10, .f32⟩
  | .hbm, ⟨63, _⟩ => ⟨S100000x10, .f32⟩
  | .hbm, ⟨64, _⟩ => ⟨S100000x10, .f32⟩
  | .hbm, ⟨65, _⟩ => ⟨S100000x74, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  reducesTo_S100000x64_S100000_d1 : S100000x64.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x64_S64x100000_1_0 : S100000x64.Transposes [1, 0] S64x100000
  bcast_S_S1024x100000 : S_.BroadcastsInDim S1024x100000 (![] : Fin 0 → Fin S1024x100000.rank)
  reducesTo_S1024x100000_S1024_d1 : S1024x100000.ReducesTo [1] S1024
  bcast_S_S1024 : S_.BroadcastsInDim S1024 (![] : Fin 0 → Fin S1024.rank)
  reducesTo_S1024x100000_S100000_d0 : S1024x100000.ReducesTo [0] S100000
  transposes_S1024x100000_S100000x1024_1_0 : S1024x100000.Transposes [1, 0] S100000x1024
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S100000x1_S100000x10_0_1 : S100000x1.BroadcastsInDim S100000x10 (![0, 1] : Fin 2 → Fin S100000x10.rank)
  concatenates_S100000x64_S100000x10_S100000x74_d1 : Shape.Concatenates [S100000x64, S100000x10] S100000x74 1
  dot_S1024x64_S64x100000_S1024x100000_1_0_0_1_n_n_wf : DotDims.WF S1024x64 S64x100000 S1024x100000 [1] [0] [0] [1] [] []
  dot_S100000x1024_S1024x64_S100000x64_1_0_0_1_n_n_wf : DotDims.WF S100000x1024 S1024x64 S100000x64 [1] [0] [0] [1] [] []
  dot_S100000x1024_S1024x10_S100000x10_1_0_0_1_n_n_wf : DotDims.WF S100000x1024 S1024x10 S100000x10 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S100000x1024_S1024x10_S100000x10_1_0_0_1_n_n : DotDims S100000x1024 S1024x10 S100000x10 where
  lhsContracting := [1]
  rhsContracting := [0]
  lhsNonContracting := [0]
  rhsNonContracting := [1]
  lhsBatch := []
  rhsBatch := []
  wf := dot_S100000x1024_S1024x10_S100000x10_1_0_0_1_n_n_wf

class Facts : Prop extends Facts₀ where

variable [Facts]
-- ==== Proof.K.StatsPoints.lean ====
/-
  The statistics pass (the first of the two kernel launches), part 1: what its windows hold and when its two
  branches are taken. The pass walks the memory rows in 50 tiles of 2000 rows. At every tile it forms the
  2000 × 1024 matrix of negated distances between the tile's rows and the 1024 queries. At the first tile it
  stores the column maxima and the column sums of exp(value − column maximum); at each later tile it replaces the
  stored maxima by the larger of old and new, rescales the stored sums by exp(old − new) and adds the tile's
  sums taken against the new maxima. The two outputs are single blocks that stay in their buffers over all
  50 tiles and are written back once, after the last.
-/
import proofs.«144876_g70351564308696_cont_9to1_m_470_2_alg».proof.Proof.Gen.Kernel.Launch
import proofs.«144876_g70351564308696_cont_9to1_m_470_2_alg».proof.Proof.Gen.Kernel.Skeleton
import proofs.«144876_g70351564308696_cont_9to1_m_470_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the pass finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The transposed queries (window 0, one block, fetched once) are in their buffer at every tile. -/
theorem sbefore0_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The tile of memory rows (window 1, fetched at every tile) is in its buffer at every tile. -/
theorem sbefore1_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## The two branches -/

/-- The first branch (store the tile's own maxima and sums) is taken at the first tile only. -/
theorem first_iff : ∀ t : Fin cfg0.N, k0_cond1 (grid0.coords t) = 1#1 ↔ t.val % 50 = 0 :=
  (by decide +kernel : ∀ t : Fin grid0.N, k0_cond1 (grid0.coords t) = 1#1 ↔ t.val % 50 = 0)

/-- The second branch (merge the tile into the stored maxima and sums) is taken at every later tile. -/
theorem later_iff : ∀ t : Fin cfg0.N, k0_cond2 (grid0.coords t) = 1#1 ↔ ¬ t.val % 50 = 0 :=
  (by decide +kernel : ∀ t : Fin grid0.N, k0_cond2 (grid0.coords t) = 1#1 ↔ ¬ t.val % 50 = 0)

/-- One of the two branches is taken at every value of the tile counter, so both outputs are stored at every tile. -/
theorem stored_everywhere : ∀ n : Fin 50,
    (!(Scalar.cmpi .ne (Scalar.extui (Scalar.cmpi .eq (BitVec.ofNat 32 n.val) 0#32)) 0#32 == 1#1)
      && !(Scalar.cmpi .ne (Scalar.extui (Scalar.cmpi .sgt (BitVec.ofNat 32 n.val) 0#32)) 0#32 == 1#1)) = false := by
  decide +kernel

theorem live2 (i : grid0.Coords) : cfg0.idle 2 i = false := stored_everywhere (i 0)
theorem live3 (i : grid0.Coords) : cfg0.idle 3 i = false := stored_everywhere (i 0)

/-! ## The staging memrefs at a tile -/

abbrev sm0 (t : Fin cfg0.N) : Memref sig .tc .vmem S64x1024 .f32 := win0_0.stage (cfg0.slots t 0)
abbrev sh0 (t : Fin cfg0.N) : (sm0 t).IsWhole := hstage0_0 ((cfg0.slots t 0).cast nbuf0_0)
abbrev sm1 (t : Fin cfg0.N) : Memref sig .tc .vmem S2000x64 .f32 := win0_1.stage (cfg0.slots t 1)
abbrev sh1 (t : Fin cfg0.N) : (sm1 t).IsWhole := hstage0_1 ((cfg0.slots t 1).cast nbuf0_1)
abbrev sm2 (t : Fin cfg0.N) : Memref sig .tc .vmem S1x1024 .f32 := win0_2.stage (cfg0.slots t 2)
abbrev sh2 (t : Fin cfg0.N) : (sm2 t).IsWhole := hstage0_2 ((cfg0.slots t 2).cast nbuf0_2)
abbrev sm3 (t : Fin cfg0.N) : Memref sig .tc .vmem S1x1024 .f32 := win0_3.stage (cfg0.slots t 3)
abbrev sh3 (t : Fin cfg0.N) : (sm3 t).IsWhole := hstage0_3 ((cfg0.slots t 3).cast nbuf0_3)

/-- One buffer of each output, through which its contents are stated. -/
abbrev maxView : View sig .tc .vmem S1x1024 .f32 := (Memref.whole cc0_stg2_0 : Memref sig .tc .vmem S1x1024 .f32).view
abbrev sumView : View sig .tc .vmem S1x1024 .f32 := (Memref.whole cc0_stg3_0 : Memref sig .tc .vmem S1x1024 .f32).view

end Cert.Kernel.Hand

end
-- ==== Proof.K.StatsFirst.lean ====
/-
  The statistics pass, part 2: the body at the FIRST tile. Both outputs' buffers hold anything; the body stores the
  tile's column maxima into the first and the tile's column sums of exp(value − maximum) into the second.
-/
import proofs.«144876_g70351564308696_cont_9to1_m_470_2_alg».proof.Proof.K.StatsPoints

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first tile, on whole staging memrefs: it runs to the end, the inputs kept, each output's buffer
    holding the pieces its stores wrote (the lists are found by running the body). -/
noncomputable def firstRun (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) :
    Σ' (L2 : List (View.Piece (Elt F) S1x1024 .f32)), { L3 : List (View.Piece (Elt F) S1x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__stats_body i arg1 harg1 arg2 harg2 arg3 harg3 arg4 harg4) K } := by
  refine ⟨?_, ?_, fun E K => ?run⟩
  case run =>
    simp only [cc0__stats_body_eq_skeleton]; unfold cc0__stats_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.StatsLater.lean ====
/-
  The statistics pass, part 3: the body at a LATER tile. The outputs' buffers hold the running maxima `xo2` and the
  running sums `xo3` left by the tile before; the body reads both, then stores the merged sums and the merged maxima.
-/
import proofs.«144876_g70351564308696_cont_9to1_m_470_2_alg».proof.Proof.K.StatsFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later tile, on whole staging memrefs: it runs to the end, the inputs kept, each output's buffer
    holding the pieces its stores wrote over the running contents (the lists are found by running the body). -/
noncomputable def laterRun (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) :
    Σ' (L2 : List (View.Piece (Elt F) S1x1024 .f32)), { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__stats_body i arg1 harg1 arg2 harg2 arg3 harg3 arg4 harg4) K } := by
  refine ⟨?_, ?_, fun E K => ?run⟩
  case run =>
    simp only [cc0__stats_body_eq_skeleton]; unfold cc0__stats_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.StatsData.lean ====
/-
  The statistics pass, part 4: what its two outputs hold tile by tile, and the body's obligation to the pipeline.
  After the first tile the outputs hold what the first branch stored; after each later tile what the second branch
  stored over the contents the tile before left (the outputs' single blocks are not written back until the end, so
  each tile finds in their buffers exactly what the tile before left there).
-/
import proofs.«144876_g70351564308696_cont_9to1_m_470_2_alg».proof.Proof.K.StatsLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each branch leaves in the two outputs' buffers -/

/-- The first branch's store covers the maxima's buffer. -/
theorem maxCoverFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) (y : S1x1024.Idx) :
    ∃ pc ∈ (firstRun c i arg1 harg1 arg2 harg2 arg3 harg3 arg4 harg4 hc1 hc2 x0 x1).1, y ∈ pc.1.set :=
  View.cover_of_tiledL (firstRun c i arg1 harg1 arg2 harg2 arg3 harg3 arg4 harg4 hc1 hc2 x0 x1).1 S1x1024.size (by sl_kernel_rfl) y

/-- The first branch's store covers the sums' buffer. -/
theorem sumCoverFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) (y : S1x1024.Idx) :
    ∃ pc ∈ (firstRun c i arg1 harg1 arg2 harg2 arg3 harg3 arg4 harg4 hc1 hc2 x0 x1).2.1, y ∈ pc.1.set :=
  View.cover_of_tiledL (firstRun c i arg1 harg1 arg2 harg2 arg3 harg3 arg4 harg4 hc1 hc2 x0 x1).2.1 S1x1024.size (by sl_kernel_rfl) y

/-- The maxima after the first tile. -/
def maxFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) : Vec F S1x1024 .f32 :=
  maxView.read (Elt F) (maxView.writes (Elt F) maxView.junk (firstRun c i arg1 harg1 arg2 harg2 arg3 harg3 arg4 harg4 hc1 hc2 x0 x1).1)

/-- The sums after the first tile. -/
def sumFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) : Vec F S1x1024 .f32 :=
  sumView.read (Elt F) (sumView.writes (Elt F) sumView.junk (firstRun c i arg1 harg1 arg2 harg2 arg3 harg3 arg4 harg4 hc1 hc2 x0 x1).2.1)

/-- The second branch's store covers the maxima's buffer. -/
theorem maxCoverLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) (y : S1x1024.Idx) :
    ∃ pc ∈ (laterRun c i arg1 harg1 arg2 harg2 arg3 harg3 arg4 harg4 hc1 hc2 x0 x1 xo2 xo3).1, y ∈ pc.1.set :=
  View.cover_of_tiledL (laterRun c i arg1 harg1 arg2 harg2 arg3 harg3 arg4 harg4 hc1 hc2 x0 x1 xo2 xo3).1 S1x1024.size (by sl_kernel_rfl) y

/-- The second branch's store covers the sums' buffer. -/
theorem sumCoverLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) (y : S1x1024.Idx) :
    ∃ pc ∈ (laterRun c i arg1 harg1 arg2 harg2 arg3 harg3 arg4 harg4 hc1 hc2 x0 x1 xo2 xo3).2.1, y ∈ pc.1.set :=
  View.cover_of_tiledL (laterRun c i arg1 harg1 arg2 harg2 arg3 harg3 arg4 harg4 hc1 hc2 x0 x1 xo2 xo3).2.1 S1x1024.size (by sl_kernel_rfl) y

/-- The maxima after a later tile, over running maxima `xo2` and running sums `xo3`. -/
def maxLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) : Vec F S1x1024 .f32 :=
  maxView.read (Elt F) (maxView.writes (Elt F) maxView.junk (laterRun c i arg1 harg1 arg2 harg2 arg3 harg3 arg4 harg4 hc1 hc2 x0 x1 xo2 xo3).1)

/-- The sums after a later tile, over running maxima `xo2` and running sums `xo3`. -/
def sumLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) : Vec F S1x1024 .f32 :=
  sumView.read (Elt F) (sumView.writes (Elt F) sumView.junk (laterRun c i arg1 harg1 arg2 harg2 arg3 harg3 arg4 harg4 hc1 hc2 x0 x1 xo2 xo3).2.1)

/-! ## Tile by tile -/

theorem first_of_zero (t : Fin cfg0.N) (h0 : t.val % 50 = 0) : k0_cond1 (grid0.coords t) = 1#1 := (first_iff t).mpr h0
theorem not_later_of_zero (t : Fin cfg0.N) (h0 : t.val % 50 = 0) : ¬ k0_cond2 (grid0.coords t) = 1#1 := fun h => (later_iff t).mp h h0
theorem not_first_of_pos (t : Fin cfg0.N) (h0 : ¬ t.val % 50 = 0) : ¬ k0_cond1 (grid0.coords t) = 1#1 := fun h => h0 ((first_iff t).mp h)
theorem later_of_pos (t : Fin cfg0.N) (h0 : ¬ t.val % 50 = 0) : k0_cond2 (grid0.coords t) = 1#1 := (later_iff t).mpr h0
theorem succ_mod (n : ℕ) (hn : n + 1 < cfg0.N) : ¬ (n + 1) % 50 = 0 := by
  have hN : n + 1 < 50 := lt_of_lt_of_eq hn (show cfg0.N = 50 from N_0)
  omega

/-- THE ACCUMULATION: the maxima and the sums in the outputs' buffers after the body at tile `n`. -/
def statsAt (c : Dev nD) : (n : ℕ) → n < cfg0.N → Vec F S1x1024 .f32 × Vec F S1x1024 .f32
  | 0, hn =>
    (maxFirst c (grid0.coords ⟨0, hn⟩) (sm0 ⟨0, hn⟩) (sh0 ⟨0, hn⟩) (sm1 ⟨0, hn⟩) (sh1 ⟨0, hn⟩) (sm2 ⟨0, hn⟩) (sh2 ⟨0, hn⟩) (sm3 ⟨0, hn⟩) (sh3 ⟨0, hn⟩)
        (first_of_zero ⟨0, hn⟩ (Nat.zero_mod _)) (not_later_of_zero ⟨0, hn⟩ (Nat.zero_mod _)) (sblk V c 0 ⟨0, hn⟩) (sblk V c 1 ⟨0, hn⟩),
     sumFirst c (grid0.coords ⟨0, hn⟩) (sm0 ⟨0, hn⟩) (sh0 ⟨0, hn⟩) (sm1 ⟨0, hn⟩) (sh1 ⟨0, hn⟩) (sm2 ⟨0, hn⟩) (sh2 ⟨0, hn⟩) (sm3 ⟨0, hn⟩) (sh3 ⟨0, hn⟩)
        (first_of_zero ⟨0, hn⟩ (Nat.zero_mod _)) (not_later_of_zero ⟨0, hn⟩ (Nat.zero_mod _)) (sblk V c 0 ⟨0, hn⟩) (sblk V c 1 ⟨0, hn⟩))
  | n + 1, hn =>
    (maxLater c (grid0.coords ⟨n + 1, hn⟩) (sm0 ⟨n + 1, hn⟩) (sh0 ⟨n + 1, hn⟩) (sm1 ⟨n + 1, hn⟩) (sh1 ⟨n + 1, hn⟩) (sm2 ⟨n + 1, hn⟩) (sh2 ⟨n + 1, hn⟩) (sm3 ⟨n + 1, hn⟩) (sh3 ⟨n + 1, hn⟩)
        (not_first_of_pos ⟨n + 1, hn⟩ (succ_mod n hn)) (later_of_pos ⟨n + 1, hn⟩ (succ_mod n hn)) (sblk V c 0 ⟨n + 1, hn⟩) (sblk V c 1 ⟨n + 1, hn⟩)
        (statsAt c n (Nat.lt_of_succ_lt hn)).1 (statsAt c n (Nat.lt_of_succ_lt hn)).2,
     sumLater c (grid0.coords ⟨n + 1, hn⟩) (sm0 ⟨n + 1, hn⟩) (sh0 ⟨n + 1, hn⟩) (sm1 ⟨n + 1, hn⟩) (sh1 ⟨n + 1, hn⟩) (sm2 ⟨n + 1, hn⟩) (sh2 ⟨n + 1, hn⟩) (sm3 ⟨n + 1, hn⟩) (sh3 ⟨n + 1, hn⟩)
        (not_first_of_pos ⟨n + 1, hn⟩ (succ_mod n hn)) (later_of_pos ⟨n + 1, hn⟩ (succ_mod n hn)) (sblk V c 0 ⟨n + 1, hn⟩) (sblk V c 1 ⟨n + 1, hn⟩)
        (statsAt c n (Nat.lt_of_succ_lt hn)).1 (statsAt c n (Nat.lt_of_succ_lt hn)).2)

/-- At the first tile. -/
theorem statsAt_first (c : Dev nD) (t : Fin cfg0.N) (h0 : t.val % 50 = 0) :
    statsAt V c t.val t.isLt =
      (maxFirst c (grid0.coords t) (sm0 t) (sh0 t) (sm1 t) (sh1 t) (sm2 t) (sh2 t) (sm3 t) (sh3 t) (first_of_zero t h0) (not_later_of_zero t h0) (sblk V c 0 t) (sblk V c 1 t),
       sumFirst c (grid0.coords t) (sm0 t) (sh0 t) (sm1 t) (sh1 t) (sm2 t) (sh2 t) (sm3 t) (sh3 t) (first_of_zero t h0) (not_later_of_zero t h0) (sblk V c 0 t) (sblk V c 1 t)) := by
  obtain ⟨n, hn⟩ := t
  cases n with
  | zero => exact rfl
  | succ n => exact absurd h0 (succ_mod n hn)

/-- At a later tile: over what the tile before left. -/
theorem statsAt_later (c : Dev nD) (t : Fin cfg0.N) (h0 : ¬ t.val % 50 = 0) :
    statsAt V c t.val t.isLt =
      (maxLater c (grid0.coords t) (sm0 t) (sh0 t) (sm1 t) (sh1 t) (sm2 t) (sh2 t) (sm3 t) (sh3 t) (not_first_of_pos t h0) (later_of_pos t h0) (sblk V c 0 t) (sblk V c 1 t)
          (statsAt V c (t.val - 1) (Nat.lt_of_le_of_lt (Nat.sub_le _ _) t.isLt)).1 (statsAt V c (t.val - 1) (Nat.lt_of_le_of_lt (Nat.sub_le _ _) t.isLt)).2,
       sumLater c (grid0.coords t) (sm0 t) (sh0 t) (sm1 t) (sh1 t) (sm2 t) (sh2 t) (sm3 t) (sh3 t) (not_first_of_pos t h0) (later_of_pos t h0) (sblk V c 0 t) (sblk V c 1 t)
          (statsAt V c (t.val - 1) (Nat.lt_of_le_of_lt (Nat.sub_le _ _) t.isLt)).1 (statsAt V c (t.val - 1) (Nat.lt_of_le_of_lt (Nat.sub_le _ _) t.isLt)).2) := by
  obtain ⟨n, hn⟩ := t
  cases n with
  | zero => exact absurd (Nat.zero_mod _) h0
  | succ n => exact rfl

/-! ## The pass's proof data -/

/-- The arrays as the pass finds them; after the body at tile `t` the two inputs' buffers at their blocks and the two
    outputs' at the running maxima and sums; nothing owed; full shares. -/
def dat0 (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => (statsAt V c t.val t.isLt).1
    | ⟨3, _⟩ => (statsAt V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = sblk V c 0 t := by dsimp only [dat0]
theorem after0_1 (c : Dev nD) (t : Fin cfg0.N) : (dat0 V c).after 1 t = sblk V c 1 t := by dsimp only [dat0]
theorem after0_2 (c : Dev nD) (t : Fin cfg0.N) : (dat0 V c).after 2 t = (statsAt V c t.val t.isLt).1 := by dsimp only [dat0]
theorem after0_3 (c : Dev nD) (t : Fin cfg0.N) : (dat0 V c).after 3 t = (statsAt V c t.val t.isLt).2 := by dsimp only [dat0]

theorem before0_0 (c : Dev nD) (t : Fin cfg0.N) (d) : (dat0 V c).before 0 t d = sblk V c 0 t :=
  sbefore0_of V (dat0 V c) (A_eq0 V c 0) (after0_0 V c) t d
theorem before0_1 (c : Dev nD) (t : Fin cfg0.N) (d) : (dat0 V c).before 1 t d = sblk V c 1 t :=
  sbefore1_of V (dat0 V c) (A_eq0 V c 1) (after0_1 V c) t d

/-- At a later tile the maxima's buffer holds what the tile before left: the block was not written back between. -/
theorem before0_2_later (c : Dev nD) (t : Fin cfg0.N) (h0 : ¬ t.val % 50 = 0) (d) :
    (dat0 V c).before 2 t d = (statsAt V c (t.val - 1) (Nat.lt_of_le_of_lt (Nat.sub_le _ _) t.isLt)).1 := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    live2 (fun _ _ => rfl)]
  dsimp only [dat0]

/-- At a later tile the sums' buffer holds what the tile before left. -/
theorem before0_3_later (c : Dev nD) (t : Fin cfg0.N) (h0 : ¬ t.val % 50 = 0) (d) :
    (dat0 V c).before 3 t d = (statsAt V c (t.val - 1) (Nat.lt_of_le_of_lt (Nat.sub_le _ _) t.isLt)).2 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    live3 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (sm0 t) fullShare ((dat0 V c).before 0 t d))
    ∗ (∃ d, owns (c : Thread nD τ) (sm1 t) fullShare ((dat0 V c).before 1 t d))
    ∗ (∃ d, owns (c : Thread nD τ) (sm2 t) fullShare ((dat0 V c).before 2 t d))
    ∗ (∃ d, owns (c : Thread nD τ) (sm3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (sm0 t) fullShare ((dat0 V c).after 0 t)
    ∗ owns (c : Thread nD τ) (sm1 t) fullShare ((dat0 V c).after 1 t)
    ∗ owns (c : Thread nD τ) (sm2 t) fullShare ((dat0 V c).after 2 t)
    ∗ owns (c : Thread nD τ) (sm3 t) fullShare ((dat0 V c).after 3 t))

set_option maxHeartbeats 800000 in
/-- The body at any tile: the inputs' buffers hold their blocks; at the first tile the first branch runs on
    outputs holding anything, at a later tile the second on what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 50 = 0
  · rw [statsAt_first V c t h0]
    dsimp only
    unfold maxFirst sumFirst
    iintro ⟨HΦ, Ho, ⟨%d0, H0⟩, ⟨%d1, H1⟩, ⟨%d2, H2⟩, ⟨%d3, H3⟩⟩
    iapply ((firstRun c (grid0.coords t) _ _ _ _ _ _ _ _ (first_of_zero t h0) (not_later_of_zero t h0) (sblk V c 0 t) (sblk V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (maxCoverFirst c _ _ _ _ _ _ _ _ _ _ _ _ _)
    unfold owns; iexists _; isplitr
    swap; · iexact H3
    ipureintro; exact View.read_writes_of_cover _ _ _ _ _ (sumCoverFirst c _ _ _ _ _ _ _ _ _ _ _ _ _)
  · rw [statsAt_later V c t h0]
    simp only [before0_2_later V c t h0, before0_3_later V c t h0]
    unfold maxLater sumLater
    iintro ⟨HΦ, Ho, ⟨%d0, H0⟩, ⟨%d1, H1⟩, ⟨%d2, H2⟩, ⟨%d3, H3⟩⟩
    iapply ((laterRun c (grid0.coords t) _ _ _ _ _ _ _ _ (not_first_of_pos t h0) (later_of_pos t h0) (sblk V c 0 t) (sblk V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (maxCoverLater c _ _ _ _ _ _ _ _ _ _ _ _ _ _ _)
    unfold owns; iexists _; isplitr
    swap; · iexact H3
    ipureintro; exact View.read_writes_of_cover _ _ _ _ _ (sumCoverLater c _ _ _ _ _ _ _ _ _ _ _ _ _ _ _)

theorem live2_at (t : Fin cfg0.N) : idle0 2 (grid0.coords t) = false := live2 _
theorem live3_at (t : Fin cfg0.N) : idle0 3 (grid0.coords t) = false := live3 _

/-- The pipeline's body obligation, at every tile (both outputs are stored at every tile). -/
theorem body_obligation0 (c : Dev nD) : BodyObligation (dat0 (F := F) V c) (defs₀ (F := F)) Variants.none () Set.univ := fun t => by
  rw [bigSep_W0, bigSep_W0]
  simp only [live2_at t, live3_at t]
  exact sound_body0 V c t

end Cert.Kernel.Hand

end
-- ==== Proof.K.UpdateData.lean ====
/-
  The update pass (the second of the two kernel launches) as a pipeline region: its proof data and the body's
  obligation. The pass walks the memory rows in 50 tiles of 2000 rows. At every tile it loads the whole of its
  seven input blocks (the transposed queries, the queries, the query contents, the column maxima, the column sums,
  the tile of memory rows, the tile of row contents), forms the tile's weights and the rows' complements, and stores
  into the 2000 × 74 output block first columns 0 to 63 (row · complement + weights · queries) and then columns
  64 to 73 (contents · complement + weights · query contents). The two stores tile the block, so what the block
  holds after the body does not depend on what it held before.
-/
import proofs.«144876_g70351564308696_cont_9to1_m_470_2_alg».proof.Proof.Gen.Kernel.Launch
import proofs.«144876_g70351564308696_cont_9to1_m_470_2_alg».proof.Proof.Gen.Kernel.Skeleton
import proofs.«144876_g70351564308696_cont_9to1_m_470_2_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the pass finds it. -/
def ublk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of each input buffer, as the body loads it. -/
abbrev ur0 : Rect S64x1024 := Rect.unit (s := S64x1024) ![0, 0] S64x1024.size inb_S64x1024_S64x1024_0_0
abbrev ur1 : Rect S1024x64 := Rect.unit (s := S1024x64) ![0, 0] S1024x64.size inb_S1024x64_S1024x64_0_0
abbrev ur2 : Rect S1024x10 := Rect.unit (s := S1024x10) ![0, 0] S1024x10.size inb_S1024x10_S1024x10_0_0
abbrev ur3 : Rect S1x1024 := Rect.unit (s := S1x1024) ![0, 0] S1x1024.size inb_S1x1024_S1x1024_0_0
abbrev ur5 : Rect S2000x64 := Rect.unit (s := S2000x64) ![0, 0] S2000x64.size inb_S2000x64_S2000x64_0_0
abbrev ur6 : Rect S2000x10 := Rect.unit (s := S2000x10) ![0, 0] S2000x10.size inb_S2000x10_S2000x10_0_0
/-- Columns 0 to 63 of the output buffer: where the updated memory rows are stored. -/
abbrev urLeft : Rect S2000x74 := Rect.unit (s := S2000x74) ![0, 0] S2000x64.size inb_S2000x74_S2000x64_0_0
/-- Columns 64 to 73 of the output buffer: where the updated row contents are stored. -/
abbrev urRight : Rect S2000x74 := Rect.unit (s := S2000x74) ![0, 64] S2000x10.size inb_S2000x74_S2000x10_0_64

/-! ## What the body leaves in the output buffer -/

/-- The output buffer after the body, from the seven input blocks: the two stores as pieces, last first. With
    `w = k1_pay3` the tile's weights and `u = k1_pay4` the rows' complements, the left piece is
    `row · u + w · queries` and the right piece `contents · u + w · query contents`. -/
def updBlock (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) : Vec F S2000x74 .f32 :=
  View.canon [⟨urRight, k1_pay2 (k1_pay3 (View.ld x0 ur0) (View.ld x5 ur5) (View.ld x3 ur3) (View.ld x4 ur3))
      (k1_pay4 (View.ld x0 ur0) (View.ld x5 ur5) (View.ld x3 ur3) (View.ld x4 ur3)) (View.ld x6 ur6) (View.ld x2 ur2)⟩,
    ⟨urLeft, k1_pay1 (View.ld x5 ur5) (k1_pay3 (View.ld x0 ur0) (View.ld x5 ur5) (View.ld x3 ur3) (View.ld x4 ur3))
      (k1_pay4 (View.ld x0 ur0) (View.ld x5 ur5) (View.ld x3 ur3) (View.ld x4 ur3)) (View.ld x1 ur1)⟩]

/-- The two stores cover the output buffer: a column below 64 lies in the left piece, any other in the right. -/
theorem updCover (p1 : Vec F S2000x10 .f32) (p0 : Vec F S2000x64 .f32) (y : S2000x74.Idx) :
    ∃ pc ∈ ([⟨urRight, p1⟩, ⟨urLeft, p0⟩] : List (View.Piece (Elt F) S2000x74 .f32)), y ∈ pc.1.set := by
  have h0 : (y 0).val < 2000 := (y 0).isLt
  have h1 : (y 1).val < 74 := (y 1).isLt
  by_cases h : (y 1).val < 64
  · refine ⟨⟨urLeft, p0⟩, List.mem_cons_of_mem _ List.mem_cons_self, ?_⟩
    show y ∈ urLeft.set
    refine Rect.mem_set_unit.mpr fun a => ?_
    match a with
    | ⟨0, _⟩ => exact ⟨Nat.zero_le _, by show (y 0).val < 0 + 2000; omega⟩
    | ⟨1, _⟩ => exact ⟨Nat.zero_le _, by show (y 1).val < 0 + 64; omega⟩
  · refine ⟨⟨urRight, p1⟩, List.mem_cons_self, ?_⟩
    show y ∈ urRight.set
    refine Rect.mem_set_unit.mpr fun a => ?_
    match a with
    | ⟨0, _⟩ => exact ⟨Nat.zero_le _, by show (y 0).val < 0 + 2000; omega⟩
    | ⟨1, _⟩ => exact ⟨by show 64 ≤ (y 1).val; omega, by show (y 1).val < 64 + 10; omega⟩

/-! ## The body's triple -/

set_option maxHeartbeats 4000000 in
/-- The body on whole buffers, the seven inputs' at read contents `x0 … x6` and the output's at anything, runs to the
    continuation holding the inputs' as they were and the output's at `updBlock` of the inputs. The two loads of the
    output buffer that precede the stores read whatever it held; their values are used by nothing. -/
theorem sound_kernel1 (c : Dev nD) (E : Set ℕ) (i : grid1.Coords)
    (arg1 : Memref sig .tc .vmem S64x1024 .f32) (harg1 : arg1.IsWhole) (arg2 : Memref sig .tc .vmem S1024x64 .f32) (harg2 : arg2.IsWhole)
    (arg3 : Memref sig .tc .vmem S1024x10 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S2000x64 .f32) (harg6 : arg6.IsWhole)
    (arg7 : Memref sig .tc .vmem S2000x10 .f32) (harg7 : arg7.IsWhole) (arg8 : Memref sig .tc .vmem S2000x74 .f32) (harg8 : arg8.IsWhole)
    (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (updBlock x0 x1 x2 x3 x4 x5 x6)) -∗ K ⟨⟩))
      ⊢ wp frame (wpE (defs₀ (F := F)) Variants.none c none) E
          (cc1__update_body i arg1 harg1 arg2 harg2 arg3 harg3 arg4 harg4 arg5 harg5 arg6 harg6 arg7 harg7 arg8 harg8) K := by
  simp only [cc1__update_body_eq_skeleton]; unfold cc1__update_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (updCover _ _)

/-! ## The inputs' buffers hold their blocks -/

/- Each input window's current buffer holds its block at every tile, fetched there or not (an unfetched window's block
   index has not moved), for any proof data whose array is `V`'s and whose body leaves the block in place. -/
theorem ubefore0_of {c : Dev nD} (dat : Dat τ (Elt F) Unit ℕ (UR sig nD τ) ℕ cfg1 c) (hA : dat.A 0 = V c (Pipeline.arrRef spec1 0))
    (hafter : ∀ t, dat.after 0 t = ublk V c 0 t) (t : Fin cfg1.N) (d) : dat.before 0 t d = ublk V c 0 t :=
  (dat.before_in_eq_fetched 0 rfl (fun _ => rfl) (fun _ _ _ => rfl) (fun t => by rw [hafter]; unfold Dat.blockOf ublk; rw [hA]; try rfl) t d).trans
    (by unfold Dat.fetched Dat.blockOf ublk; rw [hA]; try rfl)

theorem ubefore1_of {c : Dev nD} (dat : Dat τ (Elt F) Unit ℕ (UR sig nD τ) ℕ cfg1 c) (hA : dat.A 1 = V c (Pipeline.arrRef spec1 1))
    (hafter : ∀ t, dat.after 1 t = ublk V c 1 t) (t : Fin cfg1.N) (d) : dat.before 1 t d = ublk V c 1 t :=
  (dat.before_in_eq_fetched 1 rfl (fun _ => rfl) (fun _ _ _ => rfl) (fun t => by rw [hafter]; unfold Dat.blockOf ublk; rw [hA]; try rfl) t d).trans
    (by unfold Dat.fetched Dat.blockOf ublk; rw [hA]; try rfl)

theorem ubefore2_of {c : Dev nD} (dat : Dat τ (Elt F) Unit ℕ (UR sig nD τ) ℕ cfg1 c) (hA : dat.A 2 = V c (Pipeline.arrRef spec1 2))
    (hafter : ∀ t, dat.after 2 t = ublk V c 2 t) (t : Fin cfg1.N) (d) : dat.before 2 t d = ublk V c 2 t :=
  (dat.before_in_eq_fetched 2 rfl (fun _ => rfl) (fun _ _ _ => rfl) (fun t => by rw [hafter]; unfold Dat.blockOf ublk; rw [hA]; try rfl) t d).trans
    (by unfold Dat.fetched Dat.blockOf ublk; rw [hA]; try rfl)

theorem ubefore3_of {c : Dev nD} (dat : Dat τ (Elt F) Unit ℕ (UR sig nD τ) ℕ cfg1 c) (hA : dat.A 3 = V c (Pipeline.arrRef spec1 3))
    (hafter : ∀ t, dat.after 3 t = ublk V c 3 t) (t : Fin cfg1.N) (d) : dat.before 3 t d = ublk V c 3 t :=
  (dat.before_in_eq_fetched 3 rfl (fun _ => rfl) (fun _ _ _ => rfl) (fun t => by rw [hafter]; unfold Dat.blockOf ublk; rw [hA]; try rfl) t d).trans
    (by unfold Dat.fetched Dat.blockOf ublk; rw [hA]; try rfl)

theorem ubefore4_of {c : Dev nD} (dat : Dat τ (Elt F) Unit ℕ (UR sig nD τ) ℕ cfg1 c) (hA : dat.A 4 = V c (Pipeline.arrRef spec1 4))
    (hafter : ∀ t, dat.after 4 t = ublk V c 4 t) (t : Fin cfg1.N) (d) : dat.before 4 t d = ublk V c 4 t :=
  (dat.before_in_eq_fetched 4 rfl (fun _ => rfl) (fun _ _ _ => rfl) (fun t => by rw [hafter]; unfold Dat.blockOf ublk; rw [hA]; try rfl) t d).trans
    (by unfold Dat.fetched Dat.blockOf ublk; rw [hA]; try rfl)

theorem ubefore5_of {c : Dev nD} (dat : Dat τ (Elt F) Unit ℕ (UR sig nD τ) ℕ cfg1 c) (hA : dat.A 5 = V c (Pipeline.arrRef spec1 5))
    (hafter : ∀ t, dat.after 5 t = ublk V c 5 t) (t : Fin cfg1.N) (d) : dat.before 5 t d = ublk V c 5 t :=
  (dat.before_in_eq_fetched 5 rfl (fun _ => rfl) (fun _ _ _ => rfl) (fun t => by rw [hafter]; unfold Dat.blockOf ublk; rw [hA]; try rfl) t d).trans
    (by unfold Dat.fetched Dat.blockOf ublk; rw [hA]; try rfl)

theorem ubefore6_of {c : Dev nD} (dat : Dat τ (Elt F) Unit ℕ (UR sig nD τ) ℕ cfg1 c) (hA : dat.A 6 = V c (Pipeline.arrRef spec1 6))
    (hafter : ∀ t, dat.after 6 t = ublk V c 6 t) (t : Fin cfg1.N) (d) : dat.before 6 t d = ublk V c 6 t :=
  (dat.before_in_eq_fetched 6 rfl (fun _ => rfl) (fun _ _ _ => rfl) (fun t => by rw [hafter]; unfold Dat.blockOf ublk; rw [hA]; try rfl) t d).trans
    (by unfold Dat.fetched Dat.blockOf ublk; rw [hA]; try rfl)

/-! ## The pass's proof data -/

/-- The arrays as the pass finds them; after the body at tile `t` the seven inputs' buffers at their blocks and the
    output's at `updBlock` of them; nothing owed; full shares. -/
def dat1 (c : Dev nD) : Dat τ (Elt F) Unit ℕ (UR sig nD τ) ℕ cfg1 c where
  A w := V c (Pipeline.arrRef spec1 w)
  after w t := match w with
    | ⟨0, _⟩ => ublk V c 0 t
    | ⟨1, _⟩ => ublk V c 1 t
    | ⟨2, _⟩ => ublk V c 2 t
    | ⟨3, _⟩ => ublk V c 3 t
    | ⟨4, _⟩ => ublk V c 4 t
    | ⟨5, _⟩ => ublk V c 5 t
    | ⟨6, _⟩ => ublk V c 6 t
    | ⟨7, _⟩ => updBlock (ublk V c 0 t) (ublk V c 1 t) (ublk V c 2 t) (ublk V c 3 t) (ublk V c 4 t) (ublk V c 5 t) (ublk V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = ublk V c 0 t := by dsimp only [dat1]
theorem after1_1 (c : Dev nD) (t : Fin cfg1.N) : (dat1 V c).after 1 t = ublk V c 1 t := by dsimp only [dat1]
theorem after1_2 (c : Dev nD) (t : Fin cfg1.N) : (dat1 V c).after 2 t = ublk V c 2 t := by dsimp only [dat1]
theorem after1_3 (c : Dev nD) (t : Fin cfg1.N) : (dat1 V c).after 3 t = ublk V c 3 t := by dsimp only [dat1]
theorem after1_4 (c : Dev nD) (t : Fin cfg1.N) : (dat1 V c).after 4 t = ublk V c 4 t := by dsimp only [dat1]
theorem after1_5 (c : Dev nD) (t : Fin cfg1.N) : (dat1 V c).after 5 t = ublk V c 5 t := by dsimp only [dat1]
theorem after1_6 (c : Dev nD) (t : Fin cfg1.N) : (dat1 V c).after 6 t = ublk V c 6 t := by dsimp only [dat1]
theorem after1_7 (c : Dev nD) (t : Fin cfg1.N) :
    (dat1 V c).after 7 t = updBlock (ublk V c 0 t) (ublk V c 1 t) (ublk V c 2 t) (ublk V c 3 t) (ublk V c 4 t) (ublk V c 5 t) (ublk V c 6 t) := by
  dsimp only [dat1]

theorem before1_0 (c : Dev nD) (t : Fin cfg1.N) (d) : (dat1 V c).before 0 t d = ublk V c 0 t :=
  ubefore0_of V (dat1 V c) (A_eq1 V c 0) (after1_0 V c) t d
theorem before1_1 (c : Dev nD) (t : Fin cfg1.N) (d) : (dat1 V c).before 1 t d = ublk V c 1 t :=
  ubefore1_of V (dat1 V c) (A_eq1 V c 1) (after1_1 V c) t d
theorem before1_2 (c : Dev nD) (t : Fin cfg1.N) (d) : (dat1 V c).before 2 t d = ublk V c 2 t :=
  ubefore2_of V (dat1 V c) (A_eq1 V c 2) (after1_2 V c) t d
theorem before1_3 (c : Dev nD) (t : Fin cfg1.N) (d) : (dat1 V c).before 3 t d = ublk V c 3 t :=
  ubefore3_of V (dat1 V c) (A_eq1 V c 3) (after1_3 V c) t d
theorem before1_4 (c : Dev nD) (t : Fin cfg1.N) (d) : (dat1 V c).before 4 t d = ublk V c 4 t :=
  ubefore4_of V (dat1 V c) (A_eq1 V c 4) (after1_4 V c) t d
theorem before1_5 (c : Dev nD) (t : Fin cfg1.N) (d) : (dat1 V c).before 5 t d = ublk V c 5 t :=
  ubefore5_of V (dat1 V c) (A_eq1 V c 5) (after1_5 V c) t d
theorem before1_6 (c : Dev nD) (t : Fin cfg1.N) (d) : (dat1 V c).before 6 t d = ublk V c 6 t :=
  ubefore6_of V (dat1 V c) (A_eq1 V c 6) (after1_6 V c) t d

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any tile: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (ublk V c 0 t) (ublk V c 1 t) (ublk V c 2 t) (ublk V c 3 t) (ublk V c 4 t) (ublk V c 5 t) (ublk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! ## The output block entry by entry -/

/-- Both offsets of a whole-buffer load are zero. -/
private theorem zero2 : (![0, 0] : Fin 2 → ℕ) = fun _ => 0 := funext fun a => by fin_cases a <;> rfl

/-- The loads read the whole input blocks, so the two pieces are the payloads of the blocks themselves. -/
theorem updBlock_eq (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) :
    updBlock x0 x1 x2 x3 x4 x5 x6
      = View.canon [⟨urRight, k1_pay2 (k1_pay3 x0 x5 x3 x4) (k1_pay4 x0 x5 x3 x4) x6 x2⟩,
          ⟨urLeft, k1_pay1 x5 (k1_pay3 x0 x5 x3 x4) (k1_pay4 x0 x5 x3 x4) x1⟩] := by
  unfold updBlock
  simp only [View.ld_unit_zero (S := S64x1024) zero2, View.ld_unit_zero (S := S1024x64) zero2,
    View.ld_unit_zero (S := S1024x10) zero2, View.ld_unit_zero (S := S1x1024) zero2,
    View.ld_unit_zero (S := S2000x64) zero2, View.ld_unit_zero (S := S2000x10) zero2]

/-- Columns 0 to 63 of the output block are the updated memory rows. -/
theorem updBlock_left (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (r : Fin 2000) (k : Fin 64) :
    updBlock x0 x1 x2 x3 x4 x5 x6 (ix2 r (⟨k.val, by have := k.isLt; omega⟩ : Fin 74))
      = k1_pay1 x5 (k1_pay3 x0 x5 x3 x4) (k1_pay4 x0 x5 x3 x4) x1 (ix2 r k) := by
  have hk := k.isLt
  -- the entry is outside the right piece (its column is below 64) and is entry (r, k) of the left piece
  have hnot : (ix2 r (⟨k.val, by omega⟩ : Fin 74) : S2000x74.Idx) ∉ urRight.set := fun hm => by
    have h64 : 64 ≤ k.val := (Rect.mem_set_unit.mp hm 1).1
    omega
  have e : (ix2 r (⟨k.val, by omega⟩ : Fin 74) : S2000x74.Idx) = urLeft.emb (ix2 r k) := funext fun a =>
    match a with
    | ⟨0, _⟩ => Fin.ext (by show r.val = 0 + 1 * r.val; omega)
    | ⟨1, _⟩ => Fin.ext (by show k.val = 0 + 1 * k.val; omega)
  rw [updBlock_eq]
  rw [View.canon_cons_of_not_mem ⟨urRight, _⟩ _ hnot]
  rw [e]
  rw [View.canon_cons_emb]

/-- Columns 64 to 73 of the output block are the updated row contents. -/
theorem updBlock_right (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (r : Fin 2000) (j : Fin 10) :
    updBlock x0 x1 x2 x3 x4 x5 x6 (ix2 r (⟨64 + j.val, by have := j.isLt; omega⟩ : Fin 74))
      = k1_pay2 (k1_pay3 x0 x5 x3 x4) (k1_pay4 x0 x5 x3 x4) x6 x2 (ix2 r j) := by
  have hj := j.isLt
  -- the entry is entry (r, j) of the right piece, the last stored
  have e : (ix2 r (⟨64 + j.val, by omega⟩ : Fin 74) : S2000x74.Idx) = urRight.emb (ix2 r j) := funext fun a =>
    match a with
    | ⟨0, _⟩ => Fin.ext (by show r.val = 0 + 1 * r.val; omega)
    | ⟨1, _⟩ => Fin.ext (by show 64 + j.val = 64 + 1 * j.val; omega)
  rw [updBlock_eq]
  rw [e]
  rw [View.canon_cons_emb]

end Cert.Kernel.Hand

end
-- ==== Proof.K.Run.lean ====
/-
  The whole program as a run: a host transposition of the queries, the statistics pass, the update pass. Between the
  segments each core's unscoped buffers hold: the launch contents; then the transposed queries added; then the
  statistics pass's two outputs at what its write-backs leave; then the update pass's output at what its write-backs
  leave. Every weakly fair execution terminates in a state whose unscoped buffers are the last of these.
-/
import proofs.«144876_g70351564308696_cont_9to1_m_470_2_alg».proof.Proof.K.StatsData
import proofs.«144876_g70351564308696_cont_9to1_m_470_2_alg».proof.Proof.K.UpdateData
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the host transposition (the statistics pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the update pass: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the passes read: each input array as launched, the transposed queries as the host wrote them -/

/-- The host stretch writes the transposed queries and nothing else. -/
theorem transposeWrites : (hostOps0 : List (HloOp τ sig (Elt F))).Forall fun op => op.writes ⊆ (([main_call0_v0] : List (Ref sig .tc)).map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of_arg (c : Dev nD) (b : Ref sig .tc) (hb : b ∉ ([main_call0_v0] : List (Ref sig .tc))) : W1 m ρ c (Proc.devRef .tc b) = m ((c : Thread nD τ).loc b) :=
  StableHlo.after_of_writes_sub hostOps0 _ transposeWrites hb

/-- The memory rows reach both passes as launched. -/
theorem V1_main_arg2 (c : Dev nD) : V1 m ρ c main_arg2 = m ((c : Thread nD τ).loc main_arg2) := W1_of_arg m ρ c main_arg2 (by decide)
theorem V2_main_arg2 (c : Dev nD) : V2 m ρ c main_arg2 = m ((c : Thread nD τ).loc main_arg2) :=
  ((W2_arr m ρ c 1).trans (((dat0 (V1 m ρ) c).arrAt_in 1 rfl _).trans (A_eq0 (V1 m ρ) c 1))).trans (V1_main_arg2 m ρ c)
theorem V2_main_arg0 (c : Dev nD) : V2 m ρ c main_arg0 = m ((c : Thread nD τ).loc main_arg0) :=
  (W2_of_ne m ρ c main_arg0 (by decide)).trans (W1_of_arg m ρ c main_arg0 (by decide))
theorem V2_main_arg1 (c : Dev nD) : V2 m ρ c main_arg1 = m ((c : Thread nD τ).loc main_arg1) :=
  (W2_of_ne m ρ c main_arg1 (by decide)).trans (W1_of_arg m ρ c main_arg1 (by decide))
theorem V2_main_arg3 (c : Dev nD) : V2 m ρ c main_arg3 = m ((c : Thread nD τ).loc main_arg3) :=
  (W2_of_ne m ρ c main_arg3 (by decide)).trans (W1_of_arg m ρ c main_arg3 (by decide))
/-- The transposed queries reach the update pass as the statistics pass found them. -/
theorem V2_qt (c : Dev nD) : V2 m ρ c main_call0_v0 = V1 m ρ c main_call0_v0 :=
  (W2_arr m ρ c 0).trans (((dat0 (V1 m ρ) c).arrAt_in 0 rfl _).trans (A_eq0 (V1 m ρ) c 0))
/-- The update pass finds the statistics pass's two outputs at what its write-backs left. -/
theorem V2_max (c : Dev nD) : V2 m ρ c main_call0_v1_0 = (dat0 (V1 m ρ) c).arrAt 2 cfg0.N := W2_arr m ρ c 2
theorem V2_sum (c : Dev nD) : V2 m ρ c main_call0_v1_1 = (dat0 (V1 m ρ) c).arrAt 3 cfg0.N := W2_arr m ρ c 3

/-- The arguments end as launched. -/
theorem W3_main_arg0 (c : Dev nD) : W3 m ρ c (Proc.devRef .tc main_arg0) = m ((c : Thread nD τ).loc main_arg0) :=
  ((W3_arr m ρ c 1).trans (((dat1 (V2 m ρ) c).arrAt_in 1 rfl _).trans (A_eq1 (V2 m ρ) c 1))).trans (V2_main_arg0 m ρ c)
theorem W3_main_arg1 (c : Dev nD) : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (V2_main_arg1 m ρ c)
theorem W3_main_arg2 (c : Dev nD) : W3 m ρ c (Proc.devRef .tc main_arg2) = m ((c : Thread nD τ).loc main_arg2) :=
  ((W3_arr m ρ c 5).trans (((dat1 (V2 m ρ) c).arrAt_in 5 rfl _).trans (A_eq1 (V2 m ρ) c 5))).trans (V2_main_arg2 m ρ c)
theorem W3_main_arg3 (c : Dev nD) : W3 m ρ c (Proc.devRef .tc main_arg3) = m ((c : Thread nD τ).loc main_arg3) :=
  ((W3_arr m ρ c 6).trans (((dat1 (V2 m ρ) c).arrAt_in 6 rfl _).trans (A_eq1 (V2 m ρ) c 6))).trans (V2_main_arg3 m ρ c)
/-- The result is what the update pass's write-backs leave. -/
theorem W3_main_v0 (c : Dev nD) : W3 m ρ c (Proc.devRef .tc main_v0) = (dat1 (V2 m ρ) c).arrAt 7 cfg1.N := W3_arr m ρ c 7

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

-- unification of a library lemma stated over the pinned configuration may have to unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration may have to unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state has each core's unscoped buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every run terminates with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- THE RESULT: every run terminates with the result buffer at what the update pass's write-backs leave, the four
    argument arrays as launched. -/
theorem result : θ_run defs (onTc (τ := τ) (main (F := F))) ⟨m, fun _ => 0, ρ⟩ (fun r => ∀ c : Dev nD,
      r.2.mem ((c.tc : Thread nD τ).loc main_v0) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.StatsPoints.lean ====
/-
  The statistics pass (the first of the two kernel launches), part 1: what its windows hold and when its two
  branches are taken. The pass walks the memory rows in 50 tiles of 2000 rows. At every tile it forms the
  2000 × 1024 matrix of negated distances between the tile's rows and the 1024 queries. At the first tile it
  stores the column maxima and the column sums of exp(value − column maximum); at each later tile it replaces the
  stored maxima by the larger of old and new, rescales the stored sums by exp(old − new) and adds the tile's
  sums taken against the new maxima. The two outputs are single blocks that stay in their buffers over all
  50 tiles and are written back once, after the last.
-/
import proofs.«144876_g70351564308696_cont_9to1_m_470_2_alg».proof.Proof.Gen.KernelIdeal.Launch
import proofs.«144876_g70351564308696_cont_9to1_m_470_2_alg».proof.Proof.Gen.KernelIdeal.Skeleton
import proofs.«144876_g70351564308696_cont_9to1_m_470_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the pass finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The transposed queries (window 0, one block, fetched once) are in their buffer at every tile. -/
theorem sbefore0_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The tile of memory rows (window 1, fetched at every tile) is in its buffer at every tile. -/
theorem sbefore1_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## The two branches -/

/-- The first branch (store the tile's own maxima and sums) is taken at the first tile only. -/
theorem first_iff : ∀ t : Fin cfg0.N, k0_cond1 (grid0.coords t) = 1#1 ↔ t.val % 50 = 0 :=
  (by decide +kernel : ∀ t : Fin grid0.N, k0_cond1 (grid0.coords t) = 1#1 ↔ t.val % 50 = 0)

/-- The second branch (merge the tile into the stored maxima and sums) is taken at every later tile. -/
theorem later_iff : ∀ t : Fin cfg0.N, k0_cond2 (grid0.coords t) = 1#1 ↔ ¬ t.val % 50 = 0 :=
  (by decide +kernel : ∀ t : Fin grid0.N, k0_cond2 (grid0.coords t) = 1#1 ↔ ¬ t.val % 50 = 0)

/-- One of the two branches is taken at every value of the tile counter, so both outputs are stored at every tile. -/
theorem stored_everywhere : ∀ n : Fin 50,
    (!(Scalar.cmpi .ne (Scalar.extui (Scalar.cmpi .eq (BitVec.ofNat 32 n.val) 0#32)) 0#32 == 1#1)
      && !(Scalar.cmpi .ne (Scalar.extui (Scalar.cmpi .sgt (BitVec.ofNat 32 n.val) 0#32)) 0#32 == 1#1)) = false := by
  decide +kernel

theorem live2 (i : grid0.Coords) : cfg0.idle 2 i = false := stored_everywhere (i 0)
theorem live3 (i : grid0.Coords) : cfg0.idle 3 i = false := stored_everywhere (i 0)

/-! ## The staging memrefs at a tile -/

abbrev sm0 (t : Fin cfg0.N) : Memref sig .tc .vmem S64x1024 .f32 := win0_0.stage (cfg0.slots t 0)
abbrev sh0 (t : Fin cfg0.N) : (sm0 t).IsWhole := hstage0_0 ((cfg0.slots t 0).cast nbuf0_0)
abbrev sm1 (t : Fin cfg0.N) : Memref sig .tc .vmem S2000x64 .f32 := win0_1.stage (cfg0.slots t 1)
abbrev sh1 (t : Fin cfg0.N) : (sm1 t).IsWhole := hstage0_1 ((cfg0.slots t 1).cast nbuf0_1)
abbrev sm2 (t : Fin cfg0.N) : Memref sig .tc .vmem S1x1024 .f32 := win0_2.stage (cfg0.slots t 2)
abbrev sh2 (t : Fin cfg0.N) : (sm2 t).IsWhole := hstage0_2 ((cfg0.slots t 2).cast nbuf0_2)
abbrev sm3 (t : Fin cfg0.N) : Memref sig .tc .vmem S1x1024 .f32 := win0_3.stage (cfg0.slots t 3)
abbrev sh3 (t : Fin cfg0.N) : (sm3 t).IsWhole := hstage0_3 ((cfg0.slots t 3).cast nbuf0_3)

/-- One buffer of each output, through which its contents are stated. -/
abbrev maxView : View sig .tc .vmem S1x1024 .f32 := (Memref.whole cc0_stg2_0 : Memref sig .tc .vmem S1x1024 .f32).view
abbrev sumView : View sig .tc .vmem S1x1024 .f32 := (Memref.whole cc0_stg3_0 : Memref sig .tc .vmem S1x1024 .f32).view

end Cert.KernelIdeal.Hand

end
-- ==== Proof.KI.StatsFirst.lean ====
/-
  The statistics pass, part 2: the body at the FIRST tile. Both outputs' buffers hold anything; the body stores the
  tile's column maxima into the first and the tile's column sums of exp(value − maximum) into the second.
-/
import proofs.«144876_g70351564308696_cont_9to1_m_470_2_alg».proof.Proof.KI.StatsPoints

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first tile, on whole staging memrefs: it runs to the end, the inputs kept, each output's buffer
    holding the pieces its stores wrote (the lists are found by running the body). -/
noncomputable def firstRun (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) :
    Σ' (L2 : List (View.Piece (Elt F) S1x1024 .f32)), { L3 : List (View.Piece (Elt F) S1x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__stats_body i arg1 harg1 arg2 harg2 arg3 harg3 arg4 harg4) K } := by
  refine ⟨?_, ?_, fun E K => ?run⟩
  case run =>
    simp only [cc0__stats_body_eq_skeleton]; unfold cc0__stats_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.StatsLater.lean ====
/-
  The statistics pass, part 3: the body at a LATER tile. The outputs' buffers hold the running maxima `xo2` and the
  running sums `xo3` left by the tile before; the body reads both, then stores the merged sums and the merged maxima.
-/
import proofs.«144876_g70351564308696_cont_9to1_m_470_2_alg».proof.Proof.KI.StatsFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later tile, on whole staging memrefs: it runs to the end, the inputs kept, each output's buffer
    holding the pieces its stores wrote over the running contents (the lists are found by running the body). -/
noncomputable def laterRun (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) :
    Σ' (L2 : List (View.Piece (Elt F) S1x1024 .f32)), { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__stats_body i arg1 harg1 arg2 harg2 arg3 harg3 arg4 harg4) K } := by
  refine ⟨?_, ?_, fun E K => ?run⟩
  case run =>
    simp only [cc0__stats_body_eq_skeleton]; unfold cc0__stats_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.StatsData.lean ====
/-
  The statistics pass, part 4: what its two outputs hold tile by tile, and the body's obligation to the pipeline.
  After the first tile the outputs hold what the first branch stored; after each later tile what the second branch
  stored over the contents the tile before left (the outputs' single blocks are not written back until the end, so
  each tile finds in their buffers exactly what the tile before left there).
-/
import proofs.«144876_g70351564308696_cont_9to1_m_470_2_alg».proof.Proof.KI.StatsLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each branch leaves in the two outputs' buffers -/

/-- The first branch's store covers the maxima's buffer. -/
theorem maxCoverFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) (y : S1x1024.Idx) :
    ∃ pc ∈ (firstRun c i arg1 harg1 arg2 harg2 arg3 harg3 arg4 harg4 hc1 hc2 x0 x1).1, y ∈ pc.1.set :=
  View.cover_of_tiledL (firstRun c i arg1 harg1 arg2 harg2 arg3 harg3 arg4 harg4 hc1 hc2 x0 x1).1 S1x1024.size (by sl_kernel_rfl) y

/-- The first branch's store covers the sums' buffer. -/
theorem sumCoverFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) (y : S1x1024.Idx) :
    ∃ pc ∈ (firstRun c i arg1 harg1 arg2 harg2 arg3 harg3 arg4 harg4 hc1 hc2 x0 x1).2.1, y ∈ pc.1.set :=
  View.cover_of_tiledL (firstRun c i arg1 harg1 arg2 harg2 arg3 harg3 arg4 harg4 hc1 hc2 x0 x1).2.1 S1x1024.size (by sl_kernel_rfl) y

/-- The maxima after the first tile. -/
def maxFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) : Vec F S1x1024 .f32 :=
  maxView.read (Elt F) (maxView.writes (Elt F) maxView.junk (firstRun c i arg1 harg1 arg2 harg2 arg3 harg3 arg4 harg4 hc1 hc2 x0 x1).1)

/-- The sums after the first tile. -/
def sumFirst (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) : Vec F S1x1024 .f32 :=
  sumView.read (Elt F) (sumView.writes (Elt F) sumView.junk (firstRun c i arg1 harg1 arg2 harg2 arg3 harg3 arg4 harg4 hc1 hc2 x0 x1).2.1)

/-- The second branch's store covers the maxima's buffer. -/
theorem maxCoverLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) (y : S1x1024.Idx) :
    ∃ pc ∈ (laterRun c i arg1 harg1 arg2 harg2 arg3 harg3 arg4 harg4 hc1 hc2 x0 x1 xo2 xo3).1, y ∈ pc.1.set :=
  View.cover_of_tiledL (laterRun c i arg1 harg1 arg2 harg2 arg3 harg3 arg4 harg4 hc1 hc2 x0 x1 xo2 xo3).1 S1x1024.size (by sl_kernel_rfl) y

/-- The second branch's store covers the sums' buffer. -/
theorem sumCoverLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) (y : S1x1024.Idx) :
    ∃ pc ∈ (laterRun c i arg1 harg1 arg2 harg2 arg3 harg3 arg4 harg4 hc1 hc2 x0 x1 xo2 xo3).2.1, y ∈ pc.1.set :=
  View.cover_of_tiledL (laterRun c i arg1 harg1 arg2 harg2 arg3 harg3 arg4 harg4 hc1 hc2 x0 x1 xo2 xo3).2.1 S1x1024.size (by sl_kernel_rfl) y

/-- The maxima after a later tile, over running maxima `xo2` and running sums `xo3`. -/
def maxLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) : Vec F S1x1024 .f32 :=
  maxView.read (Elt F) (maxView.writes (Elt F) maxView.junk (laterRun c i arg1 harg1 arg2 harg2 arg3 harg3 arg4 harg4 hc1 hc2 x0 x1 xo2 xo3).1)

/-- The sums after a later tile, over running maxima `xo2` and running sums `xo3`. -/
def sumLater (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) : Vec F S1x1024 .f32 :=
  sumView.read (Elt F) (sumView.writes (Elt F) sumView.junk (laterRun c i arg1 harg1 arg2 harg2 arg3 harg3 arg4 harg4 hc1 hc2 x0 x1 xo2 xo3).2.1)

/-! ## Tile by tile -/

theorem first_of_zero (t : Fin cfg0.N) (h0 : t.val % 50 = 0) : k0_cond1 (grid0.coords t) = 1#1 := (first_iff t).mpr h0
theorem not_later_of_zero (t : Fin cfg0.N) (h0 : t.val % 50 = 0) : ¬ k0_cond2 (grid0.coords t) = 1#1 := fun h => (later_iff t).mp h h0
theorem not_first_of_pos (t : Fin cfg0.N) (h0 : ¬ t.val % 50 = 0) : ¬ k0_cond1 (grid0.coords t) = 1#1 := fun h => h0 ((first_iff t).mp h)
theorem later_of_pos (t : Fin cfg0.N) (h0 : ¬ t.val % 50 = 0) : k0_cond2 (grid0.coords t) = 1#1 := (later_iff t).mpr h0
theorem succ_mod (n : ℕ) (hn : n + 1 < cfg0.N) : ¬ (n + 1) % 50 = 0 := by
  have hN : n + 1 < 50 := lt_of_lt_of_eq hn (show cfg0.N = 50 from N_0)
  omega

/-- THE ACCUMULATION: the maxima and the sums in the outputs' buffers after the body at tile `n`. -/
def statsAt (c : Dev nD) : (n : ℕ) → n < cfg0.N → Vec F S1x1024 .f32 × Vec F S1x1024 .f32
  | 0, hn =>
    (maxFirst c (grid0.coords ⟨0, hn⟩) (sm0 ⟨0, hn⟩) (sh0 ⟨0, hn⟩) (sm1 ⟨0, hn⟩) (sh1 ⟨0, hn⟩) (sm2 ⟨0, hn⟩) (sh2 ⟨0, hn⟩) (sm3 ⟨0, hn⟩) (sh3 ⟨0, hn⟩)
        (first_of_zero ⟨0, hn⟩ (Nat.zero_mod _)) (not_later_of_zero ⟨0, hn⟩ (Nat.zero_mod _)) (sblk V c 0 ⟨0, hn⟩) (sblk V c 1 ⟨0, hn⟩),
     sumFirst c (grid0.coords ⟨0, hn⟩) (sm0 ⟨0, hn⟩) (sh0 ⟨0, hn⟩) (sm1 ⟨0, hn⟩) (sh1 ⟨0, hn⟩) (sm2 ⟨0, hn⟩) (sh2 ⟨0, hn⟩) (sm3 ⟨0, hn⟩) (sh3 ⟨0, hn⟩)
        (first_of_zero ⟨0, hn⟩ (Nat.zero_mod _)) (not_later_of_zero ⟨0, hn⟩ (Nat.zero_mod _)) (sblk V c 0 ⟨0, hn⟩) (sblk V c 1 ⟨0, hn⟩))
  | n + 1, hn =>
    (maxLater c (grid0.coords ⟨n + 1, hn⟩) (sm0 ⟨n + 1, hn⟩) (sh0 ⟨n + 1, hn⟩) (sm1 ⟨n + 1, hn⟩) (sh1 ⟨n + 1, hn⟩) (sm2 ⟨n + 1, hn⟩) (sh2 ⟨n + 1, hn⟩) (sm3 ⟨n + 1, hn⟩) (sh3 ⟨n + 1, hn⟩)
        (not_first_of_pos ⟨n + 1, hn⟩ (succ_mod n hn)) (later_of_pos ⟨n + 1, hn⟩ (succ_mod n hn)) (sblk V c 0 ⟨n + 1, hn⟩) (sblk V c 1 ⟨n + 1, hn⟩)
        (statsAt c n (Nat.lt_of_succ_lt hn)).1 (statsAt c n (Nat.lt_of_succ_lt hn)).2,
     sumLater c (grid0.coords ⟨n + 1, hn⟩) (sm0 ⟨n + 1, hn⟩) (sh0 ⟨n + 1, hn⟩) (sm1 ⟨n + 1, hn⟩) (sh1 ⟨n + 1, hn⟩) (sm2 ⟨n + 1, hn⟩) (sh2 ⟨n + 1, hn⟩) (sm3 ⟨n + 1, hn⟩) (sh3 ⟨n + 1, hn⟩)
        (not_first_of_pos ⟨n + 1, hn⟩ (succ_mod n hn)) (later_of_pos ⟨n + 1, hn⟩ (succ_mod n hn)) (sblk V c 0 ⟨n + 1, hn⟩) (sblk V c 1 ⟨n + 1, hn⟩)
        (statsAt c n (Nat.lt_of_succ_lt hn)).1 (statsAt c n (Nat.lt_of_succ_lt hn)).2)

/-- At the first tile. -/
theorem statsAt_first (c : Dev nD) (t : Fin cfg0.N) (h0 : t.val % 50 = 0) :
    statsAt V c t.val t.isLt =
      (maxFirst c (grid0.coords t) (sm0 t) (sh0 t) (sm1 t) (sh1 t) (sm2 t) (sh2 t) (sm3 t) (sh3 t) (first_of_zero t h0) (not_later_of_zero t h0) (sblk V c 0 t) (sblk V c 1 t),
       sumFirst c (grid0.coords t) (sm0 t) (sh0 t) (sm1 t) (sh1 t) (sm2 t) (sh2 t) (sm3 t) (sh3 t) (first_of_zero t h0) (not_later_of_zero t h0) (sblk V c 0 t) (sblk V c 1 t)) := by
  obtain ⟨n, hn⟩ := t
  cases n with
  | zero => exact rfl
  | succ n => exact absurd h0 (succ_mod n hn)

/-- At a later tile: over what the tile before left. -/
theorem statsAt_later (c : Dev nD) (t : Fin cfg0.N) (h0 : ¬ t.val % 50 = 0) :
    statsAt V c t.val t.isLt =
      (maxLater c (grid0.coords t) (sm0 t) (sh0 t) (sm1 t) (sh1 t) (sm2 t) (sh2 t) (sm3 t) (sh3 t) (not_first_of_pos t h0) (later_of_pos t h0) (sblk V c 0 t) (sblk V c 1 t)
          (statsAt V c (t.val - 1) (Nat.lt_of_le_of_lt (Nat.sub_le _ _) t.isLt)).1 (statsAt V c (t.val - 1) (Nat.lt_of_le_of_lt (Nat.sub_le _ _) t.isLt)).2,
       sumLater c (grid0.coords t) (sm0 t) (sh0 t) (sm1 t) (sh1 t) (sm2 t) (sh2 t) (sm3 t) (sh3 t) (not_first_of_pos t h0) (later_of_pos t h0) (sblk V c 0 t) (sblk V c 1 t)
          (statsAt V c (t.val - 1) (Nat.lt_of_le_of_lt (Nat.sub_le _ _) t.isLt)).1 (statsAt V c (t.val - 1) (Nat.lt_of_le_of_lt (Nat.sub_le _ _) t.isLt)).2) := by
  obtain ⟨n, hn⟩ := t
  cases n with
  | zero => exact absurd (Nat.zero_mod _) h0
  | succ n => exact rfl

/-! ## The pass's proof data -/

/-- The arrays as the pass finds them; after the body at tile `t` the two inputs' buffers at their blocks and the two
    outputs' at the running maxima and sums; nothing owed; full shares. -/
def dat0 (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => (statsAt V c t.val t.isLt).1
    | ⟨3, _⟩ => (statsAt V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = sblk V c 0 t := by dsimp only [dat0]
theorem after0_1 (c : Dev nD) (t : Fin cfg0.N) : (dat0 V c).after 1 t = sblk V c 1 t := by dsimp only [dat0]
theorem after0_2 (c : Dev nD) (t : Fin cfg0.N) : (dat0 V c).after 2 t = (statsAt V c t.val t.isLt).1 := by dsimp only [dat0]
theorem after0_3 (c : Dev nD) (t : Fin cfg0.N) : (dat0 V c).after 3 t = (statsAt V c t.val t.isLt).2 := by dsimp only [dat0]

theorem before0_0 (c : Dev nD) (t : Fin cfg0.N) (d) : (dat0 V c).before 0 t d = sblk V c 0 t :=
  sbefore0_of V (dat0 V c) (A_eq0 V c 0) (after0_0 V c) t d
theorem before0_1 (c : Dev nD) (t : Fin cfg0.N) (d) : (dat0 V c).before 1 t d = sblk V c 1 t :=
  sbefore1_of V (dat0 V c) (A_eq0 V c 1) (after0_1 V c) t d

/-- At a later tile the maxima's buffer holds what the tile before left: the block was not written back between. -/
theorem before0_2_later (c : Dev nD) (t : Fin cfg0.N) (h0 : ¬ t.val % 50 = 0) (d) :
    (dat0 V c).before 2 t d = (statsAt V c (t.val - 1) (Nat.lt_of_le_of_lt (Nat.sub_le _ _) t.isLt)).1 := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    live2 (fun _ _ => rfl)]
  dsimp only [dat0]

/-- At a later tile the sums' buffer holds what the tile before left. -/
theorem before0_3_later (c : Dev nD) (t : Fin cfg0.N) (h0 : ¬ t.val % 50 = 0) (d) :
    (dat0 V c).before 3 t d = (statsAt V c (t.val - 1) (Nat.lt_of_le_of_lt (Nat.sub_le _ _) t.isLt)).2 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    live3 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (sm0 t) fullShare ((dat0 V c).before 0 t d))
    ∗ (∃ d, owns (c : Thread nD τ) (sm1 t) fullShare ((dat0 V c).before 1 t d))
    ∗ (∃ d, owns (c : Thread nD τ) (sm2 t) fullShare ((dat0 V c).before 2 t d))
    ∗ (∃ d, owns (c : Thread nD τ) (sm3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (sm0 t) fullShare ((dat0 V c).after 0 t)
    ∗ owns (c : Thread nD τ) (sm1 t) fullShare ((dat0 V c).after 1 t)
    ∗ owns (c : Thread nD τ) (sm2 t) fullShare ((dat0 V c).after 2 t)
    ∗ owns (c : Thread nD τ) (sm3 t) fullShare ((dat0 V c).after 3 t))

set_option maxHeartbeats 800000 in
/-- The body at any tile: the inputs' buffers hold their blocks; at the first tile the first branch runs on
    outputs holding anything, at a later tile the second on what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 50 = 0
  · rw [statsAt_first V c t h0]
    dsimp only
    unfold maxFirst sumFirst
    iintro ⟨HΦ, Ho, ⟨%d0, H0⟩, ⟨%d1, H1⟩, ⟨%d2, H2⟩, ⟨%d3, H3⟩⟩
    iapply ((firstRun c (grid0.coords t) _ _ _ _ _ _ _ _ (first_of_zero t h0) (not_later_of_zero t h0) (sblk V c 0 t) (sblk V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (maxCoverFirst c _ _ _ _ _ _ _ _ _ _ _ _ _)
    unfold owns; iexists _; isplitr
    swap; · iexact H3
    ipureintro; exact View.read_writes_of_cover _ _ _ _ _ (sumCoverFirst c _ _ _ _ _ _ _ _ _ _ _ _ _)
  · rw [statsAt_later V c t h0]
    simp only [before0_2_later V c t h0, before0_3_later V c t h0]
    unfold maxLater sumLater
    iintro ⟨HΦ, Ho, ⟨%d0, H0⟩, ⟨%d1, H1⟩, ⟨%d2, H2⟩, ⟨%d3, H3⟩⟩
    iapply ((laterRun c (grid0.coords t) _ _ _ _ _ _ _ _ (not_first_of_pos t h0) (later_of_pos t h0) (sblk V c 0 t) (sblk V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (maxCoverLater c _ _ _ _ _ _ _ _ _ _ _ _ _ _ _)
    unfold owns; iexists _; isplitr
    swap; · iexact H3
    ipureintro; exact View.read_writes_of_cover _ _ _ _ _ (sumCoverLater c _ _ _ _ _ _ _ _ _ _ _ _ _ _ _)

theorem live2_at (t : Fin cfg0.N) : idle0 2 (grid0.coords t) = false := live2 _
theorem live3_at (t : Fin cfg0.N) : idle0 3 (grid0.coords t) = false := live3 _

/-- The pipeline's body obligation, at every tile (both outputs are stored at every tile). -/
theorem body_obligation0 (c : Dev nD) : BodyObligation (dat0 (F := F) V c) (defs₀ (F := F)) Variants.none () Set.univ := fun t => by
  rw [bigSep_W0, bigSep_W0]
  simp only [live2_at t, live3_at t]
  exact sound_body0 V c t

end Cert.KernelIdeal.Hand

end
-- ==== Proof.KI.UpdateData.lean ====
/-
  The update pass (the second of the two kernel launches) as a pipeline region: its proof data and the body's
  obligation. The pass walks the memory rows in 50 tiles of 2000 rows. At every tile it loads the whole of its
  seven input blocks (the transposed queries, the queries, the query contents, the column maxima, the column sums,
  the tile of memory rows, the tile of row contents), forms the tile's weights and the rows' complements, and stores
  into the 2000 × 74 output block first columns 0 to 63 (row · complement + weights · queries) and then columns
  64 to 73 (contents · complement + weights · query contents). The two stores tile the block, so what the block
  holds after the body does not depend on what it held before.
-/
import proofs.«144876_g70351564308696_cont_9to1_m_470_2_alg».proof.Proof.Gen.KernelIdeal.Launch
import proofs.«144876_g70351564308696_cont_9to1_m_470_2_alg».proof.Proof.Gen.KernelIdeal.Skeleton
import proofs.«144876_g70351564308696_cont_9to1_m_470_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the pass finds it. -/
def ublk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of each input buffer, as the body loads it. -/
abbrev ur0 : Rect S64x1024 := Rect.unit (s := S64x1024) ![0, 0] S64x1024.size inb_S64x1024_S64x1024_0_0
abbrev ur1 : Rect S1024x64 := Rect.unit (s := S1024x64) ![0, 0] S1024x64.size inb_S1024x64_S1024x64_0_0
abbrev ur2 : Rect S1024x10 := Rect.unit (s := S1024x10) ![0, 0] S1024x10.size inb_S1024x10_S1024x10_0_0
abbrev ur3 : Rect S1x1024 := Rect.unit (s := S1x1024) ![0, 0] S1x1024.size inb_S1x1024_S1x1024_0_0
abbrev ur5 : Rect S2000x64 := Rect.unit (s := S2000x64) ![0, 0] S2000x64.size inb_S2000x64_S2000x64_0_0
abbrev ur6 : Rect S2000x10 := Rect.unit (s := S2000x10) ![0, 0] S2000x10.size inb_S2000x10_S2000x10_0_0
/-- Columns 0 to 63 of the output buffer: where the updated memory rows are stored. -/
abbrev urLeft : Rect S2000x74 := Rect.unit (s := S2000x74) ![0, 0] S2000x64.size inb_S2000x74_S2000x64_0_0
/-- Columns 64 to 73 of the output buffer: where the updated row contents are stored. -/
abbrev urRight : Rect S2000x74 := Rect.unit (s := S2000x74) ![0, 64] S2000x10.size inb_S2000x74_S2000x10_0_64

/-! ## What the body leaves in the output buffer -/

/-- The output buffer after the body, from the seven input blocks: the two stores as pieces, last first. With
    `w = k1_pay3` the tile's weights and `u = k1_pay4` the rows' complements, the left piece is
    `row · u + w · queries` and the right piece `contents · u + w · query contents`. -/
def updBlock (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) : Vec F S2000x74 .f32 :=
  View.canon [⟨urRight, k1_pay2 (k1_pay3 (View.ld x0 ur0) (View.ld x5 ur5) (View.ld x3 ur3) (View.ld x4 ur3))
      (k1_pay4 (View.ld x0 ur0) (View.ld x5 ur5) (View.ld x3 ur3) (View.ld x4 ur3)) (View.ld x6 ur6) (View.ld x2 ur2)⟩,
    ⟨urLeft, k1_pay1 (View.ld x5 ur5) (k1_pay3 (View.ld x0 ur0) (View.ld x5 ur5) (View.ld x3 ur3) (View.ld x4 ur3))
      (k1_pay4 (View.ld x0 ur0) (View.ld x5 ur5) (View.ld x3 ur3) (View.ld x4 ur3)) (View.ld x1 ur1)⟩]

/-- The two stores cover the output buffer: a column below 64 lies in the left piece, any other in the right. -/
theorem updCover (p1 : Vec F S2000x10 .f32) (p0 : Vec F S2000x64 .f32) (y : S2000x74.Idx) :
    ∃ pc ∈ ([⟨urRight, p1⟩, ⟨urLeft, p0⟩] : List (View.Piece (Elt F) S2000x74 .f32)), y ∈ pc.1.set := by
  have h0 : (y 0).val < 2000 := (y 0).isLt
  have h1 : (y 1).val < 74 := (y 1).isLt
  by_cases h : (y 1).val < 64
  · refine ⟨⟨urLeft, p0⟩, List.mem_cons_of_mem _ List.mem_cons_self, ?_⟩
    show y ∈ urLeft.set
    refine Rect.mem_set_unit.mpr fun a => ?_
    match a with
    | ⟨0, _⟩ => exact ⟨Nat.zero_le _, by show (y 0).val < 0 + 2000; omega⟩
    | ⟨1, _⟩ => exact ⟨Nat.zero_le _, by show (y 1).val < 0 + 64; omega⟩
  · refine ⟨⟨urRight, p1⟩, List.mem_cons_self, ?_⟩
    show y ∈ urRight.set
    refine Rect.mem_set_unit.mpr fun a => ?_
    match a with
    | ⟨0, _⟩ => exact ⟨Nat.zero_le _, by show (y 0).val < 0 + 2000; omega⟩
    | ⟨1, _⟩ => exact ⟨by show 64 ≤ (y 1).val; omega, by show (y 1).val < 64 + 10; omega⟩

/-! ## The body's triple -/

set_option maxHeartbeats 4000000 in
/-- The body on whole buffers, the seven inputs' at read contents `x0 … x6` and the output's at anything, runs to the
    continuation holding the inputs' as they were and the output's at `updBlock` of the inputs. The two loads of the
    output buffer that precede the stores read whatever it held; their values are used by nothing. -/
theorem sound_kernel1 (c : Dev nD) (E : Set ℕ) (i : grid1.Coords)
    (arg1 : Memref sig .tc .vmem S64x1024 .f32) (harg1 : arg1.IsWhole) (arg2 : Memref sig .tc .vmem S1024x64 .f32) (harg2 : arg2.IsWhole)
    (arg3 : Memref sig .tc .vmem S1024x10 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S2000x64 .f32) (harg6 : arg6.IsWhole)
    (arg7 : Memref sig .tc .vmem S2000x10 .f32) (harg7 : arg7.IsWhole) (arg8 : Memref sig .tc .vmem S2000x74 .f32) (harg8 : arg8.IsWhole)
    (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (updBlock x0 x1 x2 x3 x4 x5 x6)) -∗ K ⟨⟩))
      ⊢ wp frame (wpE (defs₀ (F := F)) Variants.none c none) E
          (cc1__update_body i arg1 harg1 arg2 harg2 arg3 harg3 arg4 harg4 arg5 harg5 arg6 harg6 arg7 harg7 arg8 harg8) K := by
  simp only [cc1__update_body_eq_skeleton]; unfold cc1__update_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (updCover _ _)

/-! ## The inputs' buffers hold their blocks -/

/- Each input window's current buffer holds its block at every tile, fetched there or not (an unfetched window's block
   index has not moved), for any proof data whose array is `V`'s and whose body leaves the block in place. -/
theorem ubefore0_of {c : Dev nD} (dat : Dat τ (Elt F) Unit ℕ (UR sig nD τ) ℕ cfg1 c) (hA : dat.A 0 = V c (Pipeline.arrRef spec1 0))
    (hafter : ∀ t, dat.after 0 t = ublk V c 0 t) (t : Fin cfg1.N) (d) : dat.before 0 t d = ublk V c 0 t :=
  (dat.before_in_eq_fetched 0 rfl (fun _ => rfl) (fun _ _ _ => rfl) (fun t => by rw [hafter]; unfold Dat.blockOf ublk; rw [hA]; try rfl) t d).trans
    (by unfold Dat.fetched Dat.blockOf ublk; rw [hA]; try rfl)

theorem ubefore1_of {c : Dev nD} (dat : Dat τ (Elt F) Unit ℕ (UR sig nD τ) ℕ cfg1 c) (hA : dat.A 1 = V c (Pipeline.arrRef spec1 1))
    (hafter : ∀ t, dat.after 1 t = ublk V c 1 t) (t : Fin cfg1.N) (d) : dat.before 1 t d = ublk V c 1 t :=
  (dat.before_in_eq_fetched 1 rfl (fun _ => rfl) (fun _ _ _ => rfl) (fun t => by rw [hafter]; unfold Dat.blockOf ublk; rw [hA]; try rfl) t d).trans
    (by unfold Dat.fetched Dat.blockOf ublk; rw [hA]; try rfl)

theorem ubefore2_of {c : Dev nD} (dat : Dat τ (Elt F) Unit ℕ (UR sig nD τ) ℕ cfg1 c) (hA : dat.A 2 = V c (Pipeline.arrRef spec1 2))
    (hafter : ∀ t, dat.after 2 t = ublk V c 2 t) (t : Fin cfg1.N) (d) : dat.before 2 t d = ublk V c 2 t :=
  (dat.before_in_eq_fetched 2 rfl (fun _ => rfl) (fun _ _ _ => rfl) (fun t => by rw [hafter]; unfold Dat.blockOf ublk; rw [hA]; try rfl) t d).trans
    (by unfold Dat.fetched Dat.blockOf ublk; rw [hA]; try rfl)

theorem ubefore3_of {c : Dev nD} (dat : Dat τ (Elt F) Unit ℕ (UR sig nD τ) ℕ cfg1 c) (hA : dat.A 3 = V c (Pipeline.arrRef spec1 3))
    (hafter : ∀ t, dat.after 3 t = ublk V c 3 t) (t : Fin cfg1.N) (d) : dat.before 3 t d = ublk V c 3 t :=
  (dat.before_in_eq_fetched 3 rfl (fun _ => rfl) (fun _ _ _ => rfl) (fun t => by rw [hafter]; unfold Dat.blockOf ublk; rw [hA]; try rfl) t d).trans
    (by unfold Dat.fetched Dat.blockOf ublk; rw [hA]; try rfl)

theorem ubefore4_of {c : Dev nD} (dat : Dat τ (Elt F) Unit ℕ (UR sig nD τ) ℕ cfg1 c) (hA : dat.A 4 = V c (Pipeline.arrRef spec1 4))
    (hafter : ∀ t, dat.after 4 t = ublk V c 4 t) (t : Fin cfg1.N) (d) : dat.before 4 t d = ublk V c 4 t :=
  (dat.before_in_eq_fetched 4 rfl (fun _ => rfl) (fun _ _ _ => rfl) (fun t => by rw [hafter]; unfold Dat.blockOf ublk; rw [hA]; try rfl) t d).trans
    (by unfold Dat.fetched Dat.blockOf ublk; rw [hA]; try rfl)

theorem ubefore5_of {c : Dev nD} (dat : Dat τ (Elt F) Unit ℕ (UR sig nD τ) ℕ cfg1 c) (hA : dat.A 5 = V c (Pipeline.arrRef spec1 5))
    (hafter : ∀ t, dat.after 5 t = ublk V c 5 t) (t : Fin cfg1.N) (d) : dat.before 5 t d = ublk V c 5 t :=
  (dat.before_in_eq_fetched 5 rfl (fun _ => rfl) (fun _ _ _ => rfl) (fun t => by rw [hafter]; unfold Dat.blockOf ublk; rw [hA]; try rfl) t d).trans
    (by unfold Dat.fetched Dat.blockOf ublk; rw [hA]; try rfl)

theorem ubefore6_of {c : Dev nD} (dat : Dat τ (Elt F) Unit ℕ (UR sig nD τ) ℕ cfg1 c) (hA : dat.A 6 = V c (Pipeline.arrRef spec1 6))
    (hafter : ∀ t, dat.after 6 t = ublk V c 6 t) (t : Fin cfg1.N) (d) : dat.before 6 t d = ublk V c 6 t :=
  (dat.before_in_eq_fetched 6 rfl (fun _ => rfl) (fun _ _ _ => rfl) (fun t => by rw [hafter]; unfold Dat.blockOf ublk; rw [hA]; try rfl) t d).trans
    (by unfold Dat.fetched Dat.blockOf ublk; rw [hA]; try rfl)

/-! ## The pass's proof data -/

/-- The arrays as the pass finds them; after the body at tile `t` the seven inputs' buffers at their blocks and the
    output's at `updBlock` of them; nothing owed; full shares. -/
def dat1 (c : Dev nD) : Dat τ (Elt F) Unit ℕ (UR sig nD τ) ℕ cfg1 c where
  A w := V c (Pipeline.arrRef spec1 w)
  after w t := match w with
    | ⟨0, _⟩ => ublk V c 0 t
    | ⟨1, _⟩ => ublk V c 1 t
    | ⟨2, _⟩ => ublk V c 2 t
    | ⟨3, _⟩ => ublk V c 3 t
    | ⟨4, _⟩ => ublk V c 4 t
    | ⟨5, _⟩ => ublk V c 5 t
    | ⟨6, _⟩ => ublk V c 6 t
    | ⟨7, _⟩ => updBlock (ublk V c 0 t) (ublk V c 1 t) (ublk V c 2 t) (ublk V c 3 t) (ublk V c 4 t) (ublk V c 5 t) (ublk V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = ublk V c 0 t := by dsimp only [dat1]
theorem after1_1 (c : Dev nD) (t : Fin cfg1.N) : (dat1 V c).after 1 t = ublk V c 1 t := by dsimp only [dat1]
theorem after1_2 (c : Dev nD) (t : Fin cfg1.N) : (dat1 V c).after 2 t = ublk V c 2 t := by dsimp only [dat1]
theorem after1_3 (c : Dev nD) (t : Fin cfg1.N) : (dat1 V c).after 3 t = ublk V c 3 t := by dsimp only [dat1]
theorem after1_4 (c : Dev nD) (t : Fin cfg1.N) : (dat1 V c).after 4 t = ublk V c 4 t := by dsimp only [dat1]
theorem after1_5 (c : Dev nD) (t : Fin cfg1.N) : (dat1 V c).after 5 t = ublk V c 5 t := by dsimp only [dat1]
theorem after1_6 (c : Dev nD) (t : Fin cfg1.N) : (dat1 V c).after 6 t = ublk V c 6 t := by dsimp only [dat1]
theorem after1_7 (c : Dev nD) (t : Fin cfg1.N) :
    (dat1 V c).after 7 t = updBlock (ublk V c 0 t) (ublk V c 1 t) (ublk V c 2 t) (ublk V c 3 t) (ublk V c 4 t) (ublk V c 5 t) (ublk V c 6 t) := by
  dsimp only [dat1]

theorem before1_0 (c : Dev nD) (t : Fin cfg1.N) (d) : (dat1 V c).before 0 t d = ublk V c 0 t :=
  ubefore0_of V (dat1 V c) (A_eq1 V c 0) (after1_0 V c) t d
theorem before1_1 (c : Dev nD) (t : Fin cfg1.N) (d) : (dat1 V c).before 1 t d = ublk V c 1 t :=
  ubefore1_of V (dat1 V c) (A_eq1 V c 1) (after1_1 V c) t d
theorem before1_2 (c : Dev nD) (t : Fin cfg1.N) (d) : (dat1 V c).before 2 t d = ublk V c 2 t :=
  ubefore2_of V (dat1 V c) (A_eq1 V c 2) (after1_2 V c) t d
theorem before1_3 (c : Dev nD) (t : Fin cfg1.N) (d) : (dat1 V c).before 3 t d = ublk V c 3 t :=
  ubefore3_of V (dat1 V c) (A_eq1 V c 3) (after1_3 V c) t d
theorem before1_4 (c : Dev nD) (t : Fin cfg1.N) (d) : (dat1 V c).before 4 t d = ublk V c 4 t :=
  ubefore4_of V (dat1 V c) (A_eq1 V c 4) (after1_4 V c) t d
theorem before1_5 (c : Dev nD) (t : Fin cfg1.N) (d) : (dat1 V c).before 5 t d = ublk V c 5 t :=
  ubefore5_of V (dat1 V c) (A_eq1 V c 5) (after1_5 V c) t d
theorem before1_6 (c : Dev nD) (t : Fin cfg1.N) (d) : (dat1 V c).before 6 t d = ublk V c 6 t :=
  ubefore6_of V (dat1 V c) (A_eq1 V c 6) (after1_6 V c) t d

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any tile: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (ublk V c 0 t) (ublk V c 1 t) (ublk V c 2 t) (ublk V c 3 t) (ublk V c 4 t) (ublk V c 5 t) (ublk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! ## The output block entry by entry -/

/-- Both offsets of a whole-buffer load are zero. -/
private theorem zero2 : (![0, 0] : Fin 2 → ℕ) = fun _ => 0 := funext fun a => by fin_cases a <;> rfl

/-- The loads read the whole input blocks, so the two pieces are the payloads of the blocks themselves. -/
theorem updBlock_eq (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) :
    updBlock x0 x1 x2 x3 x4 x5 x6
      = View.canon [⟨urRight, k1_pay2 (k1_pay3 x0 x5 x3 x4) (k1_pay4 x0 x5 x3 x4) x6 x2⟩,
          ⟨urLeft, k1_pay1 x5 (k1_pay3 x0 x5 x3 x4) (k1_pay4 x0 x5 x3 x4) x1⟩] := by
  unfold updBlock
  simp only [View.ld_unit_zero (S := S64x1024) zero2, View.ld_unit_zero (S := S1024x64) zero2,
    View.ld_unit_zero (S := S1024x10) zero2, View.ld_unit_zero (S := S1x1024) zero2,
    View.ld_unit_zero (S := S2000x64) zero2, View.ld_unit_zero (S := S2000x10) zero2]

/-- Columns 0 to 63 of the output block are the updated memory rows. -/
theorem updBlock_left (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (r : Fin 2000) (k : Fin 64) :
    updBlock x0 x1 x2 x3 x4 x5 x6 (ix2 r (⟨k.val, by have := k.isLt; omega⟩ : Fin 74))
      = k1_pay1 x5 (k1_pay3 x0 x5 x3 x4) (k1_pay4 x0 x5 x3 x4) x1 (ix2 r k) := by
  have hk := k.isLt
  -- the entry is outside the right piece (its column is below 64) and is entry (r, k) of the left piece
  have hnot : (ix2 r (⟨k.val, by omega⟩ : Fin 74) : S2000x74.Idx) ∉ urRight.set := fun hm => by
    have h64 : 64 ≤ k.val := (Rect.mem_set_unit.mp hm 1).1
    omega
  have e : (ix2 r (⟨k.val, by omega⟩ : Fin 74) : S2000x74.Idx) = urLeft.emb (ix2 r k) := funext fun a =>
    match a with
    | ⟨0, _⟩ => Fin.ext (by show r.val = 0 + 1 * r.val; omega)
    | ⟨1, _⟩ => Fin.ext (by show k.val = 0 + 1 * k.val; omega)
  rw [updBlock_eq]
  rw [View.canon_cons_of_not_mem ⟨urRight, _⟩ _ hnot]
  rw [e]
  rw [View.canon_cons_emb]

/-- Columns 64 to 73 of the output block are the updated row contents. -/
theorem updBlock_right (x0 : Vec F S64x1024 .f32) (x1 : Vec F S1024x64 .f32) (x2 : Vec F S1024x10 .f32) (x3 : Vec F S1x1024 .f32)
    (x4 : Vec F S1x1024 .f32) (x5 : Vec F S2000x64 .f32) (x6 : Vec F S2000x10 .f32) (r : Fin 2000) (j : Fin 10) :
    updBlock x0 x1 x2 x3 x4 x5 x6 (ix2 r (⟨64 + j.val, by have := j.isLt; omega⟩ : Fin 74))
      = k1_pay2 (k1_pay3 x0 x5 x3 x4) (k1_pay4 x0 x5 x3 x4) x6 x2 (ix2 r j) := by
  have hj := j.isLt
  -- the entry is entry (r, j) of the right piece, the last stored
  have e : (ix2 r (⟨64 + j.val, by omega⟩ : Fin 74) : S2000x74.Idx) = urRight.emb (ix2 r j) := funext fun a =>
    match a with
    | ⟨0, _⟩ => Fin.ext (by show r.val = 0 + 1 * r.val; omega)
    | ⟨1, _⟩ => Fin.ext (by show 64 + j.val = 64 + 1 * j.val; omega)
  rw [updBlock_eq]
  rw [e]
  rw [View.canon_cons_emb]

end Cert.KernelIdeal.Hand

end
-- ==== Proof.KI.Run.lean ====
/-
  The whole program as a run: a host transposition of the queries, the statistics pass, the update pass. Between the
  segments each core's unscoped buffers hold: the launch contents; then the transposed queries added; then the
  statistics pass's two outputs at what its write-backs leave; then the update pass's output at what its write-backs
  leave. Every weakly fair execution terminates in a state whose unscoped buffers are the last of these.
-/
import proofs.«144876_g70351564308696_cont_9to1_m_470_2_alg».proof.Proof.KI.StatsData
import proofs.«144876_g70351564308696_cont_9to1_m_470_2_alg».proof.Proof.KI.UpdateData
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the host transposition (the statistics pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the update pass: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the passes read: each input array as launched, the transposed queries as the host wrote them -/

/-- The host stretch writes the transposed queries and nothing else. -/
theorem transposeWrites : (hostOps0 : List (HloOp τ sig (Elt F))).Forall fun op => op.writes ⊆ (([main_call0_v0] : List (Ref sig .tc)).map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of_arg (c : Dev nD) (b : Ref sig .tc) (hb : b ∉ ([main_call0_v0] : List (Ref sig .tc))) : W1 m ρ c (Proc.devRef .tc b) = m ((c : Thread nD τ).loc b) :=
  StableHlo.after_of_writes_sub hostOps0 _ transposeWrites hb

/-- The memory rows reach both passes as launched. -/
theorem V1_main_arg2 (c : Dev nD) : V1 m ρ c main_arg2 = m ((c : Thread nD τ).loc main_arg2) := W1_of_arg m ρ c main_arg2 (by decide)
theorem V2_main_arg2 (c : Dev nD) : V2 m ρ c main_arg2 = m ((c : Thread nD τ).loc main_arg2) :=
  ((W2_arr m ρ c 1).trans (((dat0 (V1 m ρ) c).arrAt_in 1 rfl _).trans (A_eq0 (V1 m ρ) c 1))).trans (V1_main_arg2 m ρ c)
theorem V2_main_arg0 (c : Dev nD) : V2 m ρ c main_arg0 = m ((c : Thread nD τ).loc main_arg0) :=
  (W2_of_ne m ρ c main_arg0 (by decide)).trans (W1_of_arg m ρ c main_arg0 (by decide))
theorem V2_main_arg1 (c : Dev nD) : V2 m ρ c main_arg1 = m ((c : Thread nD τ).loc main_arg1) :=
  (W2_of_ne m ρ c main_arg1 (by decide)).trans (W1_of_arg m ρ c main_arg1 (by decide))
theorem V2_main_arg3 (c : Dev nD) : V2 m ρ c main_arg3 = m ((c : Thread nD τ).loc main_arg3) :=
  (W2_of_ne m ρ c main_arg3 (by decide)).trans (W1_of_arg m ρ c main_arg3 (by decide))
/-- The transposed queries reach the update pass as the statistics pass found them. -/
theorem V2_qt (c : Dev nD) : V2 m ρ c main_call0_v0 = V1 m ρ c main_call0_v0 :=
  (W2_arr m ρ c 0).trans (((dat0 (V1 m ρ) c).arrAt_in 0 rfl _).trans (A_eq0 (V1 m ρ) c 0))
/-- The update pass finds the statistics pass's two outputs at what its write-backs left. -/
theorem V2_max (c : Dev nD) : V2 m ρ c main_call0_v1_0 = (dat0 (V1 m ρ) c).arrAt 2 cfg0.N := W2_arr m ρ c 2
theorem V2_sum (c : Dev nD) : V2 m ρ c main_call0_v1_1 = (dat0 (V1 m ρ) c).arrAt 3 cfg0.N := W2_arr m ρ c 3

/-- The arguments end as launched. -/
theorem W3_main_arg0 (c : Dev nD) : W3 m ρ c (Proc.devRef .tc main_arg0) = m ((c : Thread nD τ).loc main_arg0) :=
  ((W3_arr m ρ c 1).trans (((dat1 (V2 m ρ) c).arrAt_in 1 rfl _).trans (A_eq1 (V2 m ρ) c 1))).trans (V2_main_arg0 m ρ c)
theorem W3_main_arg1 (c : Dev nD) : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (V2_main_arg1 m ρ c)
theorem W3_main_arg2 (c : Dev nD) : W3 m ρ c (Proc.devRef .tc main_arg2) = m ((c : Thread nD τ).loc main_arg2) :=
  ((W3_arr m ρ c 5).trans (((dat1 (V2 m ρ) c).arrAt_in 5 rfl _).trans (A_eq1 (V2 m ρ) c 5))).trans (V2_main_arg2 m ρ c)
theorem W3_main_arg3 (c : Dev nD) : W3 m ρ c (Proc.devRef .tc main_arg3) = m ((c : Thread nD τ).loc main_arg3) :=
  ((W3_arr m ρ c 6).trans (((dat1 (V2 m ρ) c).arrAt_in 6 rfl _).trans (A_eq1 (V2 m ρ) c 6))).trans (V2_main_arg3 m ρ c)
/-- The result is what the update pass's write-backs leave. -/
theorem W3_main_v0 (c : Dev nD) : W3 m ρ c (Proc.devRef .tc main_v0) = (dat1 (V2 m ρ) c).arrAt 7 cfg1.N := W3_arr m ρ c 7

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

-- unification of a library lemma stated over the pinned configuration may have to unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration may have to unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state has each core's unscoped buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every run terminates with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- THE RESULT: every run terminates with the result buffer at what the update pass's write-backs leave, the four
    argument arrays as launched. -/
theorem result : θ_run defs (onTc (τ := τ) (main (F := F))) ⟨m, fun _ => 0, ρ⟩ (fun r => ∀ c : Dev nD,
      r.2.mem ((c.tc : Thread nD τ).loc main_v0) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The mathematics both programs compute, over the reals.

  For 1024 query rows `q b` (64 features) with contents `qc b` (10 classes) and 100000 memory rows `A i` with
  contents `Mc i`: the negated smoothed Euclidean distance `nd b i = -√(max(|q b|² + |A i|² - 2⟨q b, A i⟩, 0) + ε)`;
  per query the softmax over the memory rows of `nd b ·`, taken against the row maximum `top b` with partition
  sum `mass b`, times the moving-average factor; per memory row the total weight `wsum i`; and the update
  `A i + Σ_b w b i · q b - wsum i · A i` (likewise for the contents), the two results side by side in 74 columns.

  The second half states the same maxima and partition sums the way a pass over the memory in 50 tiles of 2000 rows
  accumulates them: the running maximum, and the running sum rescaled whenever the maximum grows.
-/
import Idealize.ShloMosaic.PureOps.Ideal
import Idealize.ShloMosaic.Lib.ValueIdx

noncomputable section

open scoped BigOperators

namespace Cert.Softmin

/-- The negated smoothed distance between a query row and a memory row. -/
def negDist (two eps : ℝ) (qr ar : Fin 64 → ℝ) : ℝ :=
  -Real.sqrt (max ((∑ k, qr k * qr k) + (∑ k, ar k * ar k) - two * ∑ k, qr k * ar k) 0 + eps)

variable (two eps ema : ℝ) (q : Fin 1024 → Fin 64 → ℝ) (qc : Fin 1024 → Fin 10 → ℝ)
  (A : Fin 100000 → Fin 64 → ℝ) (Mc : Fin 100000 → Fin 10 → ℝ)

/-- Negated distance of query `b` to memory row `i`. -/
def nd (b : Fin 1024) (i : Fin 100000) : ℝ := negDist two eps (q b) (A i)

/-- The largest negated distance of query `b` over all memory rows. -/
def top (b : Fin 1024) : ℝ := Finset.univ.sup' Finset.univ_nonempty (nd two eps q A b)

/-- The partition sum of query `b`, taken against its maximum. -/
def mass (b : Fin 1024) : ℝ := ∑ i, Real.exp (nd two eps q A b i - top two eps q A b)

/-- The weight query `b` puts on memory row `i`. -/
def wt (b : Fin 1024) (i : Fin 100000) : ℝ :=
  Real.exp (nd two eps q A b i - top two eps q A b) / mass two eps q A b * ema

/-- The total weight on memory row `i`. -/
def wsum (i : Fin 100000) : ℝ := ∑ b, wt two eps ema q A b i

/-- The updated address row. -/
def newA (i : Fin 100000) (k : Fin 64) : ℝ :=
  A i k + (∑ b, wt two eps ema q A b i * q b k) - wsum two eps ema q A i * A i k

/-- The updated content row. -/
def newM (i : Fin 100000) (j : Fin 10) : ℝ :=
  Mc i j + (∑ b, wt two eps ema q A b i * qc b j) - wsum two eps ema q A i * Mc i j

/-- The result: the updated addresses in columns 0 … 63, the updated contents in columns 64 … 73. -/
def out (i : Fin 100000) (k : Fin 74) : ℝ :=
  if h : k.val < 64 then newA two eps ema q A i ⟨k.val, h⟩
  else newM two eps ema q qc A Mc i ⟨k.val - 64, by have := k.isLt; omega⟩

/-! ## The same maxima and sums, tile by tile -/

/-- Row `r` of tile `t` (tiles of 2000 rows; total in `t` by wrapping, read only for `t < 50`). -/
def row (t : ℕ) (r : Fin 2000) : Fin 100000 := ⟨(2000 * t + r.val) % 100000, Nat.mod_lt _ (by decide)⟩

/-- The largest negated distance of query `b` within tile `t`. -/
def tileTop (t : ℕ) (b : Fin 1024) : ℝ :=
  Finset.univ.sup' Finset.univ_nonempty (fun r : Fin 2000 => nd two eps q A b (row t r))

/-- The running maximum after tile `t`. -/
def runTop (b : Fin 1024) : ℕ → ℝ
  | 0 => tileTop two eps q A 0 b
  | t + 1 => max (runTop b t) (tileTop two eps q A (t + 1) b)

/-- The running partition sum after tile `t`: taken against the running maximum, rescaled when it grows. -/
def runMass (b : Fin 1024) : ℕ → ℝ
  | 0 => ∑ r : Fin 2000, Real.exp (nd two eps q A b (row 0 r) - tileTop two eps q A 0 b)
  | t + 1 => runMass b t * Real.exp (runTop two eps q A b t - runTop two eps q A b (t + 1))
      + ∑ r : Fin 2000, Real.exp (nd two eps q A b (row (t + 1) r) - runTop two eps q A b (t + 1))

end Cert.Softmin

end
-- ==== Proof.Consts.lean ====
/-
  The float constants the two programs spell, as the extended reals their patterns denote: zero, one, two, minus
  infinity exactly; the distance smoothing term and the moving-average factor as the reals their patterns denote
  (named, never evaluated: both programs use the same two patterns).
-/
import Idealize.ShloMosaic.PureOps.Ideal

noncomputable section

namespace Cert.Consts

open Idealize.ShloMosaic

/-- The factor of the cross term. -/
def twoR : ℝ := 2
/-- The smoothing term under the square root. -/
def epsR : ℝ := (Ideal.ofBits .f32 0x2B8CBCCC#32).toReal
/-- The moving-average factor. -/
def emaR : ℝ := (Ideal.ofBits .f32 0x3A8301AA#32).toReal

/-- All fields zero: the subnormal with fraction 0, i.e. `0 · 2^(-149) = 0`. -/
theorem ofBits_zero : Ideal.ofBits .f32 0x00000000#32 = 0 := by
  simp [Ideal.ofBits, Ideal.ieee]

/-- Exponent field 127, fraction 0: `2^23 · 2^(127 - 127 - 23) = 1`. -/
theorem ofBits_one : Ideal.ofBits .f32 0x3F800000#32 = 1 := by
  simp [Ideal.ofBits, Ideal.ieee, -EReal.coe_mul]; norm_num

/-- Exponent field 128, fraction 0: `2^23 · 2^(128 - 127 - 23) = 2`. -/
theorem ofBits_two : Ideal.ofBits .f32 0x40000000#32 = ((twoR : ℝ) : EReal) := by
  simp [Ideal.ofBits, Ideal.ieee, twoR, -EReal.coe_mul]; norm_num

/-- Sign set, exponent field all ones, fraction 0: minus infinity. -/
theorem ofBits_neg_inf : Ideal.ofBits .f32 0xFF800000#32 = ⊥ := by
  simp [Ideal.ofBits, Ideal.ieee]

/-- The smoothing pattern is a normal number: sign clear, exponent field 87, fraction 834764, so it denotes the
    positive dyadic `(2^23 + 834764) · 2^(87 - 127 - 23) = 9223372 · 2^(-63)`. -/
private theorem eps_val :
    Ideal.ofBits .f32 0x2B8CBCCC#32 = (((9223372 : ℝ) * (2 : ℝ) ^ (-63 : ℤ) : ℝ) : EReal) := by
  simp [Ideal.ofBits, Ideal.ieee, -EReal.coe_mul]

/-- The moving-average pattern is a normal number: sign clear, exponent field 117, fraction 197034, so it denotes
    the dyadic `(2^23 + 197034) · 2^(117 - 127 - 23) = 8585642 · 2^(-33)`. -/
private theorem ema_val :
    Ideal.ofBits .f32 0x3A8301AA#32 = (((8585642 : ℝ) * (2 : ℝ) ^ (-33 : ℤ) : ℝ) : EReal) := by
  simp [Ideal.ofBits, Ideal.ieee, -EReal.coe_mul]

/-- A finite pattern is the coercion of its own real part. -/
theorem ofBits_eps : Ideal.ofBits .f32 0x2B8CBCCC#32 = ((epsR : ℝ) : EReal) := by
  rw [epsR, eps_val, EReal.toReal_coe]

/-- The smoothing term is a positive dyadic, in particular nonnegative. -/
theorem epsR_nonneg : 0 ≤ epsR := by
  rw [epsR, eps_val, EReal.toReal_coe]
  positivity

/-- A finite pattern is the coercion of its own real part. -/
theorem ofBits_ema : Ideal.ofBits .f32 0x3A8301AA#32 = ((emaR : ℝ) : EReal) := by
  rw [emaR, ema_val, EReal.toReal_coe]

end Cert.Consts

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.KI.StatsTile.lean ====
/-
  The statistics pass at one tile, entry by entry over the reals: for real queries `q` (held transposed in `qt`) and a
  real tile `a` of 2000 memory rows, the tile's negated distances, their column maxima and column sums of
  exponentials, and the merge of both into running maxima `mo` and running sums `zo`.

  The first section is general: the coercion of the reals into the extended reals against sums, maxima, folds of
  maxima and the square root, and the readings at an index of a reduction over one axis of a matrix kept as a row or
  a column. The second reads the product of the tile with the transposed queries as inner products. The third
  assembles the five payload readings.
-/
import proofs.«144876_g70351564308696_cont_9to1_m_470_2_alg».proof.Proof.Gen.KernelIdeal.Skeleton
import proofs.«144876_g70351564308696_cont_9to1_m_470_2_alg».proof.Proof.Spec
import proofs.«144876_g70351564308696_cont_9to1_m_470_2_alg».proof.Proof.Consts
import proofs.«144876_g70351564308696_cont_9to1_m_470_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StatsTile

open Cert.KernelIdeal Cert.KernelIdeal.Gen Idealize.ShloMosaic Idealize.ShloMosaic.ValueIdx Cert.Consts Cert.Softmin

/-! ## General: the reals inside the extended reals, and three layout readings -/

section General

/-- The coercion of the reals into the extended reals commutes with finite sums. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The coercion commutes with the maximum of two reals. -/
theorem coe_max (x y : ℝ) : ((max x y : ℝ) : EReal) = max (x : EReal) (y : EReal) :=
  EReal.coe_strictMono.monotone.map_max

/-- The fold of `max` from `⊥` over a nonempty finite family of reals is the coercion of its supremum. -/
theorem fold_max_coe {ι : Type} (s : Finset ι) (H : s.Nonempty) (f : ι → ℝ) :
    s.fold max (⊥ : EReal) (fun k => ((f k : ℝ) : EReal)) = ((s.sup' H f : ℝ) : EReal) := by
  apply le_antisymm
  · exact (Finset.fold_max_le _).mpr ⟨bot_le, fun k hk => EReal.coe_le_coe_iff.mpr (Finset.le_sup' f hk)⟩
  · obtain ⟨i, hi, hs⟩ := Finset.exists_mem_eq_sup' H f
    rw [hs]
    exact (Finset.le_fold_max _).mpr (Or.inr ⟨i, hi, le_rfl⟩)

/-- The ideal square root of a nonnegative real is the real square root. -/
theorem sqrt_coe_of_nonneg {r : ℝ} (h : 0 ≤ r) : Ideal.sqrt (r : EReal) = ((Real.sqrt r : ℝ) : EReal) := by
  rw [Ideal.sqrt_coe, if_neg (not_lt.mpr h)]

/-- A vector `[a]` cast to the one-column matrix `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index of a reduction of a matrix over its rows: the row inserted in front of the column. -/
theorem lift_rows {a b : ℕ} (h : (⟨2, ![a, b]⟩ : Shape).Reduces [0] ⟨1, ![b]⟩) (c : Fin b) (k : Fin a) :
    h.lift (ix1 c) k = ix2 k c := by
  funext d
  match d with
  | ⟨0, _⟩ => exact Fin.ext rfl
  | ⟨1, _⟩ => exact Fin.ext rfl

/-- The source index of a reduction of a matrix over its columns: the column inserted behind the row. -/
theorem lift_cols {a b : ℕ} (h : (⟨2, ![a, b]⟩ : Shape).Reduces [1] ⟨1, ![a]⟩) (r : Fin a) (k : Fin b) :
    h.lift (ix1 r) k = ix2 r k := by
  funext d
  match d with
  | ⟨0, _⟩ => exact Fin.ext rfl
  | ⟨1, _⟩ => exact Fin.ext rfl

/-- The vector square root and exponential read at an index, at the ideal values. -/
theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl

/-- The column sums of an `[m, n]` block, kept as one row `[1, n]`: at column `b` the sum down the column. -/
theorem colsum_apply {m n : ℕ} (v : FVec Ideal ⟨2, ![m, n]⟩ .f32) (h : (⟨2, ![m, n]⟩ : Shape).Reduces [0] ⟨1, ![n]⟩)
    (hc : (⟨1, ![n]⟩ : Shape).ShapeCasts ⟨2, ![1, n]⟩) (hφ : FKind.Formats .f32)
    (hacc : (0x00000000#32 : BitVec 32) = FKind.add.neutral .f32 hφ) (b : Fin n) :
    shapeCast ⟨2, ![1, n]⟩ (multiReduction .add [0] ⟨1, ![n]⟩ v 0x00000000#32 h hφ hacc) hc (ix2 (0 : Fin 1) b)
      = ∑ k : Fin m, v (ix2 k b) := by
  refine (shapeCast_a_1a_apply _ hc (0 : Fin 1) b).trans ?_
  refine (Ideal.multiReduction_add_single v 0x00000000#32 h hφ hacc (ix1 b)).trans ?_
  show ∑ k : Fin m, v (h.lift (ix1 b) k) = _
  exact Finset.sum_congr rfl fun k _ => congrArg v (lift_rows h b k)

/-- The row sums of an `[m, n]` block, kept as one column `[m, 1]`: at row `r` the sum along the row. -/
theorem rowsum_apply {m n : ℕ} (v : FVec Ideal ⟨2, ![m, n]⟩ .f32) (h : (⟨2, ![m, n]⟩ : Shape).Reduces [1] ⟨1, ![m]⟩)
    (hc : (⟨1, ![m]⟩ : Shape).ShapeCasts ⟨2, ![m, 1]⟩) (hφ : FKind.Formats .f32)
    (hacc : (0x00000000#32 : BitVec 32) = FKind.add.neutral .f32 hφ) (r : Fin m) :
    shapeCast ⟨2, ![m, 1]⟩ (multiReduction .add [1] ⟨1, ![m]⟩ v 0x00000000#32 h hφ hacc) hc (ix2 r (0 : Fin 1))
      = ∑ k : Fin n, v (ix2 r k) := by
  refine (shapeCast_a_a1_apply _ hc r (0 : Fin 1)).trans ?_
  refine (Ideal.multiReduction_add_single v 0x00000000#32 h hφ hacc (ix1 r)).trans ?_
  show ∑ k : Fin n, v (h.lift (ix1 r) k) = _
  exact Finset.sum_congr rfl fun k _ => congrArg v (lift_cols h r k)

/-- The column maxima of an `[m + 1, n]` block from minus infinity, kept as one row: where column `b` holds the reals
    `f`, the supremum of `f`. -/
theorem colmax_apply {m n : ℕ} (v : FVec Ideal ⟨2, ![m + 1, n]⟩ .f32) (h : (⟨2, ![m + 1, n]⟩ : Shape).Reduces [0] ⟨1, ![n]⟩)
    (hc : (⟨1, ![n]⟩ : Shape).ShapeCasts ⟨2, ![1, n]⟩) (hφ : FKind.Formats .f32)
    (hacc : (0xFF800000#32 : BitVec 32) = FKind.maximumf.neutral .f32 hφ) (hbot : Ideal.ofBits .f32 0xFF800000#32 = ⊥)
    (f : Fin (m + 1) → ℝ) (b : Fin n) (hv : ∀ r : Fin (m + 1), v (ix2 r b) = ((f r : ℝ) : EReal)) :
    shapeCast ⟨2, ![1, n]⟩ (multiReduction .maximumf [0] ⟨1, ![n]⟩ v 0xFF800000#32 h hφ hacc) hc (ix2 (0 : Fin 1) b)
      = ((Finset.univ.sup' Finset.univ_nonempty f : ℝ) : EReal) := by
  refine (shapeCast_a_1a_apply _ hc (0 : Fin 1) b).trans ?_
  refine (Ideal.multiReduction_maximumf_single v 0xFF800000#32 h hφ hacc (ix1 b)).trans ?_
  have hfun : (v ∘ h.lift (ix1 b)) = fun k : Fin (m + 1) => ((f k : ℝ) : EReal) := funext fun k => by
    show v (h.lift (ix1 b) k) = _
    rw [lift_rows h b k]; exact hv k
  show (Finset.univ : Finset (Fin (m + 1))).fold max (Ideal.ofBits .f32 0xFF800000#32) (v ∘ h.lift (ix1 b)) = _
  rw [hfun, hbot]
  exact fold_max_coe _ _ f

/-- The negated smoothed distance from its three sums, computed in the extended reals on real data. -/
theorem negdist_coe (A Q P t e : ℝ) (he : 0 ≤ e) :
    ((0 : EReal) - Ideal.sqrt (max ((A : EReal) + (Q : EReal) - (t : EReal) * (P : EReal)) 0 + (e : EReal))) * 1
      = ((-Real.sqrt (max (Q + A - t * P) 0 + e) : ℝ) : EReal) := by
  rw [mul_one, ← EReal.coe_zero, ← EReal.coe_mul, ← EReal.coe_add, ← EReal.coe_sub, ← coe_max, ← EReal.coe_add,
    sqrt_coe_of_nonneg (add_nonneg (le_max_right _ _) he), ← EReal.coe_sub, zero_sub, add_comm A Q]

end General

/-! ## The product of the tile with the transposed queries -/

theorem lhs_dot_0 (i : S2000x1024.Idx) (p : dot_S2000x64_S64x1024_S2000x1024_1_0_0_1_n_n.contr.Idx) :
    (dot_S2000x64_S64x1024_S2000x1024_1_0_0_1_n_n.lhsIdx i p 0).val = (i 0).val := by
  unfold DotDims.lhsIdx
  rw [dif_neg (show ¬(0 : Fin S2000x64.rank) ∈ dot_S2000x64_S64x1024_S2000x1024_1_0_0_1_n_n.lhsBatch by decide),
    dif_pos (show (0 : Fin S2000x64.rank) ∈ dot_S2000x64_S64x1024_S2000x1024_1_0_0_1_n_n.lhsNonContracting by decide)]
  rfl
theorem lhs_dot_1 (i : S2000x1024.Idx) (p : dot_S2000x64_S64x1024_S2000x1024_1_0_0_1_n_n.contr.Idx) :
    (dot_S2000x64_S64x1024_S2000x1024_1_0_0_1_n_n.lhsIdx i p 1).val = (p ⟨0, by decide⟩).val :=
  dot_S2000x64_S64x1024_S2000x1024_1_0_0_1_n_n.lhsIdx_val_of_single rfl i p
theorem rhs_dot_0 (i : S2000x1024.Idx) (p : dot_S2000x64_S64x1024_S2000x1024_1_0_0_1_n_n.contr.Idx) :
    (dot_S2000x64_S64x1024_S2000x1024_1_0_0_1_n_n.rhsIdx i p 0).val = (p ⟨0, by decide⟩).val :=
  dot_S2000x64_S64x1024_S2000x1024_1_0_0_1_n_n.rhsIdx_val_of_single rfl i p
theorem rhs_dot_1 (i : S2000x1024.Idx) (p : dot_S2000x64_S64x1024_S2000x1024_1_0_0_1_n_n.contr.Idx) :
    (dot_S2000x64_S64x1024_S2000x1024_1_0_0_1_n_n.rhsIdx i p 1).val = (i 1).val := by
  unfold DotDims.rhsIdx
  rw [dif_neg (show ¬(1 : Fin S64x1024.rank) ∈ dot_S2000x64_S64x1024_S2000x1024_1_0_0_1_n_n.rhsBatch by decide),
    dif_pos (show (1 : Fin S64x1024.rank) ∈ dot_S2000x64_S64x1024_S2000x1024_1_0_0_1_n_n.rhsNonContracting by decide)]
  rfl

/-- The product of the tile with the transposed queries onto a zero accumulator: at `(r, b)` the inner product of
    row `r` of the tile with column `b` of the block. -/
theorem prod_apply (l : FVec Ideal S2000x64 .f32) (w : FVec Ideal S64x1024 .f32) (r : Fin 2000) (b : Fin 1024) :
    matmul dot_S2000x64_S64x1024_S2000x1024_1_0_0_1_n_n none l w (constant S2000x1024 .f32 0x00000000#32) (ix2 r b)
      = ∑ k : Fin 64, l (ix2 r k) * w (ix2 k b) := by
  simp only [matmul]
  rw [Ideal.matmul_constant_zero_apply, ← Equiv.sum_comp (contrEquiv1 dot_S2000x64_S64x1024_S2000x1024_1_0_0_1_n_n 64 rfl rfl).symm]
  refine Finset.sum_congr rfl fun k _ => ?_
  have hk := contrEquiv1_symm_val dot_S2000x64_S64x1024_S2000x1024_1_0_0_1_n_n 64 rfl rfl k
  have el : dot_S2000x64_S64x1024_S2000x1024_1_0_0_1_n_n.lhsIdx (ix2 r b) ((contrEquiv1 dot_S2000x64_S64x1024_S2000x1024_1_0_0_1_n_n 64 rfl rfl).symm k) = ix2 r k :=
    funext fun c => Fin.ext (by
      match c with
      | ⟨0, _⟩ => exact lhs_dot_0 _ _
      | ⟨1, _⟩ => exact (lhs_dot_1 _ _).trans hk)
  have er : dot_S2000x64_S64x1024_S2000x1024_1_0_0_1_n_n.rhsIdx (ix2 r b) ((contrEquiv1 dot_S2000x64_S64x1024_S2000x1024_1_0_0_1_n_n 64 rfl rfl).symm k) = ix2 k b :=
    funext fun c => Fin.ext (by
      match c with
      | ⟨0, _⟩ => exact (rhs_dot_0 _ _).trans hk
      | ⟨1, _⟩ => exact rhs_dot_1 _ _)
  rw [el, er]

/-! ## The five payloads at an index -/

variable (q : Fin 1024 → Fin 64 → ℝ) (a : Fin 2000 → Fin 64 → ℝ)
  (qt : Vec Ideal S64x1024 .f32) (x : Vec Ideal S2000x64 .f32)
  (hq : ∀ (k : Fin 64) (b : Fin 1024), qt (ix2 k b) = ((q b k : ℝ) : EReal))
  (hx : ∀ (r : Fin 2000) (k : Fin 64), x (ix2 r k) = ((a r k : ℝ) : EReal))

/-- The tile's negated distance of row `r` to query `b`. -/
def tnd (r : Fin 2000) (b : Fin 1024) : ℝ := negDist twoR epsR (q b) (a r)
/-- Its maximum over the tile's rows. -/
def ttop (b : Fin 1024) : ℝ := Finset.univ.sup' Finset.univ_nonempty (fun r : Fin 2000 => tnd q a r b)

include hq hx in
theorem negd_apply (r : Fin 2000) (b : Fin 1024) :
    k0_pay1 (F := Ideal) qt x (ix2 r b) = ((tnd q a r b : ℝ) : EReal) := by
  unfold k0_pay1
  simp only [shapeCast_self]
  simp only [mulf_apply, subf_apply, addf_apply, maximumf_apply, sqrt_apply, broadcast_apply,
    Cert.LibColumns.broadcastTo_a1_ab_apply, broadcastTo_1b_ab_apply, prod_apply, hx, hq]
  have hA := rowsum_apply (mulf x x) reduces_S2000x64_S2000 shapeCasts_S2000_S2000x1 (.inl rfl) rfl r
  have hQ := colsum_apply (mulf qt qt) reduces_S64x1024_S1024 shapeCasts_S1024_S1x1024 (.inl rfl) rfl b
  rw [hA, hQ]
  simp only [mulf_apply, hx, hq, ← EReal.coe_mul, coe_sum]
  have hb : ∀ w : BitVec 32, FloatOps.ofBits (F := Ideal) .f32 w = Ideal.ofBits .f32 w := fun _ => rfl
  simp only [hb, ofBits_zero, ofBits_two, ofBits_eps, ofBits_one]
  refine (negdist_coe _ _ _ _ _ epsR_nonneg).trans ?_
  have hP : ∑ k, a r k * q b k = ∑ k, q b k * a r k := Finset.sum_congr rfl fun k _ => mul_comm _ _
  rw [hP]
  rfl

include hq hx in
theorem tilemax_apply (b : Fin 1024) :
    k0_pay2 (F := Ideal) qt x (ix2 (0 : Fin 1) b) = ((ttop q a b : ℝ) : EReal) := by
  unfold k0_pay2
  exact colmax_apply (k0_pay1 (F := Ideal) qt x) reduces_S2000x1024_S1024 shapeCasts_S1024_S1x1024 (.inl rfl) rfl
    ofBits_neg_inf (fun r : Fin 2000 => tnd q a r b) b (fun r => negd_apply q a qt x hq hx r b)

include hq hx in
theorem tilesum_apply (b : Fin 1024) :
    k0_pay3 (F := Ideal) qt x (ix2 (0 : Fin 1) b) = ((∑ r : Fin 2000, Real.exp (tnd q a r b - ttop q a b) : ℝ) : EReal) := by
  unfold k0_pay3
  refine (colsum_apply _ reduces_S2000x1024_S1024 shapeCasts_S1024_S1x1024 (.inl rfl) rfl b).trans ?_
  rw [← coe_sum]
  refine Finset.sum_congr rfl fun r _ => ?_
  rw [exp_apply, subf_apply, broadcastTo_1b_ab_apply, negd_apply q a qt x hq hx r b, tilemax_apply q a qt x hq hx b,
    ← EReal.coe_sub, Ideal.exp_coe]

variable (mo zo : Fin 1024 → ℝ) (xm xz : Vec Ideal S1x1024 .f32)
  (hm : ∀ b : Fin 1024, xm (ix2 (0 : Fin 1) b) = ((mo b : ℝ) : EReal))
  (hz : ∀ b : Fin 1024, xz (ix2 (0 : Fin 1) b) = ((zo b : ℝ) : EReal))

include hq hx hm in
theorem mergedmax_apply (b : Fin 1024) :
    k0_pay5 (F := Ideal) qt x xm (ix2 (0 : Fin 1) b) = ((max (mo b) (ttop q a b) : ℝ) : EReal) := by
  unfold k0_pay5 k0_pay4
  rw [maximumf_apply, shapeCast_self, hm b, tilemax_apply q a qt x hq hx b, ← coe_max]

include hq hx hm hz in
theorem mergedsum_apply (b : Fin 1024) :
    k0_pay6 (F := Ideal) qt x xm xz (ix2 (0 : Fin 1) b)
      = ((zo b * Real.exp (mo b - max (mo b) (ttop q a b))
          + ∑ r : Fin 2000, Real.exp (tnd q a r b - max (mo b) (ttop q a b)) : ℝ) : EReal) := by
  unfold k0_pay6
  rw [addf_apply, mulf_apply, exp_apply, subf_apply, shapeCast_self,
    colsum_apply _ reduces_S2000x1024_S1024 shapeCasts_S1024_S1x1024 (.inl rfl) rfl b,
    mergedmax_apply q a qt x hq hx mo xm hm b, hz b, EReal.coe_add, EReal.coe_mul, ← coe_sum]
  refine congrArg₂ (· + ·) (congrArg₂ (· * ·) rfl ?_) ?_
  · unfold k0_pay4
    rw [shapeCast_self, hm b, ← EReal.coe_sub, Ideal.exp_coe]
  · refine Finset.sum_congr rfl fun r _ => ?_
    rw [exp_apply, subf_apply, broadcastTo_1b_ab_apply, negd_apply q a qt x hq hx r b,
      mergedmax_apply q a qt x hq hx mo xm hm b, ← EReal.coe_sub, Ideal.exp_coe]

end Cert.KernelIdeal.StatsTile

end
-- ==== Proof.Algebra.lean ====
/-
  The tile-by-tile accumulation is the whole-array softmax: after the last of the 50 tiles the running maximum is the
  maximum over all memory rows and the running, rescaled partition sum is the partition sum taken against it. The
  rescaling is exact over the reals: exp(x - m) · exp(m - m') = exp(x - m').
-/
import proofs.«144876_g70351564308696_cont_9to1_m_470_2_alg».proof.Proof.Spec

noncomputable section

open scoped BigOperators

namespace Cert.Softmin

/-! ## The 50 tiles of 2000 rows cover the 100000 rows, each once -/

/-- Every memory row `i` is row `i % 2000` of tile `i / 2000`, and that tile is one of the first 50. -/
private theorem exists_row (i : Fin 100000) : ∃ s, s ≤ 49 ∧ ∃ r : Fin 2000, row s r = i := by
  have hi := i.isLt
  refine ⟨i.val / 2000, by omega, ⟨i.val % 2000, Nat.mod_lt _ (by norm_num)⟩, ?_⟩
  apply Fin.ext
  simp only [row]
  omega

/-- A sum over all memory rows is the sum over the 50 tiles of the sums over each tile's 2000 rows:
    `(s, r) ↦ 2000 s + r` is a bijection of `Fin 50 × Fin 2000` with `Fin 100000`. -/
private theorem sum_rows (g : Fin 100000 → ℝ) :
    ∑ i, g i = ∑ s ∈ Finset.range 50, ∑ r : Fin 2000, g (row s r) := by
  let e : Fin 50 × Fin 2000 ≃ Fin 100000 := finProdFinEquiv.trans (finCongr (by norm_num))
  calc ∑ i, g i = ∑ p : Fin 50 × Fin 2000, g (e p) := (Equiv.sum_comp e g).symm
    _ = ∑ s : Fin 50, ∑ r : Fin 2000, g (e (s, r)) := Fintype.sum_prod_type _
    _ = ∑ s : Fin 50, ∑ r : Fin 2000, g (row s.val r) := by
        apply Finset.sum_congr rfl; intro s _
        apply Finset.sum_congr rfl; intro r _
        congr 1
        apply Fin.ext
        have hs := s.isLt
        have hr := r.isLt
        simp only [e, row, Equiv.trans_apply, finCongr_apply_coe, finProdFinEquiv_apply_val]
        omega
    _ = ∑ s ∈ Finset.range 50, ∑ r : Fin 2000, g (row s r) :=
        Fin.sum_univ_eq_sum_range (fun s => ∑ r : Fin 2000, g (row s r)) 50

variable (two eps : ℝ) (q : Fin 1024 → Fin 64 → ℝ) (A : Fin 100000 → Fin 64 → ℝ)

/-! ## The running maximum -/

/-- The running maximum after tile `t` bounds every row of the tiles `0 … t`. -/
private theorem le_runTop (b : Fin 1024) (t : ℕ) :
    ∀ s, s ≤ t → ∀ r : Fin 2000, nd two eps q A b (row s r) ≤ runTop two eps q A b t := by
  induction t with
  | zero =>
    intro s hs r
    obtain rfl : s = 0 := Nat.le_zero.mp hs
    rw [runTop]
    exact Finset.le_sup' (fun r : Fin 2000 => nd two eps q A b (row 0 r)) (Finset.mem_univ r)
  | succ t ih =>
    intro s hs r
    rw [runTop]
    rcases Nat.lt_or_ge s (t + 1) with h | h
    · exact le_max_of_le_left (ih s (Nat.lt_succ_iff.mp h) r)
    · obtain rfl : s = t + 1 := le_antisymm hs h
      exact le_max_of_le_right
        (Finset.le_sup' (fun r : Fin 2000 => nd two eps q A b (row (t + 1) r)) (Finset.mem_univ r))

/-- The running maximum after tile `t` is attained at a row of one of the tiles `0 … t`. -/
private theorem exists_eq_runTop (b : Fin 1024) (t : ℕ) :
    ∃ s, s ≤ t ∧ ∃ r : Fin 2000, nd two eps q A b (row s r) = runTop two eps q A b t := by
  induction t with
  | zero =>
    obtain ⟨r, -, hr⟩ := Finset.exists_mem_eq_sup' Finset.univ_nonempty
      (fun r : Fin 2000 => nd two eps q A b (row 0 r))
    refine ⟨0, le_rfl, r, ?_⟩
    rw [runTop]
    exact hr.symm
  | succ t ih =>
    obtain ⟨s, hs, r, hr⟩ := ih
    rw [runTop]
    rcases le_total (runTop two eps q A b t) (tileTop two eps q A (t + 1) b) with h | h
    · obtain ⟨r', -, hr'⟩ := Finset.exists_mem_eq_sup' Finset.univ_nonempty
        (fun r : Fin 2000 => nd two eps q A b (row (t + 1) r))
      refine ⟨t + 1, le_rfl, r', ?_⟩
      rw [max_eq_right h]
      exact hr'.symm
    · refine ⟨s, Nat.le_succ_of_le hs, r, ?_⟩
      rw [max_eq_left h]
      exact hr

/-- After the last tile the running maximum is the maximum over all rows. -/
theorem runTop_last (b : Fin 1024) : runTop two eps q A b 49 = top two eps q A b := by
  unfold top
  apply le_antisymm
  · obtain ⟨s, -, r, hr⟩ := exists_eq_runTop two eps q A b 49
    rw [← hr]
    exact Finset.le_sup' (nd two eps q A b) (Finset.mem_univ _)
  · apply Finset.sup'_le
    intro i _
    obtain ⟨s, hs, r, rfl⟩ := exists_row i
    exact le_runTop two eps q A b 49 s hs r

/-! ## The running partition sum -/

/-- The running partition sum after tile `t` is the sum over the rows of the tiles `0 … t` of
    `exp (nd - running maximum after t)`: when the maximum moves from `m` to `m'` every old term is multiplied
    by `exp (m - m')`, and `exp (x - m) · exp (m - m') = exp (x - m')`. -/
private theorem runMass_eq (b : Fin 1024) (t : ℕ) :
    runMass two eps q A b t
      = ∑ s ∈ Finset.range (t + 1), ∑ r : Fin 2000,
          Real.exp (nd two eps q A b (row s r) - runTop two eps q A b t) := by
  induction t with
  | zero =>
    rw [runMass, runTop, Finset.sum_range_one]
  | succ t ih =>
    rw [runMass, ih]
    conv_rhs => rw [Finset.sum_range_succ]
    congr 1
    rw [Finset.sum_mul]
    apply Finset.sum_congr rfl
    intro s _
    rw [Finset.sum_mul]
    apply Finset.sum_congr rfl
    intro r _
    rw [← Real.exp_add]
    congr 1
    ring

/-- After the last tile the running partition sum is the partition sum against the overall maximum. -/
theorem runMass_last (b : Fin 1024) : runMass two eps q A b 49 = mass two eps q A b := by
  rw [runMass_eq, runTop_last]
  unfold mass
  rw [sum_rows]

/-- A partition sum is positive. -/
theorem mass_pos (b : Fin 1024) : 0 < mass two eps q A b := by
  unfold mass
  exact Finset.sum_pos (fun i _ => Real.exp_pos _) Finset.univ_nonempty

end Cert.Softmin

end
-- ==== Proof.KI.StatsValue.lean ====
/-
  The statistics pass, part 5: the VALUE it leaves in its two result arrays, on real inputs. Each branch's one
  covering store leaves the body's arithmetic of the tile's blocks; the queries' block is the whole transposed query
  array and tile t's block of memory rows is rows 2000 t … 2000 t + 1999; so, by induction over the 50 tiles, the
  maxima's buffer holds the running maxima and the sums' buffer the running, rescaled partition sums; both are written
  back once, after the last tile, where the running maximum is the maximum over all memory rows and the running sum the
  partition sum taken against it.
-/
import proofs.«144876_g70351564308696_cont_9to1_m_470_2_alg».proof.Proof.KI.StatsData
import proofs.«144876_g70351564308696_cont_9to1_m_470_2_alg».proof.Proof.KI.StatsTile
import proofs.«144876_g70351564308696_cont_9to1_m_470_2_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Consts Cert.Softmin

/-! ## What each branch's one covering store leaves -/

section Pieces

variable {F : FTy → Type} [FloatOps F]

theorem zeros2 : (![0, 0] : Fin 2 → Nat) = fun _ => 0 := funext fun a => by fin_cases a <;> rfl

/-- At the first tile the maxima's buffer is left holding the tile's column maxima. -/
theorem maxFirst_eq (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) :
    maxFirst c i arg1 harg1 arg2 harg2 arg3 harg3 arg4 harg4 hc1 hc2 x0 x1 = k0_pay2 x0 x1 := by
  unfold maxFirst
  rw [View.read_writes_eq_canon _ _ _ (maxCoverFirst c i arg1 harg1 arg2 harg2 arg3 harg3 arg4 harg4 hc1 hc2 x0 x1)]
  unfold firstRun
  dsimp only
  sl_unfold_words
  rw [View.canon_unit_zero zeros2]
  simp only [View.readAt_eq_ld, harg1.read_unread, harg2.read_unread, View.ld_unit_zero (S := S64x1024) zeros2,
    View.ld_unit_zero (S := S2000x64) zeros2]

/-- At the first tile the sums' buffer is left holding the tile's column sums of exponentials. -/
theorem sumFirst_eq (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : k0_cond1 i = 1#1) (hc2 : ¬ k0_cond2 i = 1#1)
    (x0 : Vec F S64x1024 .f32) (x1 : Vec F S2000x64 .f32) :
    sumFirst c i arg1 harg1 arg2 harg2 arg3 harg3 arg4 harg4 hc1 hc2 x0 x1 = k0_pay3 x0 x1 := by
  unfold sumFirst
  rw [View.read_writes_eq_canon _ _ _ (sumCoverFirst c i arg1 harg1 arg2 harg2 arg3 harg3 arg4 harg4 hc1 hc2 x0 x1)]
  unfold firstRun
  dsimp only
  sl_unfold_words
  rw [View.canon_unit_zero zeros2]
  simp only [View.readAt_eq_ld, harg1.read_unread, harg2.read_unread, View.ld_unit_zero (S := S64x1024) zeros2,
    View.ld_unit_zero (S := S2000x64) zeros2]

/-- At a later tile the maxima's buffer is left holding the larger of the running and the tile's maxima. -/
theorem maxLater_eq (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) :
    maxLater c i arg1 harg1 arg2 harg2 arg3 harg3 arg4 harg4 hc1 hc2 x0 x1 xo2 xo3 = k0_pay5 x0 x1 xo2 := by
  unfold maxLater
  rw [View.read_writes_eq_canon _ _ _ (maxCoverLater c i arg1 harg1 arg2 harg2 arg3 harg3 arg4 harg4 hc1 hc2 x0 x1 xo2 xo3)]
  unfold laterRun
  dsimp only
  sl_unfold_words
  rw [View.canon_unit_zero zeros2]
  simp only [View.readAt_eq_ld, harg1.read_unread, harg2.read_unread, harg3.read_unread, harg4.read_unread,
    View.ld_unit_zero (S := S64x1024) zeros2, View.ld_unit_zero (S := S2000x64) zeros2, View.ld_unit_zero (S := S1x1024) zeros2]

/-- At a later tile the sums' buffer is left holding the rescaled running sums plus the tile's sums. -/
theorem sumLater_eq (c : Dev nD) (i : grid0.Coords) (arg1 : Memref sig .tc .vmem S64x1024 .f32) (harg1 : arg1.IsWhole) (arg2 : Memref sig .tc .vmem S2000x64 .f32) (harg2 : arg2.IsWhole) (arg3 : Memref sig .tc .vmem S1x1024 .f32) (harg3 : arg3.IsWhole) (arg4 : Memref sig .tc .vmem S1x1024 .f32) (harg4 : arg4.IsWhole) (hc1 : ¬ k0_cond1 i = 1#1) (hc2 : k0_cond2 i = 1#1)
    (x0 : Vec F S64x1024 .f32) (x1 : Vec F S2000x64 .f32) (xo2 : Vec F S1x1024 .f32) (xo3 : Vec F S1x1024 .f32) :
    sumLater c i arg1 harg1 arg2 harg2 arg3 harg3 arg4 harg4 hc1 hc2 x0 x1 xo2 xo3 = k0_pay6 x0 x1 xo2 xo3 := by
  unfold sumLater
  rw [View.read_writes_eq_canon _ _ _ (sumCoverLater c i arg1 harg1 arg2 harg2 arg3 harg3 arg4 harg4 hc1 hc2 x0 x1 xo2 xo3)]
  unfold laterRun
  dsimp only
  sl_unfold_words
  rw [View.canon_unit_zero zeros2]
  simp only [View.readAt_eq_ld, harg1.read_unread, harg2.read_unread, harg3.read_unread, harg4.read_unread,
    View.ld_unit_zero (S := S64x1024) zeros2, View.ld_unit_zero (S := S2000x64) zeros2, View.ld_unit_zero (S := S1x1024) zeros2]

end Pieces

/-! ## The two input windows' blocks, entry by entry -/

section Blocks

variable {F : FTy → Type} [FloatOps F]
variable (V : (c : Dev nD) → (b : Ref sig .tc) → Buf (Elt F) ((c : Thread nD τ).loc b))

/-- The transposed queries (64 × 1024) as the pass finds them. -/
abbrev qarr (c : Dev nD) : Vec F S64x1024 .f32 := V c main_call0_v0
/-- The memory rows (100000 × 64) as the pass finds them. -/
abbrev aarr (c : Dev nD) : Vec F S100000x64 .f32 := V c main_arg2
/-- The queries' block at tile `t`. -/
abbrev qblk (c : Dev nD) (t : Fin cfg0.N) : Vec F S64x1024 .f32 := sblk V c 0 t
/-- The memory rows' block at tile `t`. -/
abbrev ablk (c : Dev nD) (t : Fin cfg0.N) : Vec F S2000x64 .f32 := sblk V c 1 t

/-- The queries' window has one block, at block index (0, 0), at every tile. -/
theorem index_q : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- The memory rows' window is at block index (t, 0) at tile `t`. -/
theorem index_a : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The queries' block is the whole array: entry (k, b) of the block is entry (k, b) of the array. -/
theorem qblk_apply (c : Dev nD) (t : Fin cfg0.N) (k : Fin 64) (b : Fin 1024) :
    qblk V c t (ix2 k b) = qarr V c (ix2 k b) := by
  obtain ⟨e0, e1⟩ := index_q t
  show V c main_call0_v0 (((cfg0.win 0).blk t).view.emb (ix2 k b)) = V c main_call0_v0 (ix2 k b)
  refine congrArg (V c main_call0_v0) ?_
  funext a
  apply Fin.ext
  match a with
  | ⟨0, _⟩ => show win0_0.index t (0 : Fin 2) * 64 + 1 * k.val = k.val; rw [e0]; omega
  | ⟨1, _⟩ => show win0_0.index t (1 : Fin 2) * 1024 + 1 * b.val = b.val; rw [e1]; omega

/-- Tile `t`'s block of memory rows: entry (r, k) of the block is entry (2000 t + r, k) of the array, and
    2000 t + r < 100000 for the 50 tiles, so that row is `row t r`. -/
theorem ablk_apply (c : Dev nD) (t : Fin cfg0.N) (r : Fin 2000) (k : Fin 64) :
    ablk V c t (ix2 r k) = aarr V c (ix2 (row t.val r) k) := by
  obtain ⟨e0, e1⟩ := index_a t
  have hN : t.val < 50 := lt_of_lt_of_eq t.isLt (show cfg0.N = 50 from N_0)
  have hr := r.isLt
  show V c main_arg2 (((cfg0.win 1).blk t).view.emb (ix2 r k)) = V c main_arg2 (ix2 (row t.val r) k)
  refine congrArg (V c main_arg2) ?_
  funext a
  apply Fin.ext
  match a with
  | ⟨0, _⟩ =>
    show win0_1.index t (0 : Fin 2) * 2000 + 1 * r.val = (2000 * t.val + r.val) % 100000
    rw [e0, Nat.mod_eq_of_lt (by omega)]; omega
  | ⟨1, _⟩ => show win0_1.index t (1 : Fin 2) * 64 + 1 * k.val = k.val; rw [e1]; omega

/-! ## The outputs' buffers after a tile, as the body's arithmetic of the tile's blocks -/

theorem statsAt_first_max (c : Dev nD) (t : Fin cfg0.N) (h0 : t.val % 50 = 0) :
    (statsAt V c t.val t.isLt).1 = k0_pay2 (qblk V c t) (ablk V c t) := by
  rw [statsAt_first V c t h0]
  dsimp only
  exact maxFirst_eq c (grid0.coords t) (sm0 t) (sh0 t) (sm1 t) (sh1 t) (sm2 t) (sh2 t) (sm3 t) (sh3 t)
    (first_of_zero t h0) (not_later_of_zero t h0) (sblk V c 0 t) (sblk V c 1 t)

theorem statsAt_first_sum (c : Dev nD) (t : Fin cfg0.N) (h0 : t.val % 50 = 0) :
    (statsAt V c t.val t.isLt).2 = k0_pay3 (qblk V c t) (ablk V c t) := by
  rw [statsAt_first V c t h0]
  dsimp only
  exact sumFirst_eq c (grid0.coords t) (sm0 t) (sh0 t) (sm1 t) (sh1 t) (sm2 t) (sh2 t) (sm3 t) (sh3 t)
    (first_of_zero t h0) (not_later_of_zero t h0) (sblk V c 0 t) (sblk V c 1 t)

theorem statsAt_later_max (c : Dev nD) (t : Fin cfg0.N) (h0 : ¬ t.val % 50 = 0) :
    (statsAt V c t.val t.isLt).1
      = k0_pay5 (qblk V c t) (ablk V c t) (statsAt V c (t.val - 1) (Nat.lt_of_le_of_lt (Nat.sub_le _ _) t.isLt)).1 := by
  rw [statsAt_later V c t h0]
  dsimp only
  exact maxLater_eq c (grid0.coords t) (sm0 t) (sh0 t) (sm1 t) (sh1 t) (sm2 t) (sh2 t) (sm3 t) (sh3 t)
    (not_first_of_pos t h0) (later_of_pos t h0) (sblk V c 0 t) (sblk V c 1 t)
    (statsAt V c (t.val - 1) (Nat.lt_of_le_of_lt (Nat.sub_le _ _) t.isLt)).1
    (statsAt V c (t.val - 1) (Nat.lt_of_le_of_lt (Nat.sub_le _ _) t.isLt)).2

theorem statsAt_later_sum (c : Dev nD) (t : Fin cfg0.N) (h0 : ¬ t.val % 50 = 0) :
    (statsAt V c t.val t.isLt).2
      = k0_pay6 (qblk V c t) (ablk V c t) (statsAt V c (t.val - 1) (Nat.lt_of_le_of_lt (Nat.sub_le _ _) t.isLt)).1
          (statsAt V c (t.val - 1) (Nat.lt_of_le_of_lt (Nat.sub_le _ _) t.isLt)).2 := by
  rw [statsAt_later V c t h0]
  dsimp only
  exact sumLater_eq c (grid0.coords t) (sm0 t) (sh0 t) (sm1 t) (sh1 t) (sm2 t) (sh2 t) (sm3 t) (sh3 t)
    (not_first_of_pos t h0) (later_of_pos t h0) (sblk V c 0 t) (sblk V c 1 t)
    (statsAt V c (t.val - 1) (Nat.lt_of_le_of_lt (Nat.sub_le _ _) t.isLt)).1
    (statsAt V c (t.val - 1) (Nat.lt_of_le_of_lt (Nat.sub_le _ _) t.isLt)).2

end Blocks

/-! ## The invariant over the tiles, on real inputs -/

section Invariant

variable (V : (c : Dev nD) → (b : Ref sig .tc) → Buf (Elt Ideal) ((c : Thread nD τ).loc b))
  (q : Fin 1024 → Fin 64 → ℝ) (A : Fin 100000 → Fin 64 → ℝ) (c : Dev nD)
  (hqt : ∀ (k : Fin 64) (b : Fin 1024), (V c main_call0_v0 : S64x1024.Idx → EReal) (ix2 k b) = ((q b k : ℝ) : EReal))
  (hA : ∀ (i : Fin 100000) (k : Fin 64), (V c main_arg2 : S100000x64.Idx → EReal) (ix2 i k) = ((A i k : ℝ) : EReal))

/-- The memory rows of tile `n`. -/
abbrev tileRows (n : ℕ) : Fin 2000 → Fin 64 → ℝ := fun r => A (row n r)

include hqt in
/-- The queries' block holds the real queries, transposed. -/
theorem qblk_real (t : Fin cfg0.N) (k : Fin 64) (b : Fin 1024) :
    qblk (F := Ideal) V c t (ix2 k b) = ((q b k : ℝ) : EReal) :=
  (qblk_apply (F := Ideal) V c t k b).trans (hqt k b)

include hA in
/-- Tile `t`'s block holds the real memory rows of tile `t`. -/
theorem ablk_real (t : Fin cfg0.N) (r : Fin 2000) (k : Fin 64) :
    ablk (F := Ideal) V c t (ix2 r k) = ((tileRows A t.val r k : ℝ) : EReal) :=
  (ablk_apply (F := Ideal) V c t r k).trans (hA (row t.val r) k)

/-- A tile's negated distances and their maximum are the specification's, at the tile's rows. -/
theorem tnd_tile (n : ℕ) (r : Fin 2000) (b : Fin 1024) :
    StatsTile.tnd q (tileRows A n) r b = nd twoR epsR q A b (row n r) := rfl
theorem ttop_tile (n : ℕ) (b : Fin 1024) :
    StatsTile.ttop q (tileRows A n) b = tileTop twoR epsR q A n b := rfl

include hqt hA in
/-- THE INVARIANT: after tile `n` the maxima's buffer holds the running maxima and the sums' buffer the running,
    rescaled partition sums of the tiles `0 … n`. By induction on the tile: the first tile stores its own maxima and
    sums; a later tile merges its own into what the tile before left. -/
theorem statsAt_real (n : ℕ) (hn : n < cfg0.N) : ∀ b : Fin 1024,
    (statsAt V c n hn).1 (ix2 (0 : Fin 1) b) = ((runTop twoR epsR q A b n : ℝ) : EReal)
    ∧ (statsAt V c n hn).2 (ix2 (0 : Fin 1) b) = ((runMass twoR epsR q A b n : ℝ) : EReal) := by
  induction n with
  | zero =>
    intro b
    have e1 := statsAt_first_max (F := Ideal) V c ⟨0, hn⟩ (Nat.zero_mod _)
    have e2 := statsAt_first_sum (F := Ideal) V c ⟨0, hn⟩ (Nat.zero_mod _)
    refine ⟨(congrFun e1 (ix2 (0 : Fin 1) b)).trans ?_, (congrFun e2 (ix2 (0 : Fin 1) b)).trans ?_⟩
    · exact StatsTile.tilemax_apply q (tileRows A 0) (qblk (F := Ideal) V c ⟨0, hn⟩) (ablk (F := Ideal) V c ⟨0, hn⟩)
        (qblk_real V q c hqt ⟨0, hn⟩) (ablk_real V A c hA ⟨0, hn⟩) b
    · exact StatsTile.tilesum_apply q (tileRows A 0) (qblk (F := Ideal) V c ⟨0, hn⟩) (ablk (F := Ideal) V c ⟨0, hn⟩)
        (qblk_real V q c hqt ⟨0, hn⟩) (ablk_real V A c hA ⟨0, hn⟩) b
  | succ n ih =>
    intro b
    have h0 : ¬ (⟨n + 1, hn⟩ : Fin cfg0.N).val % 50 = 0 := succ_mod n hn
    have e1 := statsAt_later_max (F := Ideal) V c ⟨n + 1, hn⟩ h0
    have e2 := statsAt_later_sum (F := Ideal) V c ⟨n + 1, hn⟩ h0
    have hm : ∀ b : Fin 1024, (statsAt V c n (Nat.lt_of_succ_lt hn)).1 (ix2 (0 : Fin 1) b)
        = ((runTop twoR epsR q A b n : ℝ) : EReal) := fun b => (ih (Nat.lt_of_succ_lt hn) b).1
    have hz : ∀ b : Fin 1024, (statsAt V c n (Nat.lt_of_succ_lt hn)).2 (ix2 (0 : Fin 1) b)
        = ((runMass twoR epsR q A b n : ℝ) : EReal) := fun b => (ih (Nat.lt_of_succ_lt hn) b).2
    refine ⟨(congrFun e1 (ix2 (0 : Fin 1) b)).trans ?_, (congrFun e2 (ix2 (0 : Fin 1) b)).trans ?_⟩
    · exact StatsTile.mergedmax_apply q (tileRows A (n + 1)) (qblk (F := Ideal) V c ⟨n + 1, hn⟩) (ablk (F := Ideal) V c ⟨n + 1, hn⟩)
        (qblk_real V q c hqt ⟨n + 1, hn⟩) (ablk_real V A c hA ⟨n + 1, hn⟩)
        (fun b => runTop twoR epsR q A b n) (statsAt V c n (Nat.lt_of_succ_lt hn)).1 hm b
    · exact StatsTile.mergedsum_apply q (tileRows A (n + 1)) (qblk (F := Ideal) V c ⟨n + 1, hn⟩) (ablk (F := Ideal) V c ⟨n + 1, hn⟩)
        (qblk_real V q c hqt ⟨n + 1, hn⟩) (ablk_real V A c hA ⟨n + 1, hn⟩)
        (fun b => runTop twoR epsR q A b n) (fun b => runMass twoR epsR q A b n)
        (statsAt V c n (Nat.lt_of_succ_lt hn)).1 (statsAt V c n (Nat.lt_of_succ_lt hn)).2 hm hz b

end Invariant

/-! ## The two result arrays: written back once, after the last tile -/

section Final

variable {F : FTy → Type} [FloatOps F]
variable (V : (c : Dev nD) → (b : Ref sig .tc) → Buf (Elt F) ((c : Thread nD τ).loc b))

theorem last_lt : 49 < cfg0.N := lt_of_lt_of_eq (by decide) (show cfg0.N = 50 from N_0).symm

/-- The last tile. -/
abbrev tLast : Fin cfg0.N := ⟨49, last_lt⟩

/-- What the maxima's array ends holding: the maxima's buffer after the last tile. -/
abbrev maxArr (c : Dev nD) : Buf (Elt F) ((c : Thread nD τ).loc main_call0_v1_0) := (statsAt V c 49 last_lt).1
/-- What the sums' array ends holding: the sums' buffer after the last tile. -/
abbrev sumArr (c : Dev nD) : Buf (Elt F) ((c : Thread nD τ).loc main_call0_v1_1) := (statsAt V c 49 last_lt).2

/-- Each output's window has one block, at block index (0, 0), of the array's own size. -/
theorem index_max : ∀ (t : Fin cfg0.N) (a : Fin 2), win0_2.index t a = 0 :=
  (by decide +kernel : ∀ (t : Fin grid0.N) (a : Fin 2), win0_2.index t a = 0)
theorem index_sum : ∀ (t : Fin cfg0.N) (a : Fin 2), win0_3.index t a = 0 :=
  (by decide +kernel : ∀ (t : Fin grid0.N) (a : Fin 2), win0_3.index t a = 0)

/-- The one write-back of the maxima, at the last tile, writes the buffer's contents: block (0, 0) of the
    [1, 1024] array read through zero offsets is the array. -/
theorem flushed_max (c : Dev nD) (t : Fin cfg0.N) (hf : (cfg0.win 2).flush t = true) :
    (dat0 V c).flushed 2 t = ((cfg0.win 2).blk t).view.read (Elt F) (maxArr V c) := by
  have hN : cfg0.N = 50 := N_0
  have h49 : t.val = 49 := by have := (flush0_2 t).mp hf; have := t.isLt; omega
  obtain rfl : t = tLast := Fin.ext h49
  show (cfg0.win 2).cut (grid0.coords tLast) ((dat0 V c).after 2 tLast) = _
  rw [after0_2]
  have hz' : (fun a => win0_2.index tLast a * main_call0_v1_0.ty.shape.size a) = fun _ => 0 :=
    funext fun a => by rw [index_max tLast a, Nat.zero_mul]
  exact (Memref.read_access_unit_zero (Elt F) main_call0_v1_0 hz' (fun a => by rw [congrFun hz' a]; simp) (maxArr V c)).symm

/-- The same for the sums. -/
theorem flushed_sum (c : Dev nD) (t : Fin cfg0.N) (hf : (cfg0.win 3).flush t = true) :
    (dat0 V c).flushed 3 t = ((cfg0.win 3).blk t).view.read (Elt F) (sumArr V c) := by
  have hN : cfg0.N = 50 := N_0
  have h49 : t.val = 49 := by have := (flush0_3 t).mp hf; have := t.isLt; omega
  obtain rfl : t = tLast := Fin.ext h49
  show (cfg0.win 3).cut (grid0.coords tLast) ((dat0 V c).after 3 tLast) = _
  rw [after0_3]
  have hz' : (fun a => win0_3.index tLast a * main_call0_v1_1.ty.shape.size a) = fun _ => 0 :=
    funext fun a => by rw [index_sum tLast a, Nat.zero_mul]
  exact (Memref.read_access_unit_zero (Elt F) main_call0_v1_1 hz' (fun a => by rw [congrFun hz' a]; simp) (sumArr V c)).symm

/-- So the maxima's array ends holding the buffer's contents after the last tile: that tile's block covers it. -/
theorem final_max (c : Dev nD) : (dat0 V c).arrAt 2 cfg0.N = maxArr V c :=
  (dat0 V c).arrAt_eq_of_cover 2 (maxArr V c) (flushed_max V c) fun i =>
    ⟨tLast, (flush0_2 tLast).mpr rfl, by
      show i ∈ ((View.whole main_call0_v1_0).slice (win0_2.rect tLast)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [index_max tLast 0, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [index_max tLast 1, show win0_2.xsize (grid0.coords tLast) 1 = 1024 from by decide +kernel]; omega⟩

/-- And the sums' array likewise. -/
theorem final_sum (c : Dev nD) : (dat0 V c).arrAt 3 cfg0.N = sumArr V c :=
  (dat0 V c).arrAt_eq_of_cover 3 (sumArr V c) (flushed_sum V c) fun i =>
    ⟨tLast, (flush0_3 tLast).mpr rfl, by
      show i ∈ ((View.whole main_call0_v1_1).slice (win0_3.rect tLast)).set
      rw [View.set_slice_whole, Rect.mem_set_unit]
      intro a
      have h0 : (i 0 : Nat) < 1 := (i 0).isLt
      have h1 : (i 1 : Nat) < 1024 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [index_sum tLast 0, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [index_sum tLast 1, show win0_3.xsize (grid0.coords tLast) 1 = 1024 from by decide +kernel]; omega⟩

end Final

/-! ## The statistics pass computes the softmax's maxima and partition sums -/

section Result

variable (V : (c : Dev nD) → (b : Ref sig .tc) → Buf (Elt Ideal) ((c : Thread nD τ).loc b))
  (q : Fin 1024 → Fin 64 → ℝ) (A : Fin 100000 → Fin 64 → ℝ) (c : Dev nD)
  (hqt : ∀ (k : Fin 64) (b : Fin 1024), (V c main_call0_v0 : S64x1024.Idx → EReal) (ix2 k b) = ((q b k : ℝ) : EReal))
  (hA : ∀ (i : Fin 100000) (k : Fin 64), (V c main_arg2 : S100000x64.Idx → EReal) (ix2 i k) = ((A i k : ℝ) : EReal))

include hqt hA in
/-- The first result array holds, per query, the largest negated distance over all memory rows. -/
theorem stats_max (b : Fin 1024) :
    ((dat0 V c).arrAt 2 cfg0.N : S1x1024.Idx → EReal) (ix2 (0 : Fin 1) b)
      = ((Cert.Softmin.top Cert.Consts.twoR Cert.Consts.epsR q A b : ℝ) : EReal) := by
  rw [final_max (F := Ideal) V c, ← runTop_last]
  exact (statsAt_real V q A c hqt hA 49 last_lt b).1

include hqt hA in
/-- The second result array holds, per query, the partition sum against that maximum. -/
theorem stats_sum (b : Fin 1024) :
    ((dat0 V c).arrAt 3 cfg0.N : S1x1024.Idx → EReal) (ix2 (0 : Fin 1) b)
      = ((Cert.Softmin.mass Cert.Consts.twoR Cert.Consts.epsR q A b : ℝ) : EReal) := by
  rw [final_sum (F := Ideal) V c, ← runMass_last]
  exact (statsAt_real V q A c hqt hA 49 last_lt b).2

end Result

end Cert.KernelIdeal.Hand

end
-- ==== Proof.KI.UpdateTile.lean ====
/-
  The update pass at one tile, entry by entry over the reals: for real queries `q` with contents `qc`, a real tile `a`
  of 2000 memory rows with contents `mc`, and per-query maxima `mo` and nonzero partition sums `zo`: the tile's weights
  exp(negated distance − maximum) · (factor / sum), the rows' complements 1 − Σ_b weight, and the two stored pieces
  row · complement + weights · queries.
-/
import proofs.«144876_g70351564308696_cont_9to1_m_470_2_alg».proof.Proof.KI.StatsTile

noncomputable section

open scoped BigOperators

namespace Cert.KernelIdeal.UpdateTile

open Cert.KernelIdeal Cert.KernelIdeal.Gen Idealize.ShloMosaic Idealize.ShloMosaic.ValueIdx Cert.Consts Cert.Softmin
open Cert.KernelIdeal.StatsTile (tnd)

/-! ## Readings of single operations at an index -/

/-- The coercion of a finite sum of reals is the sum of the coercions. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A vector `[a]` cast to the one-column matrix `[a, 1]` reads, at `(i, u)`, the vector at `i`. -/
private theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- The exponential of a vector reads entry by entry. -/
private theorem exp_apply {s : Shape} (v : FVec Ideal s .f32) (i : s.Idx) : exp v i = Ideal.exp (v i) := rfl

/-- The sum over the 1024 columns of a [2000, 1024] matrix, read at row `r`. -/
private theorem rowsum_apply (src : FVec Ideal S2000x1024 .f32) (r : Fin 2000) :
    multiReduction .add [1] S2000 src 0x00000000#32 reduces_S2000x1024_S2000 (.inl rfl) rfl (ix1 r)
      = ∑ b : Fin 1024, src (ix2 r b) := by
  refine (Ideal.multiReduction_add_single src 0x00000000#32 reduces_S2000x1024_S2000 (.inl rfl) rfl (ix1 r)).trans ?_
  refine Finset.sum_congr rfl fun b _ => congrArg src (funext fun c => Fin.ext ?_)
  match c with
  | ⟨0, _⟩ => rfl
  | ⟨1, _⟩ => rfl

/-! ## The two products with the queries, read at an index -/

private theorem lhsA_0 (i : S2000x64.Idx) (c : dot_S2000x1024_S1024x64_S2000x64_1_0_0_1_n_n.contr.Idx) :
    (dot_S2000x1024_S1024x64_S2000x64_1_0_0_1_n_n.lhsIdx i c 0).val = (i 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
private theorem lhsA_1 (i : S2000x64.Idx) (c : dot_S2000x1024_S1024x64_S2000x64_1_0_0_1_n_n.contr.Idx) :
    (dot_S2000x1024_S1024x64_S2000x64_1_0_0_1_n_n.lhsIdx i c 1).val = (c ⟨0, by decide⟩).val :=
  dot_S2000x1024_S1024x64_S2000x64_1_0_0_1_n_n.lhsIdx_val_of_single rfl i c
private theorem rhsA_0 (i : S2000x64.Idx) (c : dot_S2000x1024_S1024x64_S2000x64_1_0_0_1_n_n.contr.Idx) :
    (dot_S2000x1024_S1024x64_S2000x64_1_0_0_1_n_n.rhsIdx i c 0).val = (c ⟨0, by decide⟩).val :=
  dot_S2000x1024_S1024x64_S2000x64_1_0_0_1_n_n.rhsIdx_val_of_single rfl i c
private theorem rhsA_1 (i : S2000x64.Idx) (c : dot_S2000x1024_S1024x64_S2000x64_1_0_0_1_n_n.contr.Idx) :
    (dot_S2000x1024_S1024x64_S2000x64_1_0_0_1_n_n.rhsIdx i c 1).val = (i 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- The product of a [2000, 1024] matrix with a [1024, 64] one onto the zero accumulator (the address columns), read at
    `(r, k)`: the sum over the 1024 shared coordinates of the entries' products. -/
private theorem matmulA_apply (W : FVec Ideal S2000x1024 .f32) (Q : FVec Ideal S1024x64 .f32) (r : Fin 2000) (k : Fin 64) :
    matmul dot_S2000x1024_S1024x64_S2000x64_1_0_0_1_n_n none W Q (constant (F := Ideal) S2000x64 .f32 0x00000000#32) (ix2 r k)
      = ∑ b : Fin 1024, W (ix2 r b) * Q (ix2 b k) := by
  simp only [matmul]
  rw [Ideal.matmul_constant_zero_apply, ← Equiv.sum_comp (contrEquiv1 dot_S2000x1024_S1024x64_S2000x64_1_0_0_1_n_n 1024 rfl rfl).symm]
  refine Finset.sum_congr rfl fun b _ => ?_
  have hb := contrEquiv1_symm_val dot_S2000x1024_S1024x64_S2000x64_1_0_0_1_n_n 1024 rfl rfl b
  have el : dot_S2000x1024_S1024x64_S2000x64_1_0_0_1_n_n.lhsIdx (ix2 r k) ((contrEquiv1 dot_S2000x1024_S1024x64_S2000x64_1_0_0_1_n_n 1024 rfl rfl).symm b) = ix2 r b := funext fun a => Fin.ext (by
    match a with
    | ⟨0, _⟩ => exact lhsA_0 _ _
    | ⟨1, _⟩ => exact (lhsA_1 _ _).trans hb)
  have er : dot_S2000x1024_S1024x64_S2000x64_1_0_0_1_n_n.rhsIdx (ix2 r k) ((contrEquiv1 dot_S2000x1024_S1024x64_S2000x64_1_0_0_1_n_n 1024 rfl rfl).symm b) = ix2 b k := funext fun a => Fin.ext (by
    match a with
    | ⟨0, _⟩ => exact (rhsA_0 _ _).trans hb
    | ⟨1, _⟩ => exact rhsA_1 _ _)
  rw [el, er]

private theorem lhsC_0 (i : S2000x10.Idx) (c : dot_S2000x1024_S1024x10_S2000x10_1_0_0_1_n_n.contr.Idx) :
    (dot_S2000x1024_S1024x10_S2000x10_1_0_0_1_n_n.lhsIdx i c 0).val = (i 0).val := by
  unfold DotDims.lhsIdx
  rw [dif_neg (show ¬(0 : Fin S2000x1024.rank) ∈ dot_S2000x1024_S1024x10_S2000x10_1_0_0_1_n_n.lhsBatch by decide), dif_pos (show (0 : Fin S2000x1024.rank) ∈ dot_S2000x1024_S1024x10_S2000x10_1_0_0_1_n_n.lhsNonContracting by decide)]
  rfl
private theorem lhsC_1 (i : S2000x10.Idx) (c : dot_S2000x1024_S1024x10_S2000x10_1_0_0_1_n_n.contr.Idx) :
    (dot_S2000x1024_S1024x10_S2000x10_1_0_0_1_n_n.lhsIdx i c 1).val = (c ⟨0, by decide⟩).val :=
  dot_S2000x1024_S1024x10_S2000x10_1_0_0_1_n_n.lhsIdx_val_of_single rfl i c
private theorem rhsC_0 (i : S2000x10.Idx) (c : dot_S2000x1024_S1024x10_S2000x10_1_0_0_1_n_n.contr.Idx) :
    (dot_S2000x1024_S1024x10_S2000x10_1_0_0_1_n_n.rhsIdx i c 0).val = (c ⟨0, by decide⟩).val :=
  dot_S2000x1024_S1024x10_S2000x10_1_0_0_1_n_n.rhsIdx_val_of_single rfl i c
private theorem rhsC_1 (i : S2000x10.Idx) (c : dot_S2000x1024_S1024x10_S2000x10_1_0_0_1_n_n.contr.Idx) :
    (dot_S2000x1024_S1024x10_S2000x10_1_0_0_1_n_n.rhsIdx i c 1).val = (i 1).val := by
  unfold DotDims.rhsIdx
  rw [dif_neg (show ¬(1 : Fin S1024x10.rank) ∈ dot_S2000x1024_S1024x10_S2000x10_1_0_0_1_n_n.rhsBatch by decide), dif_pos (show (1 : Fin S1024x10.rank) ∈ dot_S2000x1024_S1024x10_S2000x10_1_0_0_1_n_n.rhsNonContracting by decide)]
  rfl

/-- The product of a [2000, 1024] matrix with a [1024, 10] one onto the zero accumulator (the content columns), read at
    `(r, k)`: the sum over the 1024 shared coordinates of the entries' products. -/
private theorem matmulC_apply (W : FVec Ideal S2000x1024 .f32) (Q : FVec Ideal S1024x10 .f32) (r : Fin 2000) (k : Fin 10) :
    matmul dot_S2000x1024_S1024x10_S2000x10_1_0_0_1_n_n none W Q (constant (F := Ideal) S2000x10 .f32 0x00000000#32) (ix2 r k)
      = ∑ b : Fin 1024, W (ix2 r b) * Q (ix2 b k) := by
  simp only [matmul]
  rw [Ideal.matmul_constant_zero_apply, ← Equiv.sum_comp (contrEquiv1 dot_S2000x1024_S1024x10_S2000x10_1_0_0_1_n_n 1024 rfl rfl).symm]
  refine Finset.sum_congr rfl fun b _ => ?_
  have hb := contrEquiv1_symm_val dot_S2000x1024_S1024x10_S2000x10_1_0_0_1_n_n 1024 rfl rfl b
  have el : dot_S2000x1024_S1024x10_S2000x10_1_0_0_1_n_n.lhsIdx (ix2 r k) ((contrEquiv1 dot_S2000x1024_S1024x10_S2000x10_1_0_0_1_n_n 1024 rfl rfl).symm b) = ix2 r b := funext fun a => Fin.ext (by
    match a with
    | ⟨0, _⟩ => exact lhsC_0 _ _
    | ⟨1, _⟩ => exact (lhsC_1 _ _).trans hb)
  have er : dot_S2000x1024_S1024x10_S2000x10_1_0_0_1_n_n.rhsIdx (ix2 r k) ((contrEquiv1 dot_S2000x1024_S1024x10_S2000x10_1_0_0_1_n_n 1024 rfl rfl).symm b) = ix2 b k := funext fun a => Fin.ext (by
    match a with
    | ⟨0, _⟩ => exact (rhsC_0 _ _).trans hb
    | ⟨1, _⟩ => exact rhsC_1 _ _)
  rw [el, er]

variable (q : Fin 1024 → Fin 64 → ℝ) (a : Fin 2000 → Fin 64 → ℝ)
  (qt : Vec Ideal S64x1024 .f32) (x : Vec Ideal S2000x64 .f32)
  (hq : ∀ (k : Fin 64) (b : Fin 1024), qt (ix2 k b) = ((q b k : ℝ) : EReal))
  (hx : ∀ (r : Fin 2000) (k : Fin 64), x (ix2 r k) = ((a r k : ℝ) : EReal))
  (qc : Fin 1024 → Fin 10 → ℝ) (mc : Fin 2000 → Fin 10 → ℝ) (mo zo : Fin 1024 → ℝ)
  (Q : Vec Ideal S1024x64 .f32) (Qc : Vec Ideal S1024x10 .f32) (xm xz : Vec Ideal S1x1024 .f32) (xc : Vec Ideal S2000x10 .f32)
  (hQ : ∀ (b : Fin 1024) (k : Fin 64), Q (ix2 b k) = ((q b k : ℝ) : EReal))
  (hQc : ∀ (b : Fin 1024) (j : Fin 10), Qc (ix2 b j) = ((qc b j : ℝ) : EReal))
  (hxc : ∀ (r : Fin 2000) (j : Fin 10), xc (ix2 r j) = ((mc r j : ℝ) : EReal))
  (hm : ∀ b : Fin 1024, xm (ix2 (0 : Fin 1) b) = ((mo b : ℝ) : EReal))
  (hz : ∀ b : Fin 1024, xz (ix2 (0 : Fin 1) b) = ((zo b : ℝ) : EReal))
  (hz0 : ∀ b : Fin 1024, zo b ≠ 0)

/-- The weight of tile row `r` for query `b`. -/
def tw (r : Fin 2000) (b : Fin 1024) : ℝ := Real.exp (tnd q a r b - mo b) * (emaR / zo b)
/-- The total weight on tile row `r`. -/
def tws (r : Fin 2000) : ℝ := ∑ b : Fin 1024, tw q a mo zo r b

/-! ## The four payloads as single operations on named operands -/

/-- The weights' payload builds the tile of negated distances by the statistics pass's own operations, word for
    word; then it subtracts the broadcast maxima, exponentiates, and multiplies by the broadcast quotients. -/
private theorem pay3_eq :
    k1_pay3 (F := Ideal) qt x xm xz
      = mulf (exp (subf (k0_pay1 (F := Ideal) qt x)
            (broadcastTo S2000x1024 (shapeCast S1x1024 xm shapeCasts_S1x1024_S1x1024) broadcasts_S1x1024_S2000x1024)))
          (broadcastTo S2000x1024
            (divf (broadcast S1x1024 (Scalar.ofBits (F := Ideal) .f32 0x3A8301AA#32))
              (shapeCast S1x1024 xz shapeCasts_S1x1024_S1x1024))
            broadcasts_S1x1024_S2000x1024) := rfl

/-- The complements' payload: one minus the column of row sums of the weights. -/
private theorem pay4_eq :
    k1_pay4 (F := Ideal) qt x xm xz
      = subf (broadcast S2000x1 (Scalar.ofBits (F := Ideal) .f32 0x3F800000#32))
          (shapeCast S2000x1
            (multiReduction .add [1] S2000 (k1_pay3 (F := Ideal) qt x xm xz) 0x00000000#32 reduces_S2000x1024_S2000 (.inl rfl) rfl)
            shapeCasts_S2000_S2000x1) := rfl

/-- The address piece: the tile times the broadcast complements, plus the weights times the queries. -/
private theorem pay1_eq (w : FVec Ideal S2000x1024 .f32) (c : FVec Ideal S2000x1 .f32) :
    k1_pay1 (F := Ideal) x w c Q
      = addf (mulf x (broadcastTo S2000x64 c broadcasts_S2000x1_S2000x64))
          (matmul (φ₁ := .f32) (φ₂ := .f32) dot_S2000x1024_S1024x64_S2000x64_1_0_0_1_n_n none w Q (constant (F := Ideal) S2000x64 .f32 0x00000000#32)) := rfl

/-- The content piece: the tile's contents times the broadcast complements, plus the weights times the queries' contents. -/
private theorem pay2_eq (w : FVec Ideal S2000x1024 .f32) (c : FVec Ideal S2000x1 .f32) :
    k1_pay2 (F := Ideal) w c xc Qc
      = addf (mulf xc (broadcastTo S2000x10 c broadcasts_S2000x1_S2000x10))
          (matmul (φ₁ := .f32) (φ₂ := .f32) dot_S2000x1024_S1024x10_S2000x10_1_0_0_1_n_n none w Qc (constant (F := Ideal) S2000x10 .f32 0x00000000#32)) := rfl

/-! ## The payloads at an index -/

include hq hx hm hz hz0 in
theorem weight_apply (r : Fin 2000) (b : Fin 1024) :
    k1_pay3 (F := Ideal) qt x xm xz (ix2 r b) = ((tw q a mo zo r b : ℝ) : EReal) := by
  rw [pay3_eq, mulf_apply, exp_apply, subf_apply, StatsTile.negd_apply q a qt x hq hx r b,
    broadcastTo_1b_ab_apply, broadcastTo_1b_ab_apply, divf_apply, broadcast_apply, shapeCast_self, shapeCast_self,
    hm b, hz b]
  show Ideal.exp (_ - _) * Ideal.div (Ideal.ofBits .f32 0x3A8301AA#32) _ = _
  rw [ofBits_ema, Ideal.div_coe (hz0 b), ← EReal.coe_sub, Ideal.exp_coe, ← EReal.coe_mul, ← EReal.coe_mul, mul_one_div]
  rfl

include hq hx hm hz hz0 in
theorem complement_apply (r : Fin 2000) :
    k1_pay4 (F := Ideal) qt x xm xz (ix2 r (0 : Fin 1)) = ((1 - tws q a mo zo r : ℝ) : EReal) := by
  rw [pay4_eq, subf_apply, broadcast_apply, shapeCast_a_a1_apply, rowsum_apply,
    Finset.sum_congr rfl fun b _ => weight_apply q a qt x hq hx mo zo xm xz hm hz hz0 r b, ← coe_sum]
  show Ideal.ofBits .f32 0x3F800000#32 - _ = _
  rw [ofBits_one, ← EReal.coe_one, ← EReal.coe_sub]
  rfl

include hq hx hm hz hz0 hQ in
theorem address_apply (r : Fin 2000) (k : Fin 64) :
    k1_pay1 (F := Ideal) x (k1_pay3 (F := Ideal) qt x xm xz) (k1_pay4 (F := Ideal) qt x xm xz) Q (ix2 r k)
      = ((a r k * (1 - tws q a mo zo r) + ∑ b : Fin 1024, tw q a mo zo r b * q b k : ℝ) : EReal) := by
  rw [pay1_eq, addf_apply, mulf_apply, Cert.LibColumns.broadcastTo_a1_ab_apply, matmulA_apply,
    complement_apply q a qt x hq hx mo zo xm xz hm hz hz0 r, hx r k,
    Finset.sum_congr rfl fun b _ => by
      rw [weight_apply q a qt x hq hx mo zo xm xz hm hz hz0 r b, hQ b k, ← EReal.coe_mul],
    ← coe_sum, ← EReal.coe_mul, ← EReal.coe_add]

include hq hx hm hz hz0 hQc hxc in
theorem content_apply (r : Fin 2000) (j : Fin 10) :
    k1_pay2 (F := Ideal) (k1_pay3 (F := Ideal) qt x xm xz) (k1_pay4 (F := Ideal) qt x xm xz) xc Qc (ix2 r j)
      = ((mc r j * (1 - tws q a mo zo r) + ∑ b : Fin 1024, tw q a mo zo r b * qc b j : ℝ) : EReal) := by
  rw [pay2_eq, addf_apply, mulf_apply, Cert.LibColumns.broadcastTo_a1_ab_apply, matmulC_apply,
    complement_apply q a qt x hq hx mo zo xm xz hm hz hz0 r, hxc r j,
    Finset.sum_congr rfl fun b _ => by
      rw [weight_apply q a qt x hq hx mo zo xm xz hm hz hz0 r b, hQc b j, ← EReal.coe_mul],
    ← coe_sum, ← EReal.coe_mul, ← EReal.coe_add]

end Cert.KernelIdeal.UpdateTile

end
-- ==== Proof.KI.UpdateValue.lean ====
/-
  The update pass as a value: after its 50 tiles the result array [100000, 74] holds, on real inputs, the
  mathematics' result `Cert.Softmin.out` at every index. Tile `t` stores into rows 2000 t … 2000 t + 1999 the two
  pieces row · (1 − Σ_b w) + Σ_b w · query (address columns 0 … 63, content columns 64 … 73), with w the tile's
  weights exp(negated distance − maximum) · (factor / sum) taken against the overall maxima and partition sums the
  statistics pass left; over the reals these are the softmax weights of the whole memory, so each stored entry is the
  updated address or content entry. The tiles' blocks cover the result array and each is written back, so the array
  ends holding that function of the index.
-/
import proofs.«144876_g70351564308696_cont_9to1_m_470_2_alg».proof.Proof.KI.UpdateData
import proofs.«144876_g70351564308696_cont_9to1_m_470_2_alg».proof.Proof.KI.UpdateTile
import proofs.«144876_g70351564308696_cont_9to1_m_470_2_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Consts Cert.Softmin

/-! ## Where each window's block sits in its array -/

/-- The block indices, decided once over the 50 tiles: the queries, their contents and the two statistics are single
    blocks at index (0, 0); the memory, its contents and the result move by whole tiles down the rows. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The transposed queries' one block is their array. -/
theorem ublk0_apply (c : Dev nD) (t : Fin cfg1.N) (k : Fin 64) (b : Fin 1024) :
    (ublk V c 0 t : S64x1024.Idx → EReal) (ix2 k b) = (V c main_call0_v0 : S64x1024.Idx → EReal) (ix2 k b) := by
  obtain ⟨z00, z01, z10, z11, z20, z21, z30, z31, z40, z41, -⟩ := idx_facts1 t
  unfold ublk
  rw [View.read_apply]
  show V c main_call0_v0 (((cfg1.win 0).blk t).view.emb (ix2 k b)) = V c main_call0_v0 (ix2 k b)
  congr 1
  funext a
  apply Fin.ext
  match a with
  | ⟨0, _⟩ => show win1_0.index t (0 : Fin 2) * 64 + 1 * k.val = k.val; omega
  | ⟨1, _⟩ => show win1_0.index t (1 : Fin 2) * 1024 + 1 * b.val = b.val; omega

/-- The queries' one block is their array. -/
theorem ublk1_apply (c : Dev nD) (t : Fin cfg1.N) (b : Fin 1024) (k : Fin 64) :
    (ublk V c 1 t : S1024x64.Idx → EReal) (ix2 b k) = (V c main_arg0 : S1024x64.Idx → EReal) (ix2 b k) := by
  obtain ⟨z00, z01, z10, z11, z20, z21, z30, z31, z40, z41, -⟩ := idx_facts1 t
  unfold ublk
  rw [View.read_apply]
  show V c main_arg0 (((cfg1.win 1).blk t).view.emb (ix2 b k)) = V c main_arg0 (ix2 b k)
  congr 1
  funext a
  apply Fin.ext
  match a with
  | ⟨0, _⟩ => show win1_1.index t (0 : Fin 2) * 1024 + 1 * b.val = b.val; omega
  | ⟨1, _⟩ => show win1_1.index t (1 : Fin 2) * 64 + 1 * k.val = k.val; omega

/-- The queries' contents' one block is their array. -/
theorem ublk2_apply (c : Dev nD) (t : Fin cfg1.N) (b : Fin 1024) (j : Fin 10) :
    (ublk V c 2 t : S1024x10.Idx → EReal) (ix2 b j) = (V c main_arg1 : S1024x10.Idx → EReal) (ix2 b j) := by
  obtain ⟨z00, z01, z10, z11, z20, z21, z30, z31, z40, z41, -⟩ := idx_facts1 t
  unfold ublk
  rw [View.read_apply]
  show V c main_arg1 (((cfg1.win 2).blk t).view.emb (ix2 b j)) = V c main_arg1 (ix2 b j)
  congr 1
  funext a
  apply Fin.ext
  match a with
  | ⟨0, _⟩ => show win1_2.index t (0 : Fin 2) * 1024 + 1 * b.val = b.val; omega
  | ⟨1, _⟩ => show win1_2.index t (1 : Fin 2) * 10 + 1 * j.val = j.val; omega

/-- The maxima's one block is their array. -/
theorem ublk3_apply (c : Dev nD) (t : Fin cfg1.N) (u : Fin 1) (b : Fin 1024) :
    (ublk V c 3 t : S1x1024.Idx → EReal) (ix2 u b) = (V c main_call0_v1_0 : S1x1024.Idx → EReal) (ix2 u b) := by
  obtain ⟨z00, z01, z10, z11, z20, z21, z30, z31, z40, z41, -⟩ := idx_facts1 t
  unfold ublk
  rw [View.read_apply]
  show V c main_call0_v1_0 (((cfg1.win 3).blk t).view.emb (ix2 u b)) = V c main_call0_v1_0 (ix2 u b)
  congr 1
  funext a
  apply Fin.ext
  match a with
  | ⟨0, _⟩ => show win1_3.index t (0 : Fin 2) * 1 + 1 * u.val = u.val; omega
  | ⟨1, _⟩ => show win1_3.index t (1 : Fin 2) * 1024 + 1 * b.val = b.val; omega

/-- The partition sums' one block is their array. -/
theorem ublk4_apply (c : Dev nD) (t : Fin cfg1.N) (u : Fin 1) (b : Fin 1024) :
    (ublk V c 4 t : S1x1024.Idx → EReal) (ix2 u b) = (V c main_call0_v1_1 : S1x1024.Idx → EReal) (ix2 u b) := by
  obtain ⟨z00, z01, z10, z11, z20, z21, z30, z31, z40, z41, -⟩ := idx_facts1 t
  unfold ublk
  rw [View.read_apply]
  show V c main_call0_v1_1 (((cfg1.win 4).blk t).view.emb (ix2 u b)) = V c main_call0_v1_1 (ix2 u b)
  congr 1
  funext a
  apply Fin.ext
  match a with
  | ⟨0, _⟩ => show win1_4.index t (0 : Fin 2) * 1 + 1 * u.val = u.val; omega
  | ⟨1, _⟩ => show win1_4.index t (1 : Fin 2) * 1024 + 1 * b.val = b.val; omega

/-- Row `r` of the memory's block at tile `t` is row `2000 t + r` of the memory. -/
theorem ublk5_apply (c : Dev nD) (t : Fin cfg1.N) (r : Fin 2000) (k : Fin 64) :
    (ublk V c 5 t : S2000x64.Idx → EReal) (ix2 r k) = (V c main_arg2 : S100000x64.Idx → EReal) (ix2 (row t.val r) k) := by
  have hN : t.val < 50 := lt_of_lt_of_eq t.isLt (show cfg1.N = 50 from N_1)
  have hr : r.val < 2000 := r.isLt
  obtain ⟨-, -, -, -, -, -, -, -, -, -, t50, t51, t60, t61, -⟩ := idx_facts1 t
  unfold ublk
  rw [View.read_apply]
  show V c main_arg2 (((cfg1.win 5).blk t).view.emb (ix2 r k)) = V c main_arg2 (ix2 (row t.val r) k)
  congr 1
  funext a
  apply Fin.ext
  match a with
  | ⟨0, _⟩ =>
    show win1_5.index t (0 : Fin 2) * 2000 + 1 * r.val = (2000 * t.val + r.val) % 100000
    rw [Nat.mod_eq_of_lt (by omega)]; omega
  | ⟨1, _⟩ => show win1_5.index t (1 : Fin 2) * 64 + 1 * k.val = k.val; omega

/-- Row `r` of the contents' block at tile `t` is row `2000 t + r` of the contents. -/
theorem ublk6_apply (c : Dev nD) (t : Fin cfg1.N) (r : Fin 2000) (j : Fin 10) :
    (ublk V c 6 t : S2000x10.Idx → EReal) (ix2 r j) = (V c main_arg3 : S100000x10.Idx → EReal) (ix2 (row t.val r) j) := by
  have hN : t.val < 50 := lt_of_lt_of_eq t.isLt (show cfg1.N = 50 from N_1)
  have hr : r.val < 2000 := r.isLt
  obtain ⟨-, -, -, -, -, -, -, -, -, -, t50, t51, t60, t61, -⟩ := idx_facts1 t
  unfold ublk
  rw [View.read_apply]
  show V c main_arg3 (((cfg1.win 6).blk t).view.emb (ix2 r j)) = V c main_arg3 (ix2 (row t.val r) j)
  congr 1
  funext a
  apply Fin.ext
  match a with
  | ⟨0, _⟩ =>
    show win1_6.index t (0 : Fin 2) * 2000 + 1 * r.val = (2000 * t.val + r.val) % 100000
    rw [Nat.mod_eq_of_lt (by omega)]; omega
  | ⟨1, _⟩ => show win1_6.index t (1 : Fin 2) * 10 + 1 * j.val = j.val; omega

/-- An entry of the result's block at tile `t` sits in the result at row `2000 t + r`, same column. -/
theorem emb7 (t : Fin cfg1.N) (r : Fin 2000) (k : Fin 74) :
    (((cfg1.win 7).blk t).view.emb (ix2 r k) : S100000x74.Idx) = ix2 (row t.val r) k := by
  have hN : t.val < 50 := lt_of_lt_of_eq t.isLt (show cfg1.N = 50 from N_1)
  have hr : r.val < 2000 := r.isLt
  obtain ⟨-, -, -, -, -, -, -, -, -, -, -, -, -, -, t70, t71⟩ := idx_facts1 t
  funext a
  apply Fin.ext
  match a with
  | ⟨0, _⟩ =>
    show win1_7.index t (0 : Fin 2) * 2000 + 1 * r.val = (2000 * t.val + r.val) % 100000
    rw [Nat.mod_eq_of_lt (by omega)]; omega
  | ⟨1, _⟩ => show win1_7.index t (1 : Fin 2) * 74 + 1 * k.val = k.val; omega

/-- An index of the result is in tile `t`'s block iff each coordinate is in the block's range on its axis. -/
theorem mem_blk7 (t : Fin cfg1.N) (i : S100000x74.Idx) :
    i ∈ ((cfg1.win 7).blk t).view.set ↔ ∀ a : Fin 2, win1_7.index t a * S2000x74.size a ≤ (i a).val ∧ (i a).val < win1_7.index t a * S2000x74.size a + S2000x74.size a := by
  show i ∈ ((View.whole main_v0).slice (win1_7.rect t)).set ↔ _
  rw [View.set_slice_whole, Rect.mem_set_unit]
  exact Iff.rfl

/-- Every index of the result lies in the block of the tile its row falls in, and every tile writes its block back. -/
theorem covered7 (i : S100000x74.Idx) :
    ∃ t : Fin cfg1.N, (cfg1.win 7).flush t = true ∧ i ∈ ((cfg1.win 7).blk t).view.set := by
  have hi0 : (i 0).val < 100000 := (i 0).isLt
  have hi1 : (i 1).val < 74 := (i 1).isLt
  have hN : cfg1.N = 50 := N_1
  have hlt : (i 0).val / 2000 < cfg1.N := by rw [hN]; omega
  obtain ⟨-, -, -, -, -, -, -, -, -, -, -, -, -, -, t70, t71⟩ := idx_facts1 ⟨(i 0).val / 2000, hlt⟩
  refine ⟨⟨(i 0).val / 2000, hlt⟩, flush1_7 _, ?_⟩
  rw [mem_blk7]
  intro a
  match a with
  | ⟨0, _⟩ =>
    show win1_7.index ⟨(i 0).val / 2000, hlt⟩ (0 : Fin 2) * 2000 ≤ (i 0).val
      ∧ (i 0).val < win1_7.index ⟨(i 0).val / 2000, hlt⟩ (0 : Fin 2) * 2000 + 2000
    rw [t70]
    show (i 0).val / 2000 * 2000 ≤ (i 0).val ∧ (i 0).val < (i 0).val / 2000 * 2000 + 2000
    omega
  | ⟨1, _⟩ =>
    show win1_7.index ⟨(i 0).val / 2000, hlt⟩ (1 : Fin 2) * 74 ≤ (i 1).val
      ∧ (i 1).val < win1_7.index ⟨(i 0).val / 2000, hlt⟩ (1 : Fin 2) * 74 + 74
    rw [t71]
    omega

/-! ## From the tile's form to the whole array's, over the reals -/

section Reals

variable (q : Fin 1024 → Fin 64 → ℝ) (qc : Fin 1024 → Fin 10 → ℝ) (A : Fin 100000 → Fin 64 → ℝ) (Mc : Fin 100000 → Fin 10 → ℝ)

/-- The memory rows of tile `t`. -/
abbrev tileA (t : ℕ) : Fin 2000 → Fin 64 → ℝ := fun r => A (row t r)
/-- Their contents. -/
abbrev tileMc (t : ℕ) : Fin 2000 → Fin 10 → ℝ := fun r => Mc (row t r)

/-- The tile's weight, taken against the overall maxima and partition sums, is the weight of the whole softmax:
    exp(x) · (ema / Z) = exp(x) / Z · ema. -/
theorem tw_eq_wt (t : ℕ) (r : Fin 2000) (b : Fin 1024) :
    UpdateTile.tw q (tileA A t) (top twoR epsR q A) (mass twoR epsR q A) r b = wt twoR epsR emaR q A b (row t r) := by
  show Real.exp (nd twoR epsR q A b (row t r) - top twoR epsR q A b) * (emaR / mass twoR epsR q A b)
    = Real.exp (nd twoR epsR q A b (row t r) - top twoR epsR q A b) / mass twoR epsR q A b * emaR
  ring

/-- So the tile's total weight on a row is the row's total weight. -/
theorem tws_eq_wsum (t : ℕ) (r : Fin 2000) :
    UpdateTile.tws q (tileA A t) (top twoR epsR q A) (mass twoR epsR q A) r = wsum twoR epsR emaR q A (row t r) :=
  Finset.sum_congr rfl fun b _ => tw_eq_wt q A t r b

/-- The stored address piece is the updated address row: a (1 − s) + x = a + x − s a. -/
theorem address_eq_newA (t : ℕ) (r : Fin 2000) (k : Fin 64) :
    tileA A t r k * (1 - UpdateTile.tws q (tileA A t) (top twoR epsR q A) (mass twoR epsR q A) r)
        + ∑ b : Fin 1024, UpdateTile.tw q (tileA A t) (top twoR epsR q A) (mass twoR epsR q A) r b * q b k
      = newA twoR epsR emaR q A (row t r) k := by
  rw [tws_eq_wsum, Finset.sum_congr rfl fun b _ => by rw [tw_eq_wt]]
  show A (row t r) k * (1 - wsum twoR epsR emaR q A (row t r)) + ∑ b : Fin 1024, wt twoR epsR emaR q A b (row t r) * q b k
    = A (row t r) k + (∑ b : Fin 1024, wt twoR epsR emaR q A b (row t r) * q b k) - wsum twoR epsR emaR q A (row t r) * A (row t r) k
  ring

/-- The stored content piece is the updated content row. -/
theorem content_eq_newM (t : ℕ) (r : Fin 2000) (j : Fin 10) :
    tileMc Mc t r j * (1 - UpdateTile.tws q (tileA A t) (top twoR epsR q A) (mass twoR epsR q A) r)
        + ∑ b : Fin 1024, UpdateTile.tw q (tileA A t) (top twoR epsR q A) (mass twoR epsR q A) r b * qc b j
      = newM twoR epsR emaR q qc A Mc (row t r) j := by
  rw [tws_eq_wsum, Finset.sum_congr rfl fun b _ => by rw [tw_eq_wt]]
  show Mc (row t r) j * (1 - wsum twoR epsR emaR q A (row t r)) + ∑ b : Fin 1024, wt twoR epsR emaR q A b (row t r) * qc b j
    = Mc (row t r) j + (∑ b : Fin 1024, wt twoR epsR emaR q A b (row t r) * qc b j) - wsum twoR epsR emaR q A (row t r) * Mc (row t r) j
  ring

/-- The result's first 64 columns are the updated addresses. -/
theorem out_left (i : Fin 100000) (k : Fin 64) :
    out twoR epsR emaR q qc A Mc i (⟨k.val, by have := k.isLt; omega⟩ : Fin 74) = newA twoR epsR emaR q A i k := by
  unfold out
  rw [dif_pos (show (⟨k.val, by have := k.isLt; omega⟩ : Fin 74).val < 64 from k.isLt)]

/-- Its last 10 columns are the updated contents. -/
theorem out_right (i : Fin 100000) (j : Fin 10) :
    out twoR epsR emaR q qc A Mc i (⟨64 + j.val, by have := j.isLt; omega⟩ : Fin 74) = newM twoR epsR emaR q qc A Mc i j := by
  unfold out
  rw [dif_neg (show ¬ (⟨64 + j.val, by have := j.isLt; omega⟩ : Fin 74).val < 64 from by show ¬ 64 + j.val < 64; omega)]
  exact congrArg (newM twoR epsR emaR q qc A Mc i) (Fin.ext (by show 64 + j.val - 64 = j.val; omega))

end Reals

/-! ## The tile's two stored pieces, entry by entry -/

variable (q : Fin 1024 → Fin 64 → ℝ) (qc : Fin 1024 → Fin 10 → ℝ) (A : Fin 100000 → Fin 64 → ℝ) (Mc : Fin 100000 → Fin 10 → ℝ) (c : Dev nD)
  (hqt : ∀ (k : Fin 64) (b : Fin 1024), (V c main_call0_v0 : S64x1024.Idx → EReal) (ix2 k b) = ((q b k : ℝ) : EReal))
  (hQ : ∀ (b : Fin 1024) (k : Fin 64), (V c main_arg0 : S1024x64.Idx → EReal) (ix2 b k) = ((q b k : ℝ) : EReal))
  (hQc : ∀ (b : Fin 1024) (j : Fin 10), (V c main_arg1 : S1024x10.Idx → EReal) (ix2 b j) = ((qc b j : ℝ) : EReal))
  (hmax : ∀ b : Fin 1024, (V c main_call0_v1_0 : S1x1024.Idx → EReal) (ix2 (0 : Fin 1) b) = ((top twoR epsR q A b : ℝ) : EReal))
  (hsum : ∀ b : Fin 1024, (V c main_call0_v1_1 : S1x1024.Idx → EReal) (ix2 (0 : Fin 1) b) = ((mass twoR epsR q A b : ℝ) : EReal))
  (hA : ∀ (i : Fin 100000) (k : Fin 64), (V c main_arg2 : S100000x64.Idx → EReal) (ix2 i k) = ((A i k : ℝ) : EReal))
  (hMc : ∀ (i : Fin 100000) (j : Fin 10), (V c main_arg3 : S100000x10.Idx → EReal) (ix2 i j) = ((Mc i j : ℝ) : EReal))

/-- The seven input blocks at tile `t`, each at its literal shape. -/
abbrev bQt (t : Fin cfg1.N) : Vec Ideal S64x1024 .f32 := ublk V c 0 t
abbrev bQ (t : Fin cfg1.N) : Vec Ideal S1024x64 .f32 := ublk V c 1 t
abbrev bQc (t : Fin cfg1.N) : Vec Ideal S1024x10 .f32 := ublk V c 2 t
abbrev bMax (t : Fin cfg1.N) : Vec Ideal S1x1024 .f32 := ublk V c 3 t
abbrev bSum (t : Fin cfg1.N) : Vec Ideal S1x1024 .f32 := ublk V c 4 t
abbrev bA (t : Fin cfg1.N) : Vec Ideal S2000x64 .f32 := ublk V c 5 t
abbrev bMc (t : Fin cfg1.N) : Vec Ideal S2000x10 .f32 := ublk V c 6 t

include hqt hQ hmax hsum hA in
/-- The address columns of what tile `t` stores: the updated address rows of the tile's memory rows. -/
theorem left_cell (t : Fin cfg1.N) (r : Fin 2000) (k : Fin 64) :
    updBlock (bQt V c t) (bQ V c t) (bQc V c t) (bMax V c t) (bSum V c t) (bA V c t) (bMc V c t)
        (ix2 r (⟨k.val, by have := k.isLt; omega⟩ : Fin 74))
      = ((newA twoR epsR emaR q A (row t.val r) k : ℝ) : EReal) := by
  rw [updBlock_left,
    UpdateTile.address_apply q (tileA A t.val) (bQt V c t) (bA V c t)
      (fun k b => (ublk0_apply V c t k b).trans (hqt k b))
      (fun r k => (ublk5_apply V c t r k).trans (hA (row t.val r) k))
      (top twoR epsR q A) (mass twoR epsR q A) (bQ V c t) (bMax V c t) (bSum V c t)
      (fun b k => (ublk1_apply V c t b k).trans (hQ b k))
      (fun b => (ublk3_apply V c t 0 b).trans (hmax b))
      (fun b => (ublk4_apply V c t 0 b).trans (hsum b))
      (fun b => (mass_pos twoR epsR q A b).ne') r k,
    address_eq_newA]

include hqt hQc hmax hsum hA hMc in
/-- The content columns of what tile `t` stores: the updated content rows of the tile's memory rows. -/
theorem right_cell (t : Fin cfg1.N) (r : Fin 2000) (j : Fin 10) :
    updBlock (bQt V c t) (bQ V c t) (bQc V c t) (bMax V c t) (bSum V c t) (bA V c t) (bMc V c t)
        (ix2 r (⟨64 + j.val, by have := j.isLt; omega⟩ : Fin 74))
      = ((newM twoR epsR emaR q qc A Mc (row t.val r) j : ℝ) : EReal) := by
  rw [updBlock_right,
    UpdateTile.content_apply q (tileA A t.val) (bQt V c t) (bA V c t)
      (fun k b => (ublk0_apply V c t k b).trans (hqt k b))
      (fun r k => (ublk5_apply V c t r k).trans (hA (row t.val r) k))
      qc (tileMc Mc t.val) (top twoR epsR q A) (mass twoR epsR q A) (bQc V c t) (bMax V c t) (bSum V c t) (bMc V c t)
      (fun b j => (ublk2_apply V c t b j).trans (hQc b j))
      (fun r j => (ublk6_apply V c t r j).trans (hMc (row t.val r) j))
      (fun b => (ublk3_apply V c t 0 b).trans (hmax b))
      (fun b => (ublk4_apply V c t 0 b).trans (hsum b))
      (fun b => (mass_pos twoR epsR q A b).ne') r j,
    content_eq_newM]

/-! ## The result array -/

/-- A column of the result is an address column (below 64) or a content column (64 and up). -/
theorem col_cases (k' : Fin 74) :
    (∃ k : Fin 64, k' = ⟨k.val, by have := k.isLt; omega⟩) ∨ (∃ j : Fin 10, k' = ⟨64 + j.val, by have := j.isLt; omega⟩) := by
  rcases Nat.lt_or_ge k'.val 64 with h | h
  · exact .inl ⟨⟨k'.val, h⟩, rfl⟩
  · exact .inr ⟨⟨k'.val - 64, by have := k'.isLt; omega⟩, Fin.ext (by show k'.val = 64 + (k'.val - 64); omega)⟩

/-- What the result array ends holding: the mathematics' result, index by index. -/
abbrev resultG : S100000x74.Idx → EReal := fun i => ((out twoR epsR emaR q qc A Mc (i 0) (i 1) : ℝ) : EReal)

include hqt hQ hQc hmax hsum hA hMc in
/-- What tile `t` writes back is its block of `resultG`. -/
theorem flushed7_eq (t : Fin cfg1.N) :
    (dat1 V c).flushed 7 t = ((cfg1.win 7).blk t).view.read (Elt Ideal) (resultG q qc A Mc) := by
  show (cfg1.win 7).cut (grid1.coords t) ((dat1 V c).after 7 t) = _
  rw [after1_7]
  funext y
  obtain ⟨r, k', rfl⟩ : ∃ (r : Fin 2000) (k' : Fin 74), y = ix2 r k' := ⟨y 0, y 1, eq_ix2 y⟩
  rw [View.read_apply]
  show updBlock (bQt V c t) (bQ V c t) (bQc V c t) (bMax V c t) (bSum V c t) (bA V c t) (bMc V c t) (ix2 r k')
    = resultG q qc A Mc (((cfg1.win 7).blk t).view.emb (ix2 r k'))
  rw [emb7 t r k']
  show _ = ((out twoR epsR emaR q qc A Mc (row t.val r) k' : ℝ) : EReal)
  rcases col_cases k' with ⟨k, rfl⟩ | ⟨j, rfl⟩
  · rw [out_left]
    exact left_cell V q A c hqt hQ hmax hsum hA t r k
  · rw [out_right]
    exact right_cell V q qc A Mc c hqt hQc hmax hsum hA hMc t r j

include hqt hQ hQc hmax hsum hA hMc in
/-- THE RESULT: after the 50 tiles the result array holds the mathematics' result at every index. -/
theorem update_result (i : Fin 100000) (k : Fin 74) :
    ((dat1 V c).arrAt 7 cfg1.N : S100000x74.Idx → EReal) (ix2 i k) = ((out twoR epsR emaR q qc A Mc i k : ℝ) : EReal) :=
  congrFun ((dat1 V c).arrAt_eq_of_cover 7 (resultG q qc A Mc)
    (fun t _ => flushed7_eq V q qc A Mc c hqt hQ hQc hmax hsum hA hMc t) covered7) (ix2 i k)

end Cert.KernelIdeal.Hand

end
-- ==== Proof.Finite.lean ====
/-
  Finite inputs are real: under the precondition (every entry of the four inputs is smaller in absolute value than
  plus infinity) each input array is the coercion of a real array.
-/
import proofs.«144876_g70351564308696_cont_9to1_m_470_2_alg».proof.Pre_finite_inputs
import proofs.«144876_g70351564308696_cont_9to1_m_470_2_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Idealize.ShloMosaic.ValueIdx Cert.Pre_finite_inputs

variable [Cert.Pre_finite_inputs.Facts]

/-- The scalar shape has exactly one index. -/
private instance subsingleton_scalarIdx : Subsingleton S_.Idx := ⟨fun a b => funext fun d => d.elim0⟩

/-- The single-precision pattern `0x7F800000` denotes plus infinity. -/
private theorem inf_bits : Ideal.ofBits .f32 0x7F800000#32 = (⊤ : EReal) := by
  simp [Ideal.ofBits, Ideal.ieee]

/-- An extended real whose absolute value `max x (-x)` is strictly below plus infinity is neither infinity, hence
    the coercion of its real part. -/
private theorem real_of_abs_lt_inf (x : EReal)
    (h : Ideal.cmp .olt (max x (-x)) (Ideal.ofBits .f32 0x7F800000#32) = 1#1) : x = ((x.toReal : ℝ) : EReal) := by
  rw [inf_bits] at h
  induction x using EReal.rec with
  | bot => simp [Ideal.cmp] at h
  | coe r => simp
  | top => simp [Ideal.cmp] at h

/-- One input's conjunct: if the `and` over all entries of "`|x i| < +inf`" is true then every entry of `x` is real. -/
private theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ix0 = 1#1)
    (i : s.Idx) : x i = (((x i).toReal : ℝ) : EReal) :=
  real_of_abs_lt_inf (x i) (Host.reduce_andi_all _ _ hr hu ix0 e i)

theorem reals_of_finite (x0 : FVec Ideal S1024x64 .f32) (x1 : FVec Ideal S1024x10 .f32)
    (x2 : FVec Ideal S100000x64 .f32) (x3 : FVec Ideal S100000x10 .f32)
    (h : Cert.Pre_finite_inputs.fn (F := Ideal) x0 x1 x2 x3 = fun _ => 1#1) :
    (∃ q : Fin 1024 → Fin 64 → ℝ, ∀ b k, x0 (ix2 b k) = ((q b k : ℝ) : EReal))
    ∧ (∃ qc : Fin 1024 → Fin 10 → ℝ, ∀ b j, x1 (ix2 b j) = ((qc b j : ℝ) : EReal))
    ∧ (∃ A : Fin 100000 → Fin 64 → ℝ, ∀ i k, x2 (ix2 i k) = ((A i k : ℝ) : EReal))
    ∧ (∃ Mc : Fin 100000 → Fin 10 → ℝ, ∀ i j, x3 (ix2 i j) = ((Mc i j : ℝ) : EReal)) := by
  have h0 := congrFun h ix0
  dsimp only [Cert.Pre_finite_inputs.fn, Cert.Pre_finite_inputs.fn_part1] at h0
  -- the result is the conjunction ((c0 ∧ c1) ∧ c2) ∧ c3 of the four inputs' conjuncts
  obtain ⟨h012, h3⟩ := IntOp.andi_eq_one.1 h0
  obtain ⟨h01, h2⟩ := IntOp.andi_eq_one.1 h012
  obtain ⟨h0', h1⟩ := IntOp.andi_eq_one.1 h01
  exact ⟨⟨fun b k => (x0 (ix2 b k)).toReal, fun b k => real_of_all _ _ _ x0 h0' (ix2 b k)⟩,
    ⟨fun b j => (x1 (ix2 b j)).toReal, fun b j => real_of_all _ _ _ x1 h1 (ix2 b j)⟩,
    ⟨fun i k => (x2 (ix2 i k)).toReal, fun i k => real_of_all _ _ _ x2 h2 (ix2 i k)⟩,
    ⟨fun i j => (x3 (ix2 i j)).toReal, fun i j => real_of_all _ _ _ x3 h3 (ix2 i j)⟩⟩

end Cert.Finite

end
-- ==== Proof.KI.Value.lean ====
/-
  The idealized kernel's result on finite inputs. The inputs are coercions of real arrays; the host transposition
  hands the statistics pass the queries transposed; that pass leaves each query's maximum negated distance and
  partition sum; the update pass, reading those, leaves the softmin-weighted update of the specification.
-/
import proofs.«144876_g70351564308696_cont_9to1_m_470_2_alg».proof.Proof.KI.Run
import proofs.«144876_g70351564308696_cont_9to1_m_470_2_alg».proof.Proof.KI.StatsValue
import proofs.«144876_g70351564308696_cont_9to1_m_470_2_alg».proof.Proof.KI.UpdateValue
import proofs.«144876_g70351564308696_cont_9to1_m_470_2_alg».proof.Proof.Finite
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Consts Cert.Softmin

variable (m : (ℓ : Loc nD τ sig) → Buf (Elt Ideal) ℓ) (ρ : Dev nD → PrngReg)

/-- The host stretch writes the transposed queries. -/
theorem V1_qt (c : Dev nD) :
    V1 m ρ c main_call0_v0 = transpose S64x1024 [1, 0] (m ((c : Thread nD τ).loc main_arg0)) Facts₀.transposes_S1024x64_S64x1024_1_0 := by
  show StableHlo.after hostOps0 (fun b => m ((c : Dev nD), b)) (Proc.devRef .tc main_call0_v0) = _
  after_results
  rfl

section
variable (q : Fin 1024 → Fin 64 → ℝ) (qc : Fin 1024 → Fin 10 → ℝ) (A : Fin 100000 → Fin 64 → ℝ) (Mc : Fin 100000 → Fin 10 → ℝ) (c : Dev nD)
  (h0 : ∀ (b : Fin 1024) (k : Fin 64), (m ((c : Thread nD τ).loc main_arg0) : S1024x64.Idx → EReal) (ix2 b k) = ((q b k : ℝ) : EReal))
  (h1 : ∀ (b : Fin 1024) (j : Fin 10), (m ((c : Thread nD τ).loc main_arg1) : S1024x10.Idx → EReal) (ix2 b j) = ((qc b j : ℝ) : EReal))
  (h2 : ∀ (i : Fin 100000) (k : Fin 64), (m ((c : Thread nD τ).loc main_arg2) : S100000x64.Idx → EReal) (ix2 i k) = ((A i k : ℝ) : EReal))
  (h3 : ∀ (i : Fin 100000) (j : Fin 10), (m ((c : Thread nD τ).loc main_arg3) : S100000x10.Idx → EReal) (ix2 i j) = ((Mc i j : ℝ) : EReal))

include h0 in
/-- Entry (k, b) of the transposed queries is entry (b, k) of the queries. -/
theorem qt_real (k : Fin 64) (b : Fin 1024) : (V1 m ρ c main_call0_v0 : S64x1024.Idx → EReal) (ix2 k b) = ((q b k : ℝ) : EReal) := by
  rw [V1_qt]
  exact (transpose_ix2_apply _ Facts₀.transposes_S1024x64_S64x1024_1_0 k b).trans (h0 b k)

include h0 h1 h2 h3 in
/-- THE KERNEL'S RESULT on real inputs: the specification's update, entry by entry. -/
theorem kernel_result (i : Fin 100000) (k : Fin 74) :
    ((dat1 (V2 m ρ) c).arrAt 7 cfg1.N : S100000x74.Idx → EReal) (ix2 i k) = ((out twoR epsR emaR q qc A Mc i k : ℝ) : EReal) := by
  have hqt1 := qt_real m ρ q c h0
  have hA1 : ∀ (i : Fin 100000) (k : Fin 64), (V1 m ρ c main_arg2 : S100000x64.Idx → EReal) (ix2 i k) = ((A i k : ℝ) : EReal) := fun i k => by
    rw [V1_main_arg2]; exact h2 i k
  refine update_result (V2 m ρ) q qc A Mc c ?_ ?_ ?_ ?_ ?_ ?_ ?_ i k
  · intro k b; rw [V2_qt]; exact hqt1 k b
  · intro b k; rw [V2_main_arg0]; exact h0 b k
  · intro b j; rw [V2_main_arg1]; exact h1 b j
  · intro b; rw [V2_max]; exact stats_max (V1 m ρ) q A c hqt1 hA1 b
  · intro b; rw [V2_sum]; exact stats_sum (V1 m ρ) q A c hqt1 hA1 b
  · intro i k; rw [V2_main_arg2]; exact h2 i k
  · intro i j; rw [V2_main_arg3]; exact h3 i j

end

end Cert.KernelIdeal.Hand

end
-- ==== Proof.RefValue.lean ====
/-
  The reference program's result, entry by entry over the reals: on real inputs its last stage is the updated
  addresses and contents of the specification, coerced. Each named intermediate of the specification is read
  off the stage that computes it, bottom-up: squared norms, cross term, negated distance, row maximum, partition
  sum, weight, total weight, and the two updates.
-/
import proofs.«144876_g70351564308696_cont_9to1_m_470_2_alg».proof.Proof.RefReadP
import proofs.«144876_g70351564308696_cont_9to1_m_470_2_alg».proof.Proof.Spec
import proofs.«144876_g70351564308696_cont_9to1_m_470_2_alg».proof.Proof.Consts

noncomputable section

open scoped BigOperators

namespace Cert.ReferenceIdeal.RefValue

open Cert.ReferenceIdeal Cert.ReferenceIdeal.Gen Idealize.ShloMosaic Idealize.ShloMosaic.ValueIdx Cert.Consts Cert.Softmin
open Cert.ReferenceIdeal.ReadP

/-! ## Coercions from the reals -/

/-- The coercion of a finite sum of reals is the sum of the coercions. -/
private theorem coe_sum {ι : Type} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The coercion is monotone, so it commutes with the maximum of two reals. -/
private theorem coe_max (x y : ℝ) : ((max x y : ℝ) : EReal) = max (x : EReal) (y : EReal) :=
  EReal.coe_strictMono.monotone.map_max

/-- The fold of the maximum from minus infinity over a nonempty finite family of reals is the family's largest
    member: each side is below the other, by the universal property of each. -/
private theorem fold_max_bot_coe {n : Nat} (hn : (Finset.univ : Finset (Fin n)).Nonempty) (f : Fin n → ℝ)
    (g : Fin n → EReal) (hg : ∀ k, g k = ((f k : ℝ) : EReal)) :
    (Finset.univ : Finset (Fin n)).fold max (⊥ : EReal) g = ((Finset.univ.sup' hn f : ℝ) : EReal) := by
  apply le_antisymm
  · rw [Finset.fold_max_le]
    exact ⟨bot_le, fun k _ => by rw [hg]; exact EReal.coe_le_coe_iff.2 (Finset.le_sup' f (Finset.mem_univ k))⟩
  · obtain ⟨k, _, hk⟩ := Finset.exists_mem_eq_sup' hn f
    rw [hk, Finset.le_fold_max]
    exact Or.inr ⟨k, Finset.mem_univ k, by rw [hg]⟩

variable (q : Fin 1024 → Fin 64 → ℝ) (qc : Fin 1024 → Fin 10 → ℝ) (A : Fin 100000 → Fin 64 → ℝ) (Mc : Fin 100000 → Fin 10 → ℝ)
  (x0 : (⟨S1024x64, .f32⟩ : BufTy).Contents (Elt Ideal)) (x1 : (⟨S1024x10, .f32⟩ : BufTy).Contents (Elt Ideal))
  (x2 : (⟨S100000x64, .f32⟩ : BufTy).Contents (Elt Ideal)) (x3 : (⟨S100000x10, .f32⟩ : BufTy).Contents (Elt Ideal))
  (h0 : ∀ (b : Fin 1024) (k : Fin 64), x0 (ix2 b k) = ((q b k : ℝ) : EReal))
  (h1 : ∀ (b : Fin 1024) (j : Fin 10), x1 (ix2 b j) = ((qc b j : ℝ) : EReal))
  (h2 : ∀ (i : Fin 100000) (k : Fin 64), x2 (ix2 i k) = ((A i k : ℝ) : EReal))
  (h3 : ∀ (i : Fin 100000) (j : Fin 10), x3 (ix2 i j) = ((Mc i j : ℝ) : EReal))

/-! ## The squared norms and the cross term -/

include h0 in
/-- The squared norm of a query row. -/
private theorem v1_eq (b : Fin 1024) :
    val_main_v1 (F := Ideal) x0 (ix1 b) = ((∑ k, q b k * q b k : ℝ) : EReal) := by
  rw [val_main_v1_apply, val_main_cst_apply, Ideal.ofBits_def, ofBits_zero, zero_add, coe_sum]
  refine Finset.sum_congr rfl fun k _ => ?_
  rw [show idx_main_v1 (ix1 b) k = ix2 b k from funext fun a => Fin.ext (by match a with | ⟨0, _⟩ => rfl | ⟨1, _⟩ => rfl),
    val_main_v0_apply, Ideal.mulf_def, h0, ← EReal.coe_mul]

include h0 in
/-- … spread along every memory row. -/
private theorem v6_eq (b : Fin 1024) (i : Fin 100000) :
    val_main_v6 (F := Ideal) x0 (ix2 b i) = ((∑ k, q b k * q b k : ℝ) : EReal) := by
  rw [val_main_v6_apply, val_main_v2_apply,
    show idx_main_v2 (idx_main_v6 (ix2 b i)) = ix1 b from funext fun a => Fin.ext (by match a with | ⟨0, _⟩ => rfl)]
  exact v1_eq q x0 h0 b

include h2 in
/-- The squared norm of a memory row. -/
private theorem v4_eq (i : Fin 100000) :
    val_main_v4 (F := Ideal) x2 (ix1 i) = ((∑ k, A i k * A i k : ℝ) : EReal) := by
  rw [val_main_v4_apply, val_main_cst_0_apply, Ideal.ofBits_def, ofBits_zero, zero_add, coe_sum]
  refine Finset.sum_congr rfl fun k _ => ?_
  rw [show idx_main_v4 (ix1 i) k = ix2 i k from funext fun a => Fin.ext (by match a with | ⟨0, _⟩ => rfl | ⟨1, _⟩ => rfl),
    val_main_v3_apply, Ideal.mulf_def, h2, ← EReal.coe_mul]

include h2 in
/-- … spread along every query. -/
private theorem v7_eq (b : Fin 1024) (i : Fin 100000) :
    val_main_v7 (F := Ideal) x2 (ix2 b i) = ((∑ k, A i k * A i k : ℝ) : EReal) := by
  rw [val_main_v7_apply, val_main_v5_apply,
    show idx_main_v5 (idx_main_v7 (ix2 b i)) = ix1 i from funext fun a => Fin.ext (by match a with | ⟨0, _⟩ => rfl)]
  exact v4_eq A x2 h2 i

include h0 h2 in
/-- The inner product of a query row and a memory row. -/
private theorem v10_eq (b : Fin 1024) (i : Fin 100000) :
    val_main_v10 (F := Ideal) x0 x2 (ix2 b i) = ((∑ k, q b k * A i k : ℝ) : EReal) := by
  rw [val_main_v10_apply, coe_sum]
  refine Finset.sum_congr rfl fun k _ => ?_
  rw [show lidx_main_v10 (ix2 b i) k = ix2 b k from funext fun a => Fin.ext (by match a with | ⟨0, _⟩ => rfl | ⟨1, _⟩ => rfl),
    val_main_v9_apply,
    show idx_main_v9 (ridx_main_v10 (ix2 b i) k) = ix2 i k from funext fun a => Fin.ext (by match a with | ⟨0, _⟩ => rfl | ⟨1, _⟩ => rfl),
    h0, h2, ← EReal.coe_mul]

/-! ## The negated distance -/

include h0 h2 in
/-- The squared distance, expanded. -/
private theorem v13_eq (b : Fin 1024) (i : Fin 100000) :
    val_main_v13 (F := Ideal) x0 x2 (ix2 b i)
      = (((∑ k, q b k * q b k) + (∑ k, A i k * A i k) - twoR * ∑ k, q b k * A i k : ℝ) : EReal) := by
  rw [val_main_v13_apply, val_main_v8_apply, val_main_v12_apply, val_main_v11_apply, val_main_cst_1_apply,
    v6_eq q x0 h0 b i, v7_eq A x2 h2 b i, v10_eq q A x0 x2 h0 h2 b i,
    Ideal.ofBits_def, ofBits_two, Ideal.subf_def, Ideal.addf_def, Ideal.mulf_def,
    ← EReal.coe_add, ← EReal.coe_mul, ← EReal.coe_sub]

include h0 h2 in
/-- Clamped at zero and smoothed: what goes under the square root. -/
private theorem v17_eq (b : Fin 1024) (i : Fin 100000) :
    val_main_v17 (F := Ideal) x0 x2 (ix2 b i)
      = ((max ((∑ k, q b k * q b k) + (∑ k, A i k * A i k) - twoR * ∑ k, q b k * A i k) 0 + epsR : ℝ) : EReal) := by
  rw [val_main_v17_apply, val_main_v15_apply, val_main_v14_apply, val_main_cst_2_apply, val_main_v16_apply,
    val_main_cst_3_apply, v13_eq q A x0 x2 h0 h2 b i]
  simp only [Ideal.ofBits_def, Ideal.addf_def, Ideal.maximumf_def]
  rw [ofBits_zero, ofBits_eps, ← EReal.coe_zero, ← coe_max, ← EReal.coe_add]

include h0 h2 in
/-- The negated smoothed distance. -/
private theorem v21_eq (b : Fin 1024) (i : Fin 100000) :
    val_main_v21 (F := Ideal) x0 x2 (ix2 b i) = ((nd twoR epsR q A b i : ℝ) : EReal) := by
  have hnn : ¬ (max ((∑ k, q b k * q b k) + (∑ k, A i k * A i k) - twoR * ∑ k, q b k * A i k) 0 + epsR) < 0 :=
    not_lt.2 (add_nonneg (le_max_right _ _) epsR_nonneg)
  rw [val_main_v21_apply, val_main_v19_apply, val_main_v18_apply, val_main_v20_apply, val_main_cst_4_apply,
    v17_eq q A x0 x2 h0 h2 b i]
  simp only [Ideal.ofBits_def, Ideal.hostUnary_sqrt_def, Ideal.hostNegf_def, Ideal.negf_def, Ideal.hostDivf_def]
  rw [ofBits_one, Ideal.sqrt_coe, if_neg hnn, ← EReal.coe_neg, ← EReal.coe_one, Ideal.div_coe one_ne_zero,
    ← EReal.coe_mul, one_div_one, mul_one]
  rfl

/-! ## The row maximum -/

include h0 h2 in
/-- The reduction with the maximum over the memory rows, from minus infinity. -/
private theorem v22_eq (b : Fin 1024) :
    val_main_v22 (F := Ideal) x0 x2 (ix1 b) = ((top twoR epsR q A b : ℝ) : EReal) := by
  have hv := v21_eq q A x0 x2 h0 h2 b
  unfold val_main_v22
  generalize val_main_v21 (F := Ideal) x0 x2 = y at hv ⊢
  refine (Host.reduce_eq_fold_single (s := S1024x100000) (t := S1024) (a := 1) (u := S_)
    (FloatOps.maximumf (F := Ideal) (φ := .f32)) y (val_main_cst_5 (F := Ideal))
    reducesTo_S1024x100000_S1024_d1 (by decide) h_S_ (ix1 b)).trans ?_
  rw [val_main_cst_5_apply, Ideal.ofBits_def, ofBits_neg_inf]
  exact fold_max_bot_coe (n := 100000) Finset.univ_nonempty (nd twoR epsR q A b) _ (fun k => by
    show y _ = _
    rw [← hv k]
    exact congrArg y (funext fun a => Fin.ext (by match a with | ⟨0, _⟩ => rfl | ⟨1, _⟩ => rfl)))

include h0 h2 in
/-- … joined once more with minus infinity. -/
private theorem v24_eq (b : Fin 1024) :
    val_main_v24 (F := Ideal) x0 x2 (ix1 b) = ((top twoR epsR q A b : ℝ) : EReal) := by
  rw [val_main_v24_apply, val_main_v23_apply, val_main_cst_6_apply, v22_eq q A x0 x2 h0 h2 b,
    Ideal.ofBits_def, ofBits_neg_inf, Ideal.maximumf_def]
  exact max_eq_right bot_le

/-! ## The weights -/

include h0 h2 in
/-- The exponential of the negated distance against the row maximum. -/
private theorem v28_eq (b : Fin 1024) (i : Fin 100000) :
    val_main_v28 (F := Ideal) x0 x2 (ix2 b i)
      = ((Real.exp (nd twoR epsR q A b i - top twoR epsR q A b) : ℝ) : EReal) := by
  rw [val_main_v28_apply, val_main_v27_apply, val_main_v26_apply, val_main_v25_apply,
    show idx_main_v25 (idx_main_v26 (ix2 b i)) = ix1 b from funext fun a => Fin.ext (by match a with | ⟨0, _⟩ => rfl),
    v21_eq q A x0 x2 h0 h2 b i, v24_eq q A x0 x2 h0 h2 b,
    Ideal.subf_def, ← EReal.coe_sub, Ideal.hostUnary_exp_def, Ideal.exp_coe]

include h0 h2 in
/-- The partition sum. -/
private theorem v29_eq (b : Fin 1024) :
    val_main_v29 (F := Ideal) x0 x2 (ix1 b) = ((mass twoR epsR q A b : ℝ) : EReal) := by
  rw [val_main_v29_apply, val_main_cst_7_apply, Ideal.ofBits_def, ofBits_zero, zero_add]
  unfold mass
  rw [coe_sum]
  refine Finset.sum_congr rfl fun k _ => ?_
  rw [show idx_main_v29 (ix1 b) k = ix2 b k from funext fun a => Fin.ext (by match a with | ⟨0, _⟩ => rfl | ⟨1, _⟩ => rfl),
    v28_eq q A x0 x2 h0 h2 b k]

/-- A sum of exponentials over the memory rows is positive. -/
private theorem mass_pos' (b : Fin 1024) : 0 < mass twoR epsR q A b :=
  Finset.sum_pos (fun i _ => Real.exp_pos _) Finset.univ_nonempty

include h0 h2 in
/-- The weight: the exponential over the partition sum, times the moving-average factor. -/
private theorem v34_eq (b : Fin 1024) (i : Fin 100000) :
    val_main_v34 (F := Ideal) x0 x2 (ix2 b i) = ((wt twoR epsR emaR q A b i : ℝ) : EReal) := by
  rw [val_main_v34_apply, val_main_v32_apply, val_main_v31_apply, val_main_v30_apply,
    show idx_main_v30 (idx_main_v31 (ix2 b i)) = ix1 b from funext fun a => Fin.ext (by match a with | ⟨0, _⟩ => rfl),
    val_main_v33_apply, val_main_cst_8_apply,
    v28_eq q A x0 x2 h0 h2 b i, v29_eq q A x0 x2 h0 h2 b,
    Ideal.ofBits_def, ofBits_ema, Ideal.hostDivf_def, Ideal.div_coe (ne_of_gt (mass_pos' q A b)), Ideal.mulf_def,
    ← EReal.coe_mul, ← EReal.coe_mul]
  unfold wt
  rw [mul_one_div]

include h0 h2 in
/-- The total weight on a memory row. -/
private theorem v35_eq (i : Fin 100000) :
    val_main_v35 (F := Ideal) x0 x2 (ix1 i) = ((wsum twoR epsR emaR q A i : ℝ) : EReal) := by
  rw [val_main_v35_apply, val_main_cst_9_apply, Ideal.ofBits_def, ofBits_zero, zero_add]
  unfold wsum
  rw [coe_sum]
  refine Finset.sum_congr rfl fun b _ => ?_
  rw [show idx_main_v35 (ix1 i) b = ix2 b i from funext fun a => Fin.ext (by match a with | ⟨0, _⟩ => rfl | ⟨1, _⟩ => rfl),
    v34_eq q A x0 x2 h0 h2 b i]

/-! ## The two updates -/

include h0 h2 in
/-- The updated address row. -/
private theorem v42_eq (i : Fin 100000) (k : Fin 64) :
    val_main_v42 (F := Ideal) x0 x2 (ix2 i k) = ((newA twoR epsR emaR q A i k : ℝ) : EReal) := by
  have hs : (∑ b : Fin 1024, val_main_v36 (F := Ideal) x0 x2 (lidx_main_v37 (ix2 i k) b) * x0 (ridx_main_v37 (ix2 i k) b))
      = ((∑ b, wt twoR epsR emaR q A b i * q b k : ℝ) : EReal) := by
    rw [coe_sum]
    refine Finset.sum_congr rfl fun b _ => ?_
    rw [val_main_v36_apply,
      show idx_main_v36 (lidx_main_v37 (ix2 i k) b) = ix2 b i from funext fun a => Fin.ext (by match a with | ⟨0, _⟩ => rfl | ⟨1, _⟩ => rfl),
      show ridx_main_v37 (ix2 i k) b = ix2 b k from funext fun a => Fin.ext (by match a with | ⟨0, _⟩ => rfl | ⟨1, _⟩ => rfl),
      v34_eq q A x0 x2 h0 h2 b i, h0, ← EReal.coe_mul]
  rw [val_main_v42_apply, val_main_v38_apply, val_main_v41_apply, val_main_v40_apply, val_main_v39_apply,
    show idx_main_v39 (idx_main_v40 (ix2 i k)) = ix1 i from funext fun a => Fin.ext (by match a with | ⟨0, _⟩ => rfl),
    v35_eq q A x0 x2 h0 h2 i, val_main_v37_apply, hs, h2,
    Ideal.subf_def, Ideal.addf_def, Ideal.mulf_def, ← EReal.coe_add, ← EReal.coe_mul, ← EReal.coe_sub]
  rfl

include h0 h1 h2 h3 in
/-- The updated content row. -/
private theorem v49_eq (i : Fin 100000) (j : Fin 10) :
    val_main_v49 (F := Ideal) x0 x1 x2 x3 (ix2 i j) = ((newM twoR epsR emaR q qc A Mc i j : ℝ) : EReal) := by
  have hs : (∑ b : Fin 1024, val_main_v43 (F := Ideal) x0 x2 (lidx_main_v44 (ix2 i j) b) * x1 (ridx_main_v44 (ix2 i j) b))
      = ((∑ b, wt twoR epsR emaR q A b i * qc b j : ℝ) : EReal) := by
    rw [coe_sum]
    refine Finset.sum_congr rfl fun b _ => ?_
    rw [val_main_v43_apply,
      show idx_main_v43 (lidx_main_v44 (ix2 i j) b) = ix2 b i from funext fun a => Fin.ext (by match a with | ⟨0, _⟩ => rfl | ⟨1, _⟩ => rfl),
      show ridx_main_v44 (ix2 i j) b = ix2 b j from funext fun a => Fin.ext (by match a with | ⟨0, _⟩ => rfl | ⟨1, _⟩ => rfl),
      v34_eq q A x0 x2 h0 h2 b i, h1, ← EReal.coe_mul]
  rw [val_main_v49_apply, val_main_v45_apply, val_main_v48_apply, val_main_v47_apply, val_main_v46_apply,
    show idx_main_v46 (idx_main_v47 (ix2 i j)) = ix1 i from funext fun a => Fin.ext (by match a with | ⟨0, _⟩ => rfl),
    v35_eq q A x0 x2 h0 h2 i, val_main_v44_apply, hs, h3,
    Ideal.subf_def, Ideal.addf_def, Ideal.mulf_def, ← EReal.coe_add, ← EReal.coe_mul, ← EReal.coe_sub]
  rfl

/-! ## The result: the two updates side by side -/

include h0 h1 h2 h3 in
theorem ref_apply (i : Fin 100000) (k : Fin 74) :
    Cert.ReferenceIdeal.ReadP.val_main_v50 (F := Ideal) x0 x1 x2 x3 (ix2 i k)
      = ((out twoR epsR emaR q qc A Mc i k : ℝ) : EReal) := by
  unfold Cert.ReferenceIdeal.ReadP.val_main_v50 out
  by_cases hk : k.val < 64
  · rw [dif_pos hk]
    refine (concatenate_pair_apply_left (1 : Fin S100000x74.rank) _ _
      concatenates_S100000x64_S100000x10_S100000x74_d1 (ix2 i k) rfl (ix2 i ⟨k.val, hk⟩)
      (fun b => by match b with | ⟨0, _⟩ => rfl | ⟨1, _⟩ => rfl)).trans ?_
    exact v42_eq q A x0 x2 h0 h2 i ⟨k.val, hk⟩
  · rw [dif_neg hk]
    have hk' : k.val - 64 < 10 := by have := k.isLt; omega
    refine (concatenate_pair_apply_right (1 : Fin S100000x74.rank) _ _
      concatenates_S100000x64_S100000x10_S100000x74_d1 (ix2 i k) rfl rfl (ix2 i ⟨k.val - 64, hk'⟩)
      (fun b hb => by
        match b, hb with
        | ⟨0, _⟩, _ => rfl
        | ⟨1, _⟩, hb => exact absurd rfl hb)
      (by show k.val - 64 + 64 = k.val; omega)).trans ?_
    exact v49_eq q qc A Mc x0 x1 x2 x3 h0 h1 h2 h3 i ⟨k.val - 64, hk'⟩

end Cert.ReferenceIdeal.RefValue

end
-- ==== Proof.lean ====
/-
  A softmin-weighted memory update, proved equal to its plain reference over the extended reals.

  For 1024 queries and 100000 memory rows the reference forms all negated smoothed distances, takes per query the
  softmax over the memory rows (against the row maximum), scales by a moving-average factor, sums the weights per
  memory row and returns  A + Wᵀ·q − wsum·A  beside the same for the contents. The kernel never forms the
  1024 × 100000 weight matrix. A first pass over the memory in 50 tiles keeps, per query, a running maximum and a
  running partition sum, rescaling the sum by exp(old maximum − new maximum) whenever the maximum grows; over the
  reals that rescaling is exact, so after the last tile the two are the reference's maximum and partition sum. A
  second pass recomputes each tile's distances, forms the weights as exp(distance − maximum)·(factor / sum) and stores
  row·(1 − Σ weights) + weights·queries. On finite inputs every quantity is a real number, and there
  e·(c/S) = (e/S)·c  and  a·(1 − s) + x = a + x − s·a, which joins the two sides entry by entry.

  The frames of both kernel programs are the run of the two passes as pipeline regions; the reference's frame is its
  run with the result dropped.
-/
import proofs.«144876_g70351564308696_cont_9to1_m_470_2_alg».proof.Defs
import proofs.«144876_g70351564308696_cont_9to1_m_470_2_alg».proof.Proof.Gen.Kernel
import proofs.«144876_g70351564308696_cont_9to1_m_470_2_alg».proof.Proof.Gen.KernelIdeal
import proofs.«144876_g70351564308696_cont_9to1_m_470_2_alg».proof.Proof.Gen.ReferenceIdeal
import proofs.«144876_g70351564308696_cont_9to1_m_470_2_alg».proof.Proof.Gen.Pre_finite_inputs
import proofs.«144876_g70351564308696_cont_9to1_m_470_2_alg».proof.Proof.K.Run
import proofs.«144876_g70351564308696_cont_9to1_m_470_2_alg».proof.Proof.KI.Value
import proofs.«144876_g70351564308696_cont_9to1_m_470_2_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs to the end and leaves its four inputs unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On finite inputs the two idealized programs end with the same array: both hold the specification's update, the
    kernel through its two passes, the reference through its last stage. -/
theorem algebraic : Cert.algebraic_KernelIdeal_ReferenceIdeal := by
  intro m ρ m' ρ' hpre hagree
  refine ⟨fun c => (Cert.KernelIdeal.Hand.dat1 (Cert.KernelIdeal.Hand.V2 m ρ) c).arrAt 7 Cert.KernelIdeal.cfg1.N,
    Cert.KernelIdeal.Hand.result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨⟨q, hq⟩, ⟨qc, hqc⟩, ⟨A, hA⟩, ⟨Mc, hMc⟩⟩ := Cert.Finite.reals_of_finite _ _ _ _ (hpre c)
  rw [Cert.ReferenceIdeal.ReadP.val_main_v50_eq, (hagree c).1, (hagree c).2.1, (hagree c).2.2.1, (hagree c).2.2.2]
  funext j
  obtain ⟨i, k, rfl⟩ : ∃ (i : Fin 100000) (k : Fin 74), j = ix2 i k := ⟨j 0, j 1, eq_ix2 j⟩
  exact (Cert.ReferenceIdeal.RefValue.ref_apply q qc A Mc _ _ _ _ hq hqc hA hMc i k).trans
    (Cert.KernelIdeal.Hand.kernel_result m ρ q qc A Mc c hq hqc hA hMc i k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
